-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S100000x200 : Shape := ⟨2, ![100000, 200]⟩
abbrev S200x200 : Shape := ⟨2, ![200, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S100000 : Shape := ⟨1, ![100000]⟩
abbrev S1 : Shape := ⟨1, ![1]⟩
abbrev S32 : Shape := ⟨1, ![32]⟩
abbrev S_ : Shape := ⟨0, ![]⟩

class Facts : Prop where
  bcast_S_S100000x200 : S_.BroadcastsInDim S100000x200 (![] : Fin 0 → Fin S100000x200.rank)
  reducesTo_S100000x200_S_d0_1 : S100000x200.ReducesTo [0, 1] S_
  h_S_ : 0 < S_.numel
  bcast_S_S200x200 : S_.BroadcastsInDim S200x200 (![] : Fin 0 → Fin S200x200.rank)
  reducesTo_S200x200_S_d0_1 : S200x200.ReducesTo [0, 1] S_
  bcast_S_S288x200 : S_.BroadcastsInDim S288x200 (![] : Fin 0 → Fin S288x200.rank)
  reducesTo_S288x200_S_d0_1 : S288x200.ReducesTo [0, 1] S_
  bcast_S_S288 : S_.BroadcastsInDim S288 (![] : Fin 0 → Fin S288.rank)
  reducesTo_S288_S_d0 : S288.ReducesTo [0] S_
  bcast_S_S200x6144 : S_.BroadcastsInDim S200x6144 (![] : Fin 0 → Fin S200x6144.rank)
  reducesTo_S200x6144_S_d0_1 : S200x6144.ReducesTo [0, 1] S_
  bcast_S_S200 : S_.BroadcastsInDim S200 (![] : Fin 0 → Fin S200.rank)
  reducesTo_S200_S_d0 : S200.ReducesTo [0] S_
  bcast_S_S100000 : S_.BroadcastsInDim S100000 (![] : Fin 0 → Fin S100000.rank)
  reducesTo_S100000_S_d0 : S100000.ReducesTo [0] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_
  bcast_S_S1024 : S_.BroadcastsInDim S1024 (![] : Fin 0 → Fin S1024.rank)
  reducesTo_S1024_S_d0 : S1024.ReducesTo [0] S_

variable [Facts]

def fn_part6 {F : FTy → Type} [FloatOps F] (main_arg1 : IVec S1024 32) (main_v100 : IVec S_ 1) (main_v101 : IVec S1024 32) : IVec S_ 1 :=
  let main_v102 : IVec S1024 1 := cmpi .sge main_arg1 main_v101
  let main_c_40 : IVec S_ 32 := constantI S_ 32 200#32
  let main_v103 : IVec S1024 32 := broadcastInDim S1024 ![] bcast_S_S1024 main_c_40
  let main_v104 : IVec S1024 1 := cmpi .slt main_arg1 main_v103
  let main_v105 : IVec S1024 1 := andi main_v102 main_v104
  let main_c_41 : IVec S_ 1 := constantI S_ 1 1#1
  let main_v106 : IVec S_ 1 := (fun x v => Host.reduce IntOp.andi x v reducesTo_S1024_S_d0 h_S_) main_v105 main_c_41
  let main_v107 : IVec S_ 1 := andi main_v100 main_v106
  main_v107

def fn_part5 {F : FTy → Type} [FloatOps F] (main_arg0 : IVec S1024 32) (main_arg1 : IVec S1024 32) (main_arg20 : FVec F S200 .f32) (main_v83 : IVec S_ 1) (main_v84 : FVec F S200 .f32) (main_cst_32 : FVec F S_ .f32) : IVec S_ 1 :=
  let main_v85 : FVec F S200 .f32 := broadcastInDim S200 ![] bcast_S_S200 main_cst_32
  let main_v86 : IVec S200 1 := cmpf .olt main_v84 main_v85
  let main_c_33 : IVec S_ 1 := constantI S_ 1 1#1
  let main_v87 : IVec S_ 1 := (fun x v => Host.reduce IntOp.andi x v reducesTo_S200_S_d0 h_S_) main_v86 main_c_33
  let main_v88 : IVec S_ 1 := andi main_v83 main_v87
  let main_v89 : FVec F S200 .f32 := Host.absf main_arg20
  let main_cst_34 : FVec F S_ .f32 := constant S_ .f32 0x7F800000#32
  let main_v90 : FVec F S200 .f32 := broadcastInDim S200 ![] bcast_S_S200 main_cst_34
  let main_v91 : IVec S200 1 := cmpf .olt main_v89 main_v90
  let main_c_35 : IVec S_ 1 := constantI S_ 1 1#1
  let main_v92 : IVec S_ 1 := (fun x v => Host.reduce IntOp.andi x v reducesTo_S200_S_d0 h_S_) main_v91 main_c_35
  let main_v93 : IVec S_ 1 := andi main_v88 main_v92
  let main_c_36 : IVec S_ 32 := constantI S_ 32 0#32
  let main_v94 : IVec S1024 32 := broadcastInDim S1024 ![] bcast_S_S1024 main_c_36
  let main_v95 : IVec S1024 1 := cmpi .sge main_arg0 main_v94
  let main_c_37 : IVec S_ 32 := constantI S_ 32 100000#32
  let main_v96 : IVec S1024 32 := broadcastInDim S1024 ![] bcast_S_S1024 main_c_37
  let main_v97 : IVec S1024 1 := cmpi .slt main_arg0 main_v96
  let main_v98 : IVec S1024 1 := andi main_v95 main_v97
  let main_c_38 : IVec S_ 1 := constantI S_ 1 1#1
  let main_v99 : IVec S_ 1 := (fun x v => Host.reduce IntOp.andi x v reducesTo_S1024_S_d0 h_S_) main_v98 main_c_38
  let main_v100 : IVec S_ 1 := andi main_v93 main_v99
  let main_c_39 : IVec S_ 32 := constantI S_ 32 0#32
  let main_v101 : IVec S1024 32 := broadcastInDim S1024 ![] bcast_S_S1024 main_c_39
  fn_part6 (F := F) main_arg1 main_v100 main_v101

def fn_part4 {F : FTy → Type} [FloatOps F] (main_arg0 : IVec S1024 32) (main_arg1 : IVec S1024 32) (main_arg16 : FVec F S32 .f32) (main_arg17 : FVec F S200 .f32) (main_arg18 : FVec F S200 .f32) (main_arg19 : FVec F S200 .f32) (main_arg20 : FVec F S200 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S200 .f32 := Host.absf main_arg17
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200 .f32 := Host.absf main_arg18
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  let main_v84 : FVec F S200 .f32 := Host.absf main_arg19
  let main_cst_32 : FVec F S_ .f32 := constant S_ .f32 0x7F800000#32
  fn_part5 (F := F) main_arg0 main_arg1 main_arg20 main_v83 main_v84 main_cst_32

def fn_part3 {F : FTy → Type} [FloatOps F] (main_arg0 : IVec S1024 32) (main_arg1 : IVec S1024 32) (main_arg13 : FVec F S32 .f32) (main_arg14 : FVec F S32 .f32) (main_arg15 : FVec F S32 .f32) (main_arg16 : FVec F S32 .f32) (main_arg17 : FVec F S200 .f32) (main_arg18 : FVec F S200 .f32) (main_arg19 : FVec F S200 .f32) (main_arg20 : FVec F S200 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg0 main_arg1 main_arg16 main_arg17 main_arg18 main_arg19 main_arg20 main_v63 main_v67

def fn_part2 {F : FTy → Type} [FloatOps F] (main_arg0 : IVec S1024 32) (main_arg1 : IVec S1024 32) (main_arg9 : FVec F S1 .f32) (main_arg10 : FVec F S1 .f32) (main_arg11 : FVec F S1 .f32) (main_arg12 : FVec F S1 .f32) (main_arg13 : FVec F S32 .f32) (main_arg14 : FVec F S32 .f32) (main_arg15 : FVec F S32 .f32) (main_arg16 : FVec F S32 .f32) (main_arg17 : FVec F S200 .f32) (main_arg18 : FVec F S200 .f32) (main_arg19 : FVec F S200 .f32) (main_arg20 : FVec F S200 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg0 main_arg1 main_arg13 main_arg14 main_arg15 main_arg16 main_arg17 main_arg18 main_arg19 main_arg20 main_v48 main_v49 main_v50

def fn_part1 {F : FTy → Type} [FloatOps F] (main_arg0 : IVec S1024 32) (main_arg1 : IVec S1024 32) (main_arg6 : FVec F S200x6144 .f32) (main_arg7 : FVec F S200 .f32) (main_arg8 : FVec F S100000 .f32) (main_arg9 : FVec F S1 .f32) (main_arg10 : FVec F S1 .f32) (main_arg11 : FVec F S1 .f32) (main_arg12 : FVec F S1 .f32) (main_arg13 : FVec F S32 .f32) (main_arg14 : FVec F S32 .f32) (main_arg15 : FVec F S32 .f32) (main_arg16 : FVec F S32 .f32) (main_arg17 : FVec F S200 .f32) (main_arg18 : FVec F S200 .f32) (main_arg19 : FVec F S200 .f32) (main_arg20 : FVec F S200 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S200x6144 .f32 := Host.absf main_arg6
  let main_cst_6 : FVec F S_ .f32 := constant S_ .f32 0x7F800000#32
  let main_v20 : FVec F S200x6144 .f32 := broadcastInDim S200x6144 ![] bcast_S_S200x6144 main_cst_6
  let main_v21 : IVec S200x6144 1 := cmpf .olt main_v19 main_v20
  let main_c_7 : IVec S_ 1 := constantI S_ 1 1#1
  let main_v22 : IVec S_ 1 := (fun x v => Host.reduce IntOp.andi x v reducesTo_S200x6144_S_d0_1 h_S_) main_v21 main_c_7
  let main_v23 : IVec S_ 1 := andi main_v18 main_v22
  let main_v24 : FVec F S200 .f32 := Host.absf main_arg7
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S100000 .f32 := Host.absf main_arg8
  let main_cst_10 : FVec F S_ .f32 := constant S_ .f32 0x7F800000#32
  let main_v30 : FVec F S100000 .f32 := broadcastInDim S100000 ![] bcast_S_S100000 main_cst_10
  let main_v31 : IVec S100000 1 := cmpf .olt main_v29 main_v30
  let main_c_11 : IVec S_ 1 := constantI S_ 1 1#1
  let main_v32 : IVec S_ 1 := (fun x v => Host.reduce IntOp.andi x v reducesTo_S100000_S_d0 h_S_) main_v31 main_c_11
  let main_v33 : IVec S_ 1 := andi main_v28 main_v32
  fn_part2 (F := F) main_arg0 main_arg1 main_arg9 main_arg10 main_arg11 main_arg12 main_arg13 main_arg14 main_arg15 main_arg16 main_arg17 main_arg18 main_arg19 main_arg20 main_v33

def fn {F : FTy → Type} [FloatOps F] (main_arg0 : IVec S1024 32) (main_arg1 : IVec S1024 32) (main_arg2 : FVec F S100000x200 .f32) (main_arg3 : FVec F S200x200 .f32) (main_arg4 : FVec F S288x200 .f32) (main_arg5 : FVec F S288 .f32) (main_arg6 : FVec F S200x6144 .f32) (main_arg7 : FVec F S200 .f32) (main_arg8 : FVec F S100000 .f32) (main_arg9 : FVec F S1 .f32) (main_arg10 : FVec F S1 .f32) (main_arg11 : FVec F S1 .f32) (main_arg12 : FVec F S1 .f32) (main_arg13 : FVec F S32 .f32) (main_arg14 : FVec F S32 .f32) (main_arg15 : FVec F S32 .f32) (main_arg16 : FVec F S32 .f32) (main_arg17 : FVec F S200 .f32) (main_arg18 : FVec F S200 .f32) (main_arg19 : FVec F S200 .f32) (main_arg20 : FVec F S200 .f32) : IVec S_ 1 :=
  let main_v0 : FVec F S100000x200 .f32 := Host.absf main_arg2
  let main_cst : FVec F S_ .f32 := constant S_ .f32 0x7F800000#32
  let main_v1 : FVec F S100000x200 .f32 := broadcastInDim S100000x200 ![] bcast_S_S100000x200 main_cst
  let main_v2 : IVec S100000x200 1 := cmpf .olt main_v0 main_v1
  let main_c : IVec S_ 1 := constantI S_ 1 1#1
  let main_v3 : IVec S_ 1 := (fun x v => Host.reduce IntOp.andi x v reducesTo_S100000x200_S_d0_1 h_S_) main_v2 main_c
  let main_v4 : FVec F S200x200 .f32 := Host.absf main_arg3
  let main_cst_0 : FVec F S_ .f32 := constant S_ .f32 0x7F800000#32
  let main_v5 : FVec F S200x200 .f32 := broadcastInDim S200x200 ![] bcast_S_S200x200 main_cst_0
  let main_v6 : IVec S200x200 1 := cmpf .olt main_v4 main_v5
  let main_c_1 : IVec S_ 1 := constantI S_ 1 1#1
  let main_v7 : IVec S_ 1 := (fun x v => Host.reduce IntOp.andi x v reducesTo_S200x200_S_d0_1 h_S_) main_v6 main_c_1
  let main_v8 : IVec S_ 1 := andi main_v3 main_v7
  let main_v9 : FVec F S288x200 .f32 := Host.absf main_arg4
  let main_cst_2 : FVec F S_ .f32 := constant S_ .f32 0x7F800000#32
  let main_v10 : FVec F S288x200 .f32 := broadcastInDim S288x200 ![] bcast_S_S288x200 main_cst_2
  let main_v11 : IVec S288x200 1 := cmpf .olt main_v9 main_v10
  let main_c_3 : IVec S_ 1 := constantI S_ 1 1#1
  let main_v12 : IVec S_ 1 := (fun x v => Host.reduce IntOp.andi x v reducesTo_S288x200_S_d0_1 h_S_) main_v11 main_c_3
  let main_v13 : IVec S_ 1 := andi main_v8 main_v12
  let main_v14 : FVec F S288 .f32 := Host.absf main_arg5
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg0 main_arg1 main_arg6 main_arg7 main_arg8 main_arg9 main_arg10 main_arg11 main_arg12 main_arg13 main_arg14 main_arg15 main_arg16 main_arg17 main_arg18 main_arg19 main_arg20 main_v13 main_v16
-- ==== Kernel.lean ====
abbrev S1024 : Shape := ⟨1, ![1024]⟩
abbrev S100000x200 : Shape := ⟨2, ![100000, 200]⟩
abbrev S200x200 : Shape := ⟨2, ![200, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S100000 : Shape := ⟨1, ![100000]⟩
abbrev S1 : Shape := ⟨1, ![1]⟩
abbrev S32 : Shape := ⟨1, ![32]⟩
abbrev S_ : Shape := ⟨0, ![]⟩
abbrev S1024x1 : Shape := ⟨2, ![1024, 1]⟩
abbrev S1x1 : Shape := ⟨2, ![1, 1]⟩
abbrev S1024x200 : Shape := ⟨2, ![1024, 200]⟩
abbrev S1x288 : Shape := ⟨2, ![1, 288]⟩
abbrev S1x200 : Shape := ⟨2, ![1, 200]⟩
abbrev S1x32x1 : Shape := ⟨3, ![1, 32, 1]⟩
abbrev S128x200 : Shape := ⟨2, ![128, 200]⟩
abbrev S128x288 : Shape := ⟨2, ![128, 288]⟩
abbrev S128x32x9 : Shape := ⟨3, ![128, 32, 9]⟩
abbrev S128x32x192 : Shape := ⟨3, ![128, 32, 192]⟩
abbrev S128x192 : Shape := ⟨2, ![128, 192]⟩
abbrev S128x32x1 : Shape := ⟨3, ![128, 32, 1]⟩
abbrev S128x32 : Shape := ⟨2, ![128, 32]⟩
abbrev S128x1x192 : Shape := ⟨3, ![128, 1, 192]⟩
abbrev S128x6144 : Shape := ⟨2, ![128, 6144]⟩
abbrev S100352x200 : Shape := ⟨2, ![100352, 200]⟩
abbrev S100352 : Shape := ⟨1, ![100352]⟩
abbrev S1x100352 : Shape := ⟨2, ![1, 100352]⟩
abbrev S1024x100352 : Shape := ⟨2, ![1024, 100352]⟩
abbrev S2048x200 : Shape := ⟨2, ![2048, 200]⟩
abbrev S1x2048 : Shape := ⟨2, ![1, 2048]⟩
abbrev S1024x2048 : Shape := ⟨2, ![1024, 2048]⟩
abbrev S1024x100000 : Shape := ⟨2, ![1024, 100000]⟩

abbrev nBuf : Space → Nat
  | .hbm => 91
  | .vmem => 29
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S100000x200, .f32⟩
  | .hbm, ⟨3, _⟩ => ⟨S200x200, .f32⟩
  | .hbm, ⟨4, _⟩ => ⟨S288x200, .f32⟩
  | .hbm, ⟨5, _⟩ => ⟨S288, .f32⟩
  | .hbm, ⟨6, _⟩ => ⟨S200x6144, .f32⟩
  | .hbm, ⟨7, _⟩ => ⟨S200, .f32⟩
  | .hbm, ⟨8, _⟩ => ⟨S100000, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S200, .f32⟩
  | .hbm, ⟨18, _⟩ => ⟨S200, .f32⟩
  | .hbm, ⟨19, _⟩ => ⟨S200, .f32⟩
  | .hbm, ⟨20, _⟩ => ⟨S200, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1, .i32⟩
  | .hbm, ⟨30, _⟩ => ⟨S_, .i32⟩
  | .hbm, ⟨31, _⟩ => ⟨S1024x1, .i32⟩
  | .hbm, ⟨32, _⟩ => ⟨S1024x1, .i1⟩
  | .hbm, ⟨33, _⟩ => ⟨S1x1, .i32⟩
  | .hbm, ⟨34, _⟩ => ⟨S1024x1, .i32⟩
  | .hbm, ⟨35, _⟩ => ⟨S1024x1, .i1⟩
  | .hbm, ⟨36, _⟩ => ⟨S1024x1, .i1⟩
  | .hbm, ⟨37, _⟩ => ⟨S_, .i1⟩
  | .hbm, ⟨38, _⟩ => ⟨S1024, .i1⟩
  | .hbm, ⟨39, _⟩ => ⟨S1024x200, .f32⟩
  | .hbm, ⟨40, _⟩ => ⟨S1024x200, .i1⟩
  | .hbm, ⟨41, _⟩ => ⟨S_, .f32⟩
  | .hbm, ⟨42, _⟩ => ⟨S1024x200, .f32⟩
  | .hbm, ⟨43, _⟩ => ⟨S1024x200, .f32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1, .i32⟩
  | .hbm, ⟨53, _⟩ => ⟨S_, .i32⟩
  | .hbm, ⟨54, _⟩ => ⟨S1024x1, .i32⟩
  | .hbm, ⟨55, _⟩ => ⟨S1024x1, .i1⟩
  | .hbm, ⟨56, _⟩ => ⟨S1x1, .i32⟩
  | .hbm, ⟨57, _⟩ => ⟨S1024x1, .i32⟩
  | .hbm, ⟨58, _⟩ => ⟨S1024x1, .i1⟩
  | .hbm, ⟨59, _⟩ => ⟨S1024x1, .i1⟩
  | .hbm, ⟨60, _⟩ => ⟨S_, .i1⟩
  | .hbm, ⟨61, _⟩ => ⟨S1024, .i1⟩
  | .hbm, ⟨62, _⟩ => ⟨S1024x200, .f32⟩
  | .hbm, ⟨63, _⟩ => ⟨S1024x200, .i1⟩
  | .hbm, ⟨64, _⟩ => ⟨S_, .f32⟩
  | .hbm, ⟨65, _⟩ => ⟨S1024x200, .f32⟩
  | .hbm, ⟨66, _⟩ => ⟨S1024x200, .f32⟩
  | .hbm, ⟨67, _⟩ => ⟨S1x288, .f32⟩
  | .hbm, ⟨68, _⟩ => ⟨S1x200, .f32⟩
  | .hbm, ⟨69, _⟩ => ⟨S1x1, .f32⟩
  | .hbm, ⟨70, _⟩ => ⟨S1x1, .f32⟩
  | .hbm, ⟨71, _⟩ => ⟨S1x1, .f32⟩
  | .hbm, ⟨72, _⟩ => ⟨S1x1, .f32⟩
  | .hbm, ⟨73, _⟩ => ⟨S1x32x1, .f32⟩
  | .hbm, ⟨74, _⟩ => ⟨S1x32x1, .f32⟩
  | .hbm, ⟨75, _⟩ => ⟨S1x32x1, .f32⟩
  | .hbm, ⟨76, _⟩ => ⟨S1x32x1, .f32⟩
  | .hbm, ⟨77, _⟩ => ⟨S1x200, .f32⟩
  | .hbm, ⟨78, _⟩ => ⟨S1x200, .f32⟩
  | .hbm, ⟨79, _⟩ => ⟨S1x200, .f32⟩
  | .hbm, ⟨80, _⟩ => ⟨S1x200, .f32⟩
  | .hbm, ⟨81, _⟩ => ⟨S1024x200, .f32⟩
  | .hbm, ⟨82, _⟩ => ⟨S_, .i32⟩
  | .hbm, ⟨83, _⟩ => ⟨S_, .f32⟩
  | .hbm, ⟨84, _⟩ => ⟨S100352x200, .f32⟩
  | .hbm, ⟨85, _⟩ => ⟨S_, .i32⟩
  | .hbm, ⟨86, _⟩ => ⟨S_, .f32⟩
  | .hbm, ⟨87, _⟩ => ⟨S100352, .f32⟩
  | .hbm, ⟨88, _⟩ => ⟨S1x100352, .f32⟩
  | .hbm, ⟨89, _⟩ => ⟨S1024x100352, .f32⟩
  | .hbm, ⟨90, _⟩ => ⟨S1024x100000, .f32⟩
  | .local _ .vmem, ⟨0, _⟩ => ⟨S128x200, .f32⟩
  | .local _ .vmem, ⟨1, _⟩ => ⟨S128x200, .f32⟩
  | .local _ .vmem, ⟨2, _⟩ => ⟨S128x200, .f32⟩
  | .local _ .vmem, ⟨3, _⟩ => ⟨S128x200, .f32⟩
  | .local _ .vmem, ⟨4, _⟩ => ⟨S288x200, .f32⟩
  | .local _ .vmem, ⟨5, _⟩ => ⟨S1x288, .f32⟩
  | .local _ .vmem, ⟨6, _⟩ => ⟨S200x6144, .f32⟩
  | .local _ .vmem, ⟨7, _⟩ => ⟨S1x200, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x32x1, .f32⟩
  | .local _ .vmem, ⟨13, _⟩ => ⟨S1x32x1, .f32⟩
  | .local _ .vmem, ⟨14, _⟩ => ⟨S1x32x1, .f32⟩
  | .local _ .vmem, ⟨15, _⟩ => ⟨S1x32x1, .f32⟩
  | .local _ .vmem, ⟨16, _⟩ => ⟨S1x200, .f32⟩
  | .local _ .vmem, ⟨17, _⟩ => ⟨S1x200, .f32⟩
  | .local _ .vmem, ⟨18, _⟩ => ⟨S1x200, .f32⟩
  | .local _ .vmem, ⟨19, _⟩ => ⟨S1x200, .f32⟩
  | .local _ .vmem, ⟨20, _⟩ => ⟨S128x200, .f32⟩
  | .local _ .vmem, ⟨21, _⟩ => ⟨S128x200, .f32⟩
  | .local _ .vmem, ⟨22, _⟩ => ⟨S1024x200, .f32⟩
  | .local _ .vmem, ⟨23, _⟩ => ⟨S2048x200, .f32⟩
  | .local _ .vmem, ⟨24, _⟩ => ⟨S2048x200, .f32⟩
  | .local _ .vmem, ⟨25, _⟩ => ⟨S1x2048, .f32⟩
  | .local _ .vmem, ⟨26, _⟩ => ⟨S1x2048, .f32⟩
  | .local _ .vmem, ⟨27, _⟩ => ⟨S1024x2048, .f32⟩
  | .local _ .vmem, ⟨28, _⟩ => ⟨S1024x2048, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v1 : Ref sig .tc := ⟨.hbm, 66, rfl⟩
abbrev main_v2 : Ref sig .tc := ⟨.hbm, 67, rfl⟩
abbrev main_v3 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_c : Ref sig .tc := ⟨.hbm, 82, rfl⟩
abbrev main_call2_v0 : Ref sig .tc := ⟨.hbm, 83, rfl⟩
abbrev main_v17 : Ref sig .tc := ⟨.hbm, 84, rfl⟩
abbrev main_c_0 : Ref sig .tc := ⟨.hbm, 85, rfl⟩
abbrev main_call3_v0 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc1_stg0_0 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc1_sem0_0 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S288x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S200x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x200 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x200 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x200 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S128x200 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x200_0 : S1024.BroadcastsInDim S1024x200 (![0] : Fin 1 → Fin S1024x200.rank)
  bcast_S_S1024x200 : S_.BroadcastsInDim S1024x200 (![] : Fin 0 → Fin S1024x200.rank)
  shapeCasts_S288_S1x288 : S288.ShapeCasts S1x288
  shapeCasts_S200_S1x200 : S200.ShapeCasts S1x200
  shapeCasts_S1_S1x1 : S1.ShapeCasts S1x1
  shapeCasts_S32_S1x32x1 : S32.ShapeCasts S1x32x1
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x200 : S1x1.Broadcasts S128x200
  bitsLt_bf16_f32 : FTy.bits .bf16 < FTy.bits .f32
  inb_S288x200_S288x200_0_0 : ∀ a, (![0, 0] : Fin 2 → Nat) a + S288x200.size a ≤ S288x200.size a
  h_S288x200 : 0 < S288x200.numel
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S128x288 : S1x288.Broadcasts S128x288
  shapeCasts_S128x288_S128x32x9 : S128x288.ShapeCasts S128x32x9
  slices_S128x200_o0_0_S128x192 : S128x200.Slices ![0, 0] S128x192
  slices_S128x32x9_o0_0_0_S128x32x1 : S128x32x9.Slices ![0, 0, 0] S128x32x1
  shapeCasts_S128x32x1_S128x32 : S128x32x1.ShapeCasts S128x32
  shapeCasts_S128x32_S128x32x1 : S128x32.ShapeCasts S128x32x1
  shapeCasts_S128x192_S128x1x192 : S128x192.ShapeCasts S128x1x192
  broadcasts_S128x32x1_S128x32x192 : S128x32x1.Broadcasts S128x32x192
  broadcasts_S128x1x192_S128x32x192 : S128x1x192.Broadcasts S128x32x192
  slices_S128x200_o0_1_S128x192 : S128x200.Slices ![0, 1] S128x192
  slices_S128x32x9_o0_0_1_S128x32x1 : S128x32x9.Slices ![0, 0, 1] S128x32x1
  slices_S128x200_o0_2_S128x192 : S128x200.Slices ![0, 2] S128x192
  slices_S128x32x9_o0_0_2_S128x32x1 : S128x32x9.Slices ![0, 0, 2] S128x32x1
  slices_S128x200_o0_3_S128x192 : S128x200.Slices ![0, 3] S128x192
  slices_S128x32x9_o0_0_3_S128x32x1 : S128x32x9.Slices ![0, 0, 3] S128x32x1
  slices_S128x200_o0_4_S128x192 : S128x200.Slices ![0, 4] S128x192
  slices_S128x32x9_o0_0_4_S128x32x1 : S128x32x9.Slices ![0, 0, 4] S128x32x1
  slices_S128x200_o0_5_S128x192 : S128x200.Slices ![0, 5] S128x192
  slices_S128x32x9_o0_0_5_S128x32x1 : S128x32x9.Slices ![0, 0, 5] S128x32x1
  slices_S128x200_o0_6_S128x192 : S128x200.Slices ![0, 6] S128x192
  slices_S128x32x9_o0_0_6_S128x32x1 : S128x32x9.Slices ![0, 0, 6] S128x32x1
  slices_S128x200_o0_7_S128x192 : S128x200.Slices ![0, 7] S128x192
  slices_S128x32x9_o0_0_7_S128x32x1 : S128x32x9.Slices ![0, 0, 7] S128x32x1
  slices_S128x200_o0_8_S128x192 : S128x200.Slices ![0, 8] S128x192
  slices_S128x32x9_o0_0_8_S128x32x1 : S128x32x9.Slices ![0, 0, 8] S128x32x1
  inb_S1x32x1_S1x32x1_0_0_0 : ∀ a, (![0, 0, 0] : Fin 3 → Nat) a + S1x32x1.size a ≤ S1x32x1.size a
  h_S1x32x1 : 0 < S1x32x1.numel
  shapeCasts_S1x32x1_S1x32x1 : S1x32x1.ShapeCasts S1x32x1
  broadcasts_S1x32x1_S128x32x192 : S1x32x1.Broadcasts S128x32x192
  shapeCasts_S128x32x192_S128x6144 : S128x32x192.ShapeCasts S128x6144
  inb_S200x6144_S200x6144_0_0 : ∀ a, (![0, 0] : Fin 2 → Nat) a + S200x6144.size a ≤ S200x6144.size a
  h_S200x6144 : 0 < S200x6144.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S128x200 : S1x200.Broadcasts S128x200
  pads_S100000x200_S100352x200_03520_000 : S100000x200.Pads (![0, 0] : Fin 2 → Nat) ![352, 0] ![0, 0] S100352x200
  pads_S100000_S100352_03520 : S100000.Pads (![0] : Fin 1 → Nat) ![352] ![0] S100352
  shapeCasts_S100352_S1x100352 : S100352.ShapeCasts S1x100352
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S2048x200_S2048x200_0_0 : ∀ a, (![0, 0] : Fin 2 → Nat) a + S2048x200.size a ≤ S2048x200.size a
  h_S2048x200 : 0 < S2048x200.numel
  shapeCasts_S2048x200_S2048x200 : S2048x200.ShapeCasts S2048x200
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  slices_S1024x100352_S1024x100000_0_0 : S1024x100352.Slices ![0, 0] S1024x100000
  gather_S100000x200_S1024x1_S1024x200_1_0_n_n_0_1_1200_wf : GatherDims.WF S100000x200 S1024x1 S1024x200 [1] [0] [] [0] [] 1 ![1, 200]
  gather_S200x200_S1024x1_S1024x200_1_0_n_n_0_1_1200_wf : GatherDims.WF S200x200 S1024x1 S1024x200 [1] [0] [] [0] [] 1 ![1, 200]
  dot_S128x200_S288x200_S128x288_1_1_0_0_n_n_wf : DotDims.WF S128x200 S288x200 S128x288 [1] [1] [0] [0] [] []
  dot_S128x6144_S200x6144_S128x200_1_1_0_0_n_n_wf : DotDims.WF S128x6144 S200x6144 S128x200 [1] [1] [0] [0] [] []
  dot_S1024x200_S2048x200_S1024x2048_1_1_0_0_n_n_wf : DotDims.WF S1024x200 S2048x200 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x200.size a ≤ S1024x200.size a
  hwx0_0 : ∀ i : grid0.Coords, EltTy.bits .f32 = 32 ∨ (Rect.block (s := S1024x200) S128x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200.size a ≤ S1024x200.size a
  hwx0_1 : ∀ i : grid0.Coords, EltTy.bits .f32 = 32 ∨ (Rect.block (s := S1024x200) S128x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x200.size a ≤ S288x200.size a
  hwx0_2 : ∀ i : grid0.Coords, EltTy.bits .f32 = 32 ∨ (Rect.block (s := S288x200) S288x200.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x288.size a ≤ S1x288.size a
  hwx0_3 : ∀ i : grid0.Coords, EltTy.bits .f32 = 32 ∨ (Rect.block (s := S1x288) S1x288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S200x6144.size a ≤ S200x6144.size a
  hwx0_4 : ∀ i : grid0.Coords, EltTy.bits .f32 = 32 ∨ (Rect.block (s := S200x6144) S200x6144.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32x1.size a ≤ S1x32x1.size a
  hwx0_10 : ∀ i : grid0.Coords, EltTy.bits .f32 = 32 ∨ (Rect.block (s := S1x32x1) S1x32x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32x1.size a ≤ S1x32x1.size a
  hwx0_11 : ∀ i : grid0.Coords, EltTy.bits .f32 = 32 ∨ (Rect.block (s := S1x32x1) S1x32x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32x1.size a ≤ S1x32x1.size a
  hwx0_12 : ∀ i : grid0.Coords, EltTy.bits .f32 = 32 ∨ (Rect.block (s := S1x32x1) S1x32x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32x1.size a ≤ S1x32x1.size a
  hwx0_13 : ∀ i : grid0.Coords, EltTy.bits .f32 = 32 ∨ (Rect.block (s := S1x32x1) S1x32x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x200.size a ≤ S1x200.size a
  hwx0_14 : ∀ i : grid0.Coords, EltTy.bits .f32 = 32 ∨ (Rect.block (s := S1x200) S1x200.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x200.size a ≤ S1x200.size a
  hwx0_15 : ∀ i : grid0.Coords, EltTy.bits .f32 = 32 ∨ (Rect.block (s := S1x200) S1x200.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x200.size a ≤ S1x200.size a
  hwx0_16 : ∀ i : grid0.Coords, EltTy.bits .f32 = 32 ∨ (Rect.block (s := S1x200) S1x200.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x200.size a ≤ S1x200.size a
  hwx0_17 : ∀ i : grid0.Coords, EltTy.bits .f32 = 32 ∨ (Rect.block (s := S1x200) S1x200.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S128x200.size a ≤ S1024x200.size a
  hwx0_18 : ∀ i : grid0.Coords, EltTy.bits .f32 = 32 ∨ (Rect.block (s := S1024x200) S128x200.size (cc0_transform_18 i) (hinb0_18 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .f32 = 32 ∨ (Rect.block (s := S1024x200) S1024x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x200.size a ≤ S100352x200.size a
  hwx1_1 : ∀ i : grid1.Coords, EltTy.bits .f32 = 32 ∨ (Rect.block (s := S100352x200) S2048x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x100352.size a
  hwx1_2 : ∀ i : grid1.Coords, EltTy.bits .f32 = 32 ∨ (Rect.block (s := S1x100352) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x100352.size a
  hwx1_3 : ∀ i : grid1.Coords, EltTy.bits .f32 = 32 ∨ (Rect.block (s := S1024x100352) S1024x2048.size (cc1_transform_3 i) (hinb1_3 i)).WholeWords (EltTy.packing .f32)

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S200x200_S1024x1_S1024x200_1_0_n_n_0_1_1200 : GatherDims S200x200 S1024x1 S1024x200 where
  offsetDims := [1]
  collapsedSliceDims := [0]
  operandBatchingDims := []
  startIndicesBatchingDims := []
  startIndexMap := [0]
  indexVectorDim := 1
  sliceSizes := ![1, 200]
  wf := gather_S200x200_S1024x1_S1024x200_1_0_n_n_0_1_1200_wf
def dot_S128x200_S288x200_S128x288_1_1_0_0_n_n : DotDims S128x200 S288x200 S128x288 where
  lhsContracting := [1]
  rhsContracting := [1]
  lhsNonContracting := [0]
  rhsNonContracting := [0]
  lhsBatch := []
  rhsBatch := []
  wf := dot_S128x200_S288x200_S128x288_1_1_0_0_n_n_wf
def dot_S128x6144_S200x6144_S128x200_1_1_0_0_n_n : DotDims S128x6144 S200x6144 S128x200 where
  lhsContracting := [1]
  rhsContracting := [1]
  lhsNonContracting := [0]
  rhsNonContracting := [0]
  lhsBatch := []
  rhsBatch := []
  wf := dot_S128x6144_S200x6144_S128x200_1_1_0_0_n_n_wf
def dot_S1024x200_S2048x200_S1024x2048_1_1_0_0_n_n : DotDims S1024x200 S2048x200 S1024x2048 where
  lhsContracting := [1]
  rhsContracting := [1]
  lhsNonContracting := [0]
  rhsNonContracting := [0]
  lhsBatch := []
  rhsBatch := []
  wf := dot_S1024x200_S2048x200_S1024x2048_1_1_0_0_n_n_wf

abbrev win0_0 : Pipeline.Window sig grid0 :=
  Pipeline.Window.ofSpec (Memref.whole main_v0) S128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S288x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S200x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x32x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x32x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x32x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x32x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x200.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x200.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S1x200.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S1x200.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16) S128x200.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v16) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2048x200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S100000x200 : Shape := ⟨2, ![100000, 200]⟩
abbrev S200x200 : Shape := ⟨2, ![200, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S100000 : Shape := ⟨1, ![100000]⟩
abbrev S1 : Shape := ⟨1, ![1]⟩
abbrev S32 : Shape := ⟨1, ![32]⟩
abbrev S_ : Shape := ⟨0, ![]⟩
abbrev S1024x1 : Shape := ⟨2, ![1024, 1]⟩
abbrev S1024x200 : Shape := ⟨2, ![1024, 200]⟩
abbrev S1x1 : Shape := ⟨2, ![1, 1]⟩
abbrev S200x288 : Shape := ⟨2, ![200, 288]⟩
abbrev S1024x288 : Shape := ⟨2, ![1024, 288]⟩
abbrev S1x288 : Shape := ⟨2, ![1, 288]⟩
abbrev S1024x32x9 : Shape := ⟨3, ![1024, 32, 9]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S1x32x1 : Shape := ⟨3, ![1, 32, 1]⟩
abbrev S1024x6144 : Shape := ⟨2, ![1024, 6144]⟩
abbrev S6144x200 : Shape := ⟨2, ![6144, 200]⟩
abbrev S1x200 : Shape := ⟨2, ![1, 200]⟩
abbrev S200x100000 : Shape := ⟨2, ![200, 100000]⟩
abbrev S1024x100000 : Shape := ⟨2, ![1024, 100000]⟩
abbrev S1x100000 : Shape := ⟨2, ![1, 100000]⟩

abbrev nBuf : Space → Nat
  | .hbm => 132
  | .vmem => 0
  | .smem => 0
  | _ => 0

abbrev hbmTy0_0 (i : Nat) : BufTy := match i % 128 with
  | 0 => ⟨S1024, .i32⟩
  | 1 => ⟨S1024, .i32⟩
  | 2 => ⟨S100000x200, .f32⟩
  | 3 => ⟨S200x200, .f32⟩
  | 4 => ⟨S288x200, .f32⟩
  | 5 => ⟨S288, .f32⟩
  | 6 => ⟨S200x6144, .f32⟩
  | 7 => ⟨S200, .f32⟩
  | 8 => ⟨S100000, .f32⟩
  | 9 => ⟨S1, .f32⟩
  | 10 => ⟨S1, .f32⟩
  | 11 => ⟨S1, .f32⟩
  | 12 => ⟨S1, .f32⟩
  | 13 => ⟨S32, .f32⟩
  | 14 => ⟨S32, .f32⟩
  | 15 => ⟨S32, .f32⟩
  | 16 => ⟨S32, .f32⟩
  | 17 => ⟨S200, .f32⟩
  | 18 => ⟨S200, .f32⟩
  | 19 => ⟨S200, .f32⟩
  | 20 => ⟨S200, .f32⟩
  | 21 => ⟨S_, .i32⟩
  | 22 => ⟨S1024, .i32⟩
  | 23 => ⟨S1024, .i1⟩
  | 24 => ⟨S_, .i32⟩
  | 25 => ⟨S1024, .i32⟩
  | 26 => ⟨S1024, .i32⟩
  | 27 => ⟨S1024, .i32⟩
  | 28 => ⟨S1024x1, .i32⟩
  | 29 => ⟨S1024x200, .f32⟩
  | 30 => ⟨S1x1, .f32⟩
  | 31 => ⟨S1024x200, .f32⟩
  | 32 => ⟨S1024x200, .f32⟩
  | 33 => ⟨S_, .f32⟩
  | 34 => ⟨S1, .f32⟩
  | 35 => ⟨S1, .f32⟩
  | 36 => ⟨S1, .f32⟩
  | 37 => ⟨S1x1, .f32⟩
  | 38 => ⟨S1024x200, .f32⟩
  | 39 => ⟨S1024x200, .f32⟩
  | 40 => ⟨S1x1, .f32⟩
  | 41 => ⟨S1024x200, .f32⟩
  | 42 => ⟨S1024x200, .f32⟩
  | 43 => ⟨S1x1, .f32⟩
  | 44 => ⟨S1024x200, .f32⟩
  | 45 => ⟨S1024x200, .f32⟩
  | 46 => ⟨S_, .i32⟩
  | 47 => ⟨S1024, .i32⟩
  | 48 => ⟨S1024, .i1⟩
  | 49 => ⟨S_, .i32⟩
  | 50 => ⟨S1024, .i32⟩
  | 51 => ⟨S1024, .i32⟩
  | 52 => ⟨S1024, .i32⟩
  | 53 => ⟨S1024x1, .i32⟩
  | 54 => ⟨S1024x200, .f32⟩
  | 55 => ⟨S200x288, .f32⟩
  | 56 => ⟨S1024x288, .f32⟩
  | 57 => ⟨S1x288, .f32⟩
  | 58 => ⟨S1024x288, .f32⟩
  | 59 => ⟨S1024x288, .f32⟩
  | 60 => ⟨S1024x32x9, .f32⟩
  | 61 => ⟨S192, .i32⟩
  | 62 => ⟨S192x1, .i32⟩
  | 63 => ⟨S9, .i32⟩
  | 64 => ⟨S1x9, .i32⟩
  | 65 => ⟨S192x9, .i32⟩
  | 66 => ⟨S192x9, .i32⟩
  | 67 => ⟨S192x9, .i32⟩
  | 68 => ⟨S_, .i32⟩
  | 69 => ⟨S192x9, .i32⟩
  | 70 => ⟨S192x9, .i1⟩
  | 71 => ⟨S_, .i32⟩
  | 72 => ⟨S192x9, .i32⟩
  | 73 => ⟨S192x9, .i32⟩
  | 74 => ⟨S192x9, .i32⟩
  | 75 => ⟨S192x9x1, .i32⟩
  | 76 => ⟨S1024x192x9, .f32⟩
  | 77 => ⟨S1024x32x192, .f32⟩
  | 78 => ⟨S1x32x1, .f32⟩
  | 79 => ⟨S1024x32x192, .f32⟩
  | 80 => ⟨S1024x32x192, .f32⟩
  | 81 => ⟨S_, .f32⟩
  | 82 => ⟨S32, .f32⟩
  | 83 => ⟨S32, .f32⟩
  | 84 => ⟨S32, .f32⟩
  | 85 => ⟨S1x32x1, .f32⟩
  | 86 => ⟨S1024x32x192, .f32⟩
  | 87 => ⟨S1024x32x192, .f32⟩
  | 88 => ⟨S1x32x1, .f32⟩
  | 89 => ⟨S1024x32x192, .f32⟩
  | 90 => ⟨S1024x32x192, .f32⟩
  | 91 => ⟨S1x32x1, .f32⟩
  | 92 => ⟨S1024x32x192, .f32⟩
  | 93 => ⟨S1024x32x192, .f32⟩
  | 94 => ⟨S1024x6144, .f32⟩
  | 95 => ⟨S6144x200, .f32⟩
  | 96 => ⟨S1024x200, .f32⟩
  | 97 => ⟨S1x200, .f32⟩
  | 98 => ⟨S1024x200, .f32⟩
  | 99 => ⟨S1024x200, .f32⟩
  | 100 => ⟨S1x200, .f32⟩
  | 101 => ⟨S1024x200, .f32⟩
  | 102 => ⟨S1024x200, .f32⟩
  | 103 => ⟨S_, .f32⟩
  | 104 => ⟨S200, .f32⟩
  | 105 => ⟨S200, .f32⟩
  | 106 => ⟨S200, .f32⟩
  | 107 => ⟨S1x200, .f32⟩
  | 108 => ⟨S1024x200, .f32⟩
  | 109 => ⟨S1024x200, .f32⟩
  | 110 => ⟨S1x200, .f32⟩
  | 111 => ⟨S1024x200, .f32⟩
  | 112 => ⟨S1024x200, .f32⟩
  | 113 => ⟨S1x200, .f32⟩
  | 114 => ⟨S1024x200, .f32⟩
  | 115 => ⟨S1024x200, .f32⟩
  | 116 => ⟨S_, .f32⟩
  | 117 => ⟨S1024x200, .f32⟩
  | 118 => ⟨S1024x200, .f32⟩
  | 119 => ⟨S200x100000, .f32⟩
  | 120 => ⟨S1024x100000, .f32⟩
  | 121 => ⟨S1x100000, .f32⟩
  | 122 => ⟨S1024x100000, .f32⟩
  | 123 => ⟨S1024x100000, .f32⟩
  | 124 => ⟨S1024x100000, .f32⟩
  | 125 => ⟨S1024x100000, .f32⟩
  | 126 => ⟨S_, .f32⟩
  | 127 => ⟨S1024x100000, .f32⟩
  | _ => ⟨S1024, .i32⟩

abbrev hbmTy0_1 (i : Nat) : BufTy := match i % 128 with
  | 0 => ⟨S1024x100000, .f32⟩
  | 1 => ⟨S_, .f32⟩
  | 2 => ⟨S1024x100000, .f32⟩
  | 3 => ⟨S1024x100000, .f32⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_1 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_3 : Ref sig .tc := ⟨.hbm, 68, rfl⟩
abbrev main_v42 : Ref sig .tc := ⟨.hbm, 69, rfl⟩
abbrev main_v43 : Ref sig .tc := ⟨.hbm, 70, rfl⟩
abbrev main_c_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_6 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call0_cst : Ref sig .tc := ⟨.hbm, 116, rfl⟩
abbrev main_call0_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_7 : Ref sig .tc := ⟨.hbm, 126, rfl⟩
abbrev main_v94 : Ref sig .tc := ⟨.hbm, 127, rfl⟩
abbrev main_v95 : Ref sig .tc := ⟨.hbm, 128, rfl⟩
abbrev main_cst_8 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1_S1x1_1 : S1.BroadcastsInDim S1x1 (![1] : Fin 1 → Fin S1x1.rank)
  bcast_S1x1_S1024x200_0_1 : S1x1.BroadcastsInDim S1024x200 (![0, 1] : Fin 2 → Fin S1024x200.rank)
  bcast_S_S1 : S_.BroadcastsInDim S1 (![] : Fin 0 → Fin S1.rank)
  transposes_S288x200_S200x288_1_0 : S288x200.Transposes [1, 0] S200x288
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  bcast_S32_S1x32x1_1 : S32.BroadcastsInDim S1x32x1 (![1] : Fin 1 → Fin S1x32x1.rank)
  bcast_S1x32x1_S1024x32x192_0_1_2 : S1x32x1.BroadcastsInDim S1024x32x192 (![0, 1, 2] : Fin 3 → Fin S1024x32x192.rank)
  bcast_S_S32 : S_.BroadcastsInDim S32 (![] : Fin 0 → Fin S32.rank)
  shapeCasts_S1024x32x192_S1024x6144 : S1024x32x192.ShapeCasts S1024x6144
  transposes_S200x6144_S6144x200_1_0 : S200x6144.Transposes [1, 0] S6144x200
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S200 : S_.BroadcastsInDim S200 (![] : Fin 0 → Fin S200.rank)
  bcast_S_S1024x200 : S_.BroadcastsInDim S1024x200 (![] : Fin 0 → Fin S1024x200.rank)
  transposes_S100000x200_S200x100000_1_0 : S100000x200.Transposes [1, 0] S200x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  gather_S100000x200_S1024x1_S1024x200_1_0_n_n_0_1_1200_wf : GatherDims.WF S100000x200 S1024x1 S1024x200 [1] [0] [] [0] [] 1 ![1, 200]
  gather_S200x200_S1024x1_S1024x200_1_0_n_n_0_1_1200_wf : GatherDims.WF S200x200 S1024x1 S1024x200 [1] [0] [] [0] [] 1 ![1, 200]
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x100000_S1024x100000_1_0_0_1_n_n_wf : DotDims.WF S1024x200 S200x100000 S1024x100000 [1] [0] [0] [1] [] []

variable [Facts₀]

def gather_S100000x200_S1024x1_S1024x200_1_0_n_n_0_1_1200 : GatherDims S100000x200 S1024x1 S1024x200 where
  offsetDims := [1]
  collapsedSliceDims := [0]
  operandBatchingDims := []
  startIndicesBatchingDims := []
  startIndexMap := [0]
  indexVectorDim := 1
  sliceSizes := ![1, 200]
  wf := gather_S100000x200_S1024x1_S1024x200_1_0_n_n_0_1_1200_wf
def gather_S200x200_S1024x1_S1024x200_1_0_n_n_0_1_1200 : GatherDims S200x200 S1024x1 S1024x200 where
  offsetDims := [1]
  collapsedSliceDims := [0]
  operandBatchingDims := []
  startIndicesBatchingDims := []
  startIndexMap := [0]
  indexVectorDim := 1
  sliceSizes := ![1, 200]
  wf := gather_S200x200_S1024x1_S1024x200_1_0_n_n_0_1_1200_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x100000_S1024x100000_1_0_0_1_n_n : DotDims S1024x200 S200x100000 S1024x100000 where
  lhsContracting := [1]
  rhsContracting := [0]
  lhsNonContracting := [0]
  rhsNonContracting := [1]
  lhsBatch := []
  rhsBatch := []
  wf := dot_S1024x200_S200x100000_S1024x100000_1_0_0_1_n_n_wf

class Facts : Prop extends Facts₀ where

variable [Facts]
-- ==== Proof.HyperSpec.lean ====
/-
  The function both programs compute, one batch row at a time.

  A row carries an entity embedding `ent : Fin 200 → EReal` and a relation embedding `rel : Fin 200 → EReal`.
  The entity row is batch-normalised entry by entry; the relation row is sent through a linear layer to 288 numbers,
  read as 32 filters of 9 taps; filter `o` is slid along the normalised entity row, giving 192 sums of 9 products each;
  every channel is batch-normalised with its own statistics; the 32 × 192 numbers, channel-major, go through a second
  linear layer to 200 numbers, which are batch-normalised and clipped below at zero. The score of the row against an
  entity is the logistic function of the inner product of that hidden vector with the entity's embedding, plus a bias.

  Every sum is a finite sum in the extended reals, where addition and multiplication are commutative and associative;
  nothing here distributes a product over a sum, so no finiteness is used.
-/
import Idealize.ShloMosaic.PureOps.Ideal
import Idealize.ShloMosaic.Lib.ValueIdx

noncomputable section

open scoped BigOperators

namespace Hyper

open Idealize.ShloMosaic

/-- The variance offset of every batch normalisation: the single-precision number nearest `1e-5`. -/
abbrev eps : EReal := Ideal.ofBits .f32 0x3727C5AC#32

/-- Batch normalisation of one entry with running mean `m`, running variance `v`, scale `g` and shift `b`:
    `(x - m) · (v + ε)^(-1/2) · g + b`, multiplied in this order. -/
def bn (x m v g b : EReal) : EReal := (x - m) * Ideal.rsqrt (v + eps) * g + b

/-- The parameters of the network, each as a function of its coordinates. -/
structure Wts where
  /-- the hypernetwork's linear layer, 288 outputs from 200 inputs -/
  fc1W : Fin 288 → Fin 200 → EReal
  fc1b : Fin 288 → EReal
  /-- the final linear layer, 200 outputs from 32 · 192 inputs -/
  fcW : Fin 200 → Fin 6144 → EReal
  fcb : Fin 200 → EReal
  /-- batch normalisation of the entity row: one channel -/
  g0 : EReal
  b0 : EReal
  m0 : EReal
  v0 : EReal
  /-- batch normalisation after the convolution: one set per filter -/
  g1 : Fin 32 → EReal
  b1 : Fin 32 → EReal
  m1 : Fin 32 → EReal
  v1 : Fin 32 → EReal
  /-- batch normalisation of the hidden vector: one set per coordinate -/
  g2 : Fin 200 → EReal
  b2 : Fin 200 → EReal
  m2 : Fin 200 → EReal
  v2 : Fin 200 → EReal

/-- Entry `d` of the normalised entity row. -/
def feat (W : Wts) (ent : Fin 200 → EReal) (d : Fin 200) : EReal := bn (ent d) W.m0 W.v0 W.g0 W.b0

/-- Output `j` of the hypernetwork's linear layer on the relation row. -/
def filt (W : Wts) (rel : Fin 200 → EReal) (j : Fin 288) : EReal := (∑ k : Fin 200, rel k * W.fc1W j k) + W.fc1b j

/-- Tap `f` of filter `o`: the 288 outputs read as 32 rows of 9. -/
def tap (W : Wts) (rel : Fin 200 → EReal) (o : Fin 32) (f : Fin 9) : EReal :=
  filt W rel ⟨9 * o.val + f.val, by have := o.isLt; have := f.isLt; omega⟩

/-- The normalised entity row at position `w + f`: the entry tap `f` meets at output position `w`. -/
def win (W : Wts) (ent : Fin 200 → EReal) (w : Fin 192) (f : Fin 9) : EReal :=
  feat W ent ⟨w.val + f.val, by have := w.isLt; have := f.isLt; omega⟩

/-- Filter `o` slid to position `w`: nine products, tap times entry. -/
def conv (W : Wts) (ent rel : Fin 200 → EReal) (o : Fin 32) (w : Fin 192) : EReal :=
  ∑ f : Fin 9, tap W rel o f * win W ent w f

/-- The convolution's output, normalised with its channel's statistics. -/
def hid (W : Wts) (ent rel : Fin 200 → EReal) (o : Fin 32) (w : Fin 192) : EReal :=
  bn (conv W ent rel o w) (W.m1 o) (W.v1 o) (W.g1 o) (W.b1 o)

/-- Entry `j` of the flattened hidden array, channel-major: `j = 192 · o + w`. -/
def flat (W : Wts) (ent rel : Fin 200 → EReal) (j : Fin 6144) : EReal :=
  hid W ent rel ⟨j.val / 192, by have := j.isLt; omega⟩ ⟨j.val % 192, Nat.mod_lt _ (by decide)⟩

/-- Coordinate `d` of the row's hidden vector. -/
def yRow (W : Wts) (ent rel : Fin 200 → EReal) (d : Fin 200) : EReal :=
  max (bn ((∑ j : Fin 6144, flat W ent rel j * W.fcW d j) + W.fcb d) (W.m2 d) (W.v2 d) (W.g2 d) (W.b2 d)) 0

/-- One score: the logistic function of the hidden vector's inner product with an entity's embedding, plus its bias. -/
def score (y e : Fin 200 → EReal) (bias : EReal) : EReal := Ideal.logistic ((∑ k : Fin 200, y k * e k) + bias)

end Hyper

end
-- ==== Proof.HyperArr.lean ====
/-
  The network on whole arrays. The gathered entity rows and relation rows are `[1024, 200]` arrays; every parameter is
  an array of its own shape; the hidden array is the per-row hidden vector of each batch row, and entry `(b, n)` of the
  score array is the score of hidden row `b` against row `n` of the entity table with entity `n`'s bias.
-/
import proofs.«400437_j26628797235444_3_alg».proof.Proof.HyperSpec

noncomputable section

namespace Hyper

open Idealize.ShloMosaic Idealize.ShloMosaic.ValueIdx

/-- An array of extended reals with two axes. -/
abbrev A2 (n0 n1 : Nat) : Type := (⟨2, ![n0, n1]⟩ : Shape).Idx → EReal
/-- An array of extended reals with one axis. -/
abbrev A1 (n : Nat) : Type := (⟨1, ![n]⟩ : Shape).Idx → EReal

/-- The parameters read off the argument arrays, each at its own coordinates. -/
def wtsOf (fc1W : A2 288 200) (fc1b : A1 288) (fcW : A2 200 6144) (fcb : A1 200) (g0 b0 m0 v0 : A1 1)
    (g1 b1 m1 v1 : A1 32) (g2 b2 m2 v2 : A1 200) : Wts where
  fc1W := fun j k => fc1W (ix2 j k)
  fc1b := fun j => fc1b (ix1 j)
  fcW := fun d j => fcW (ix2 d j)
  fcb := fun d => fcb (ix1 d)
  g0 := g0 (ix1 0)
  b0 := b0 (ix1 0)
  m0 := m0 (ix1 0)
  v0 := v0 (ix1 0)
  g1 := fun o => g1 (ix1 o)
  b1 := fun o => b1 (ix1 o)
  m1 := fun o => m1 (ix1 o)
  v1 := fun o => v1 (ix1 o)
  g2 := fun d => g2 (ix1 d)
  b2 := fun d => b2 (ix1 d)
  m2 := fun d => m2 (ix1 d)
  v2 := fun d => v2 (ix1 d)

/-- The hidden array: row `b` is the hidden vector of entity row `b` and relation row `b`. -/
def hidden (W : Wts) (ent rel : A2 1024 200) : A2 1024 200 :=
  fun i => yRow W (fun d => ent (ix2 (i 0) d)) (fun k => rel (ix2 (i 0) k)) (i 1)

/-- The score array: entry `(b, n)` scores hidden row `b` against entity `n`. -/
def scores (W : Wts) (ent rel : A2 1024 200) (E : A2 100000 200) (bias : A1 100000) : A2 1024 100000 :=
  fun i => score (fun k => hidden W ent rel (ix2 (i 0) k)) (fun k => E (ix2 (i 1) k)) (bias (ix1 (i 1)))

end Hyper

end
-- ==== Proof.Body1.lean ====
/-
  The scoring body at one entry. A block holds all 1024 hidden rows, 2048 entity rows and their 2048 biases; entry
  `(b, q)` of what the body stores is the score of hidden row `b` against entity row `q` of the block: the inner
  product over the 200 coordinates (the product contracts the second axis of both operands, into a zero accumulator),
  plus the bias, through the logistic function. The casts to the narrower format are the identity on extended reals.
-/
import proofs.«400437_j26628797235444_3_alg».proof.Proof.Gen.KernelIdeal.Frame
import proofs.«400437_j26628797235444_3_alg».proof.Proof.HyperSpec
import Idealize.ShloMosaic.Lib.ValueIdx
import Idealize.ShloMosaic.Lib.Pipeline.Value
import Idealize.ShloMosaic.PureOps.Ideal.Laws

noncomputable section

open scoped BigOperators

namespace Cert.KernelIdeal.Body1

open Idealize.ShloMosaic Idealize.ShloMosaic.ValueIdx Cert.KernelIdeal Cert.KernelIdeal.Gen

/-- The offsets of a whole block with two axes are all zero. -/
theorem off2_zero : (![0, 0] : Fin 2 → Nat) = fun _ => 0 :=
  funext fun a => match a with | ⟨0, _⟩ => rfl | ⟨1, _⟩ => rfl

/-! ## The product's operand indices: both operands are contracted on their second axis -/

/-- The left operand's row is the entry's row. -/
theorem lhs_0 (i : S1024x2048.Idx) (q : dot_S1024x200_S2048x200_S1024x2048_1_1_0_0_n_n.contr.Idx) :
    (dot_S1024x200_S2048x200_S1024x2048_1_1_0_0_n_n.lhsIdx i q 0).val = (i 0).val := by
  unfold DotDims.lhsIdx
  rw [dif_neg (show ¬(0 : Fin S1024x200.rank) ∈ dot_S1024x200_S2048x200_S1024x2048_1_1_0_0_n_n.lhsBatch by decide), dif_pos (show (0 : Fin S1024x200.rank) ∈ dot_S1024x200_S2048x200_S1024x2048_1_1_0_0_n_n.lhsNonContracting by decide)]
  rfl
/-- The left operand's column is the summation position. -/
theorem lhs_1 (i : S1024x2048.Idx) (q : dot_S1024x200_S2048x200_S1024x2048_1_1_0_0_n_n.contr.Idx) :
    (dot_S1024x200_S2048x200_S1024x2048_1_1_0_0_n_n.lhsIdx i q 1).val = (q ⟨0, by decide⟩).val :=
  dot_S1024x200_S2048x200_S1024x2048_1_1_0_0_n_n.lhsIdx_val_of_single rfl i q
/-- The right operand's row is the entry's column. -/
theorem rhs_0 (i : S1024x2048.Idx) (q : dot_S1024x200_S2048x200_S1024x2048_1_1_0_0_n_n.contr.Idx) :
    (dot_S1024x200_S2048x200_S1024x2048_1_1_0_0_n_n.rhsIdx i q 0).val = (i 1).val := by
  unfold DotDims.rhsIdx
  rw [dif_neg (show ¬(0 : Fin S2048x200.rank) ∈ dot_S1024x200_S2048x200_S1024x2048_1_1_0_0_n_n.rhsBatch by decide), dif_pos (show (0 : Fin S2048x200.rank) ∈ dot_S1024x200_S2048x200_S1024x2048_1_1_0_0_n_n.rhsNonContracting by decide)]
  rfl
/-- The right operand's column is the summation position. -/
theorem rhs_1 (i : S1024x2048.Idx) (q : dot_S1024x200_S2048x200_S1024x2048_1_1_0_0_n_n.contr.Idx) :
    (dot_S1024x200_S2048x200_S1024x2048_1_1_0_0_n_n.rhsIdx i q 1).val = (q ⟨0, by decide⟩).val :=
  dot_S1024x200_S2048x200_S1024x2048_1_1_0_0_n_n.rhsIdx_val_of_single rfl i q

/-- The product into a zero accumulator at entry `(b, q)`: row `b` of the left operand against row `q` of the right. -/
theorem prod_apply {φ₁ φ₂ : FTy} (l : FVec Ideal S1024x200 φ₁) (r : FVec Ideal S2048x200 φ₂) (b : Fin 1024) (q : Fin 2048) :
    matmul (F := Ideal) dot_S1024x200_S2048x200_S1024x2048_1_1_0_0_n_n none l r (constant S1024x2048 .f32 0x00000000#32) (ix2 b q)
      = ∑ k : Fin 200, l (ix2 b k) * r (ix2 q k) := by
  refine (Ideal.matmul_constant_zero_apply dot_S1024x200_S2048x200_S1024x2048_1_1_0_0_n_n none l r (ix2 b q)).trans ?_
  rw [← Equiv.sum_comp (contrEquiv1 dot_S1024x200_S2048x200_S1024x2048_1_1_0_0_n_n 200 rfl rfl).symm]
  refine Finset.sum_congr rfl fun k _ => ?_
  have hk := contrEquiv1_symm_val dot_S1024x200_S2048x200_S1024x2048_1_1_0_0_n_n 200 rfl rfl k
  have el : dot_S1024x200_S2048x200_S1024x2048_1_1_0_0_n_n.lhsIdx (ix2 b q) ((contrEquiv1 dot_S1024x200_S2048x200_S1024x2048_1_1_0_0_n_n 200 rfl rfl).symm k) = ix2 b k := funext fun a => Fin.ext (by
    match a with
    | ⟨0, _⟩ => exact lhs_0 _ _
    | ⟨1, _⟩ => exact (lhs_1 _ _).trans hk)
  have er : dot_S1024x200_S2048x200_S1024x2048_1_1_0_0_n_n.rhsIdx (ix2 b q) ((contrEquiv1 dot_S1024x200_S2048x200_S1024x2048_1_1_0_0_n_n 200 rfl rfl).symm k) = ix2 q k := funext fun a => Fin.ext (by
    match a with
    | ⟨0, _⟩ => exact rhs_0 _ _
    | ⟨1, _⟩ => exact (rhs_1 _ _).trans hk)
  rw [el, er]

/-- The bias row spread over the 1024 rows: entry `(b, q)` is bias `q`. -/
theorem bias_apply (v : Vec Ideal S1x2048 .f32) (b : Fin 1024) (q : Fin 2048) :
    broadcastTo S1024x2048 v broadcasts_S1x2048_S1024x2048 (ix2 b q) = v (ix2 0 q) :=
  broadcastTo_apply v broadcasts_S1x2048_S1024x2048 (ix2 b q) (ix2 0 q) (fun a => match a with
    | ⟨0, _⟩ => by show 0 = if (1 : Nat) = 1 then 0 else _; rw [if_pos rfl]
    | ⟨1, _⟩ => by show q.val = if (2048 : Nat) = 1 then 0 else q.val; rw [if_neg (by decide)])

/-- The body's arithmetic at entry `(b, q)`. -/
theorem pay_apply (v0 : Vec Ideal S1024x200 .f32) (v3 : Vec Ideal S2048x200 .f32) (v7 : Vec Ideal S1x2048 .f32)
    (b : Fin 1024) (q : Fin 2048) :
    k1_pay1 (F := Ideal) v0 v3 v7 (ix2 b q)
      = Hyper.score (fun k => v0 (ix2 b k)) (fun k => v3 (ix2 q k)) (v7 (ix2 0 q)) := by
  unfold k1_pay1 Hyper.score
  simp only [shapeCast_self]
  refine congrArg Ideal.logistic ?_
  refine congrArg₂ (· + ·) ?_ ?_
  · exact prod_apply _ _ b q
  · exact bias_apply v7 b q

/-- Entry `(b, q)` of the block the scoring body leaves. -/
theorem out1_3_apply (x0 : Vec Ideal S1024x200 .f32) (x1 : Vec Ideal S2048x200 .f32) (x2 : Vec Ideal S1x2048 .f32)
    (b : Fin 1024) (q : Fin 2048) :
    out1_3 (F := Ideal) x0 x1 x2 (ix2 b q)
      = Hyper.score (fun k => x0 (ix2 b k)) (fun k => x1 (ix2 q k)) (x2 (ix2 0 q)) := by
  unfold out1_3
  rw [View.canon_unit_zero off2_zero]
  simp only [View.ld_unit_zero (S := S1024x200) off2_zero, View.ld_unit_zero (S := S2048x200) off2_zero,
    View.ld_unit_zero (S := S1x2048) off2_zero]
  exact pay_apply x0 x1 x2 b q

end Cert.KernelIdeal.Body1

end
-- ==== Proof.Body0Taps.lean ====
/-
  One tap of the convolution at a time. The body cuts tap `f` out of the tap array as a `[128, 32, 1]` slice, spreads it
  along the 192 output positions, cuts the 192 entries of the normalised block that start at column `f`, spreads them
  along the 32 filters, multiplies and adds to what it has so far. Entry `(p, o, w)` of such a product is tap
  `(p, o, f)` times entry `(p, w + f)` of the block, and nine accumulations from zero are, in the extended reals, the
  sum of the nine terms.
-/
import proofs.«400437_j26628797235444_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

open scoped BigOperators

namespace Cert.KernelIdeal.Body0Taps

open Idealize.ShloMosaic Idealize.ShloMosaic.ValueIdx Cert.KernelIdeal Cert.KernelIdeal.Gen

/-- Tap `f` of every filter spread along the positions: entry `(p, o, w)` is tap `(p, o, f)`. The slice keeps one
    entry of the last axis; the two casts drop and restore that unit axis. -/
theorem tap_apply {α : Type} (f : Fin 9) (off : Fin 3 → Nat) (hoff : off = ![0, 0, f.val]) (x : S128x32x9.Idx → α)
    (hs : S128x32x9.Slices off S128x32x1) (h1 : S128x32x1.ShapeCasts S128x32) (h2 : S128x32.ShapeCasts S128x32x1)
    (h3 : S128x32x1.Broadcasts S128x32x192) (p : Fin 128) (o : Fin 32) (w : Fin 192) :
    broadcastTo S128x32x192 (shapeCast S128x32x1 (shapeCast S128x32 (extractStridedSlice S128x32x1 off x hs) h1) h2) h3
        (ix3 p o w) = x (ix3 p o f) := by
  subst hoff
  rw [shapeCast_shapeCast]
  refine (broadcastTo_apply _ h3 (ix3 p o w) (ix3 p o 0) (fun a => ?_)).trans ?_
  · match a with
    | ⟨0, _⟩ => show p.val = if (128 : Nat) = 1 then 0 else p.val; rw [if_neg (by decide)]
    | ⟨1, _⟩ => show o.val = if (32 : Nat) = 1 then 0 else o.val; rw [if_neg (by decide)]
    | ⟨2, _⟩ => show 0 = if (1 : Nat) = 1 then 0 else w.val; rw [if_pos rfl]
  · exact extractStridedSlice_apply _ x hs (ix3 p o 0) (ix3 p o f) (fun a => match a with
      | ⟨0, _⟩ => (Nat.zero_add _).symm
      | ⟨1, _⟩ => (Nat.zero_add _).symm
      | ⟨2, _⟩ => (Nat.add_zero _).symm)

/-- The block shifted by `f` columns, spread along the filters: entry `(p, o, w)` is entry `(p, w + f)` of the block. -/
theorem shift_apply {α : Type} (f : Fin 9) (off : Fin 2 → Nat) (hoff : off = ![0, f.val]) (x : S128x200.Idx → α)
    (hs : S128x200.Slices off S128x192) (h1 : S128x192.ShapeCasts S128x1x192)
    (h3 : S128x1x192.Broadcasts S128x32x192) (p : Fin 128) (o : Fin 32) (w : Fin 192) :
    broadcastTo S128x32x192 (shapeCast S128x1x192 (extractStridedSlice S128x192 off x hs) h1) h3 (ix3 p o w)
      = x (ix2 p ⟨w.val + f.val, by have := w.isLt; have := f.isLt; omega⟩) := by
  subst hoff
  refine (broadcastTo_apply _ h3 (ix3 p o w) (ix3 p 0 w) (fun a => ?_)).trans ?_
  · match a with
    | ⟨0, _⟩ => show p.val = if (128 : Nat) = 1 then 0 else p.val; rw [if_neg (by decide)]
    | ⟨1, _⟩ => show 0 = if (1 : Nat) = 1 then 0 else o.val; rw [if_pos rfl]
    | ⟨2, _⟩ => show w.val = if (192 : Nat) = 1 then 0 else w.val; rw [if_neg (by decide)]
  refine (shapeCast_apply _ h1 (ix3 p 0 w) (ix2 p w) ?_).trans ?_
  · rw [Shape.rowMajor_val_two, Shape.rowMajor_val_three]
    show p.val * 192 + w.val = (p.val * 1 + 0) * 192 + w.val
    omega
  · exact slice2_axis1_apply f.val x hs p w _ (Nat.add_comm _ _)

/-- Tap `f` of filter `o` times the entry of row `p` it meets at output position `w`. -/
def term (v20 : FVec Ideal S128x200 .f32) (v31 : FVec Ideal S128x32x9 .f32) (p : Fin 128) (o : Fin 32) (w : Fin 192)
    (f : Fin 9) : EReal :=
  v31 (ix3 p o f) * v20 (ix2 p ⟨w.val + f.val, by have := w.isLt; have := f.isLt; omega⟩)

/-- One accumulation: what was there plus the term of tap `f`. -/
theorem step_apply (f : Fin 9) (off3 : Fin 3 → Nat) (hoff3 : off3 = ![0, 0, f.val]) (off2 : Fin 2 → Nat)
    (hoff2 : off2 = ![0, f.val]) (v20 : FVec Ideal S128x200 .f32) (v31 : FVec Ideal S128x32x9 .f32)
    (hs3 : S128x32x9.Slices off3 S128x32x1) (h1 : S128x32x1.ShapeCasts S128x32) (h2 : S128x32.ShapeCasts S128x32x1)
    (h3 : S128x32x1.Broadcasts S128x32x192) (hs2 : S128x200.Slices off2 S128x192)
    (g1 : S128x192.ShapeCasts S128x1x192) (g3 : S128x1x192.Broadcasts S128x32x192)
    (acc : FVec Ideal S128x32x192 .f32) (p : Fin 128) (o : Fin 32) (w : Fin 192) :
    addf acc (mulf
        (broadcastTo S128x32x192 (shapeCast S128x32x1 (shapeCast S128x32 (extractStridedSlice S128x32x1 off3 v31 hs3) h1) h2) h3)
        (broadcastTo S128x32x192 (shapeCast S128x1x192 (extractStridedSlice S128x192 off2 v20 hs2) g1) g3)) (ix3 p o w)
      = acc (ix3 p o w) + term v20 v31 p o w f :=
  congrArg (acc (ix3 p o w) + ·)
    (congrArg₂ (· * ·) (tap_apply f off3 hoff3 v31 hs3 h1 h2 h3 p o w) (shift_apply f off2 hoff2 v20 hs2 g1 g3 p o w))

/-- Nine accumulations from zero are the sum of the nine terms. -/
theorem sum_nine (g : Fin 9 → EReal) :
    0 + g 0 + g 1 + g 2 + g 3 + g 4 + g 5 + g 6 + g 7 + g 8 = ∑ f : Fin 9, g f := by
  rw [Fin.sum_univ_castSucc, Fin.sum_univ_eight, zero_add]
  rfl

/-- The first seven accumulations, from any starting block and with the first product's two operands given. -/
theorem pay7_apply (v20 : FVec Ideal S128x200 .f32) (v31 : FVec Ideal S128x32x9 .f32)
    (v32 v38 v39 : FVec Ideal S128x32x192 .f32) (p : Fin 128) (o : Fin 32) (w : Fin 192) :
    k0_pay7 v20 v31 v32 v38 v39 (ix3 p o w)
      = v32 (ix3 p o w) + v38 (ix3 p o w) * v39 (ix3 p o w) + term v20 v31 p o w 1 + term v20 v31 p o w 2
          + term v20 v31 p o w 3 + term v20 v31 p o w 4 + term v20 v31 p o w 5 + term v20 v31 p o w 6 := by
  unfold k0_pay7
  refine (step_apply 6 _ rfl _ rfl v20 v31 _ _ _ _ _ _ _ _ p o w).trans (congrArg (· + term v20 v31 p o w 6) ?_)
  refine (step_apply 5 _ rfl _ rfl v20 v31 _ _ _ _ _ _ _ _ p o w).trans (congrArg (· + term v20 v31 p o w 5) ?_)
  refine (step_apply 4 _ rfl _ rfl v20 v31 _ _ _ _ _ _ _ _ p o w).trans (congrArg (· + term v20 v31 p o w 4) ?_)
  refine (step_apply 3 _ rfl _ rfl v20 v31 _ _ _ _ _ _ _ _ p o w).trans (congrArg (· + term v20 v31 p o w 3) ?_)
  refine (step_apply 2 _ rfl _ rfl v20 v31 _ _ _ _ _ _ _ _ p o w).trans (congrArg (· + term v20 v31 p o w 2) ?_)
  refine (step_apply 1 _ rfl _ rfl v20 v31 _ _ _ _ _ _ _ _ p o w).trans (congrArg (· + term v20 v31 p o w 1) ?_)
  rfl

/-- All nine accumulations: the block of zeros, tap 0 against the unshifted block, taps 1 to 6, then taps 7 and 8 whose
    operands the body cut earlier. Entry `(p, o, w)` is the convolution sum. -/
theorem conv_apply (v20 : FVec Ideal S128x200 .f32) (v31 : FVec Ideal S128x32x9 .f32)
    (v38 v39 : FVec Ideal S128x32x192 .f32)
    (h38 : ∀ (p : Fin 128) (o : Fin 32) (w : Fin 192), v38 (ix3 p o w) = v31 (ix3 p o 0))
    (h39 : ∀ (p : Fin 128) (o : Fin 32) (w : Fin 192), v39 (ix3 p o w) = v20 (ix2 p ⟨w.val, by have := w.isLt; omega⟩))
    (p : Fin 128) (o : Fin 32) (w : Fin 192) :
    addf (addf (k0_pay7 v20 v31 (k0_pay4 (F := Ideal)) v38 v39)
          (mulf (broadcastTo S128x32x192 (k0_pay9 v31) broadcasts_S128x32x1_S128x32x192)
            (broadcastTo S128x32x192 (shapeCast S128x1x192 (k0_pay8 v20) shapeCasts_S128x192_S128x1x192) broadcasts_S128x1x192_S128x32x192)))
        (mulf
          (broadcastTo S128x32x192 (shapeCast S128x32x1 (shapeCast S128x32 (extractStridedSlice S128x32x1 ![0, 0, 8] v31 slices_S128x32x9_o0_0_8_S128x32x1) shapeCasts_S128x32x1_S128x32) shapeCasts_S128x32_S128x32x1) broadcasts_S128x32x1_S128x32x192)
          (broadcastTo S128x32x192 (shapeCast S128x1x192 (extractStridedSlice S128x192 ![0, 8] v20 slices_S128x200_o0_8_S128x192) shapeCasts_S128x192_S128x1x192) broadcasts_S128x1x192_S128x32x192))
        (ix3 p o w)
      = ∑ f : Fin 9, term v20 v31 p o w f := by
  refine Eq.trans ?_ (sum_nine (term v20 v31 p o w))
  refine (step_apply 8 _ rfl _ rfl v20 v31 _ _ _ _ _ _ _ _ p o w).trans (congrArg (· + term v20 v31 p o w 8) ?_)
  unfold k0_pay8 k0_pay9
  refine (step_apply 7 _ rfl _ rfl v20 v31 _ _ _ _ _ _ _ _ p o w).trans (congrArg (· + term v20 v31 p o w 7) ?_)
  refine (pay7_apply v20 v31 _ v38 v39 p o w).trans ?_
  have h0 : k0_pay4 (F := Ideal) (ix3 p o w) = 0 := Ideal.ofBits_zero_f32
  have ht : v38 (ix3 p o w) * v39 (ix3 p o w) = term v20 v31 p o w 0 := by
    rw [h38, h39]; rfl
  rw [h0, ht]

end Cert.KernelIdeal.Body0Taps

end
-- ==== Proof.Body0Lin.lean ====
/-
  The end of the hypernetwork body, one operation at a time. A per-channel parameter is a `[1, 32, 1]` array spread over
  rows and positions, so at `(p, o, w)` it is the parameter of channel `o`; the batch normalisation subtracts the mean,
  multiplies by the reciprocal square root of the variance plus its offset, then by the scale, and adds the shift, in
  this order. The 32 × 192 numbers of a row are laid out channel-major: position `j` of the 6144 is channel `j / 192`,
  position `j % 192`. The final product contracts the second axis of both operands into a zero accumulator.
-/
import proofs.«400437_j26628797235444_3_alg».proof.Proof.Gen.KernelIdeal.Skeleton
import proofs.«400437_j26628797235444_3_alg».proof.Proof.HyperSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0Lin

open Idealize.ShloMosaic Idealize.ShloMosaic.ValueIdx Cert.KernelIdeal Cert.KernelIdeal.Gen

/-! ## The product's operand indices: both operands are contracted on their second axis -/

/-- The left operand's row is the entry's row. -/
theorem lhs_0 (i : S128x200.Idx) (q : dot_S128x6144_S200x6144_S128x200_1_1_0_0_n_n.contr.Idx) :
    (dot_S128x6144_S200x6144_S128x200_1_1_0_0_n_n.lhsIdx i q 0).val = (i 0).val := by
  unfold DotDims.lhsIdx
  rw [dif_neg (show ¬(0 : Fin S128x6144.rank) ∈ dot_S128x6144_S200x6144_S128x200_1_1_0_0_n_n.lhsBatch by decide), dif_pos (show (0 : Fin S128x6144.rank) ∈ dot_S128x6144_S200x6144_S128x200_1_1_0_0_n_n.lhsNonContracting by decide)]
  rfl
/-- The left operand's column is the summation position. -/
theorem lhs_1 (i : S128x200.Idx) (q : dot_S128x6144_S200x6144_S128x200_1_1_0_0_n_n.contr.Idx) :
    (dot_S128x6144_S200x6144_S128x200_1_1_0_0_n_n.lhsIdx i q 1).val = (q ⟨0, by decide⟩).val :=
  dot_S128x6144_S200x6144_S128x200_1_1_0_0_n_n.lhsIdx_val_of_single rfl i q
/-- The right operand's row is the entry's column. -/
theorem rhs_0 (i : S128x200.Idx) (q : dot_S128x6144_S200x6144_S128x200_1_1_0_0_n_n.contr.Idx) :
    (dot_S128x6144_S200x6144_S128x200_1_1_0_0_n_n.rhsIdx i q 0).val = (i 1).val := by
  unfold DotDims.rhsIdx
  rw [dif_neg (show ¬(0 : Fin S200x6144.rank) ∈ dot_S128x6144_S200x6144_S128x200_1_1_0_0_n_n.rhsBatch by decide), dif_pos (show (0 : Fin S200x6144.rank) ∈ dot_S128x6144_S200x6144_S128x200_1_1_0_0_n_n.rhsNonContracting by decide)]
  rfl
/-- The right operand's column is the summation position. -/
theorem rhs_1 (i : S128x200.Idx) (q : dot_S128x6144_S200x6144_S128x200_1_1_0_0_n_n.contr.Idx) :
    (dot_S128x6144_S200x6144_S128x200_1_1_0_0_n_n.rhsIdx i q 1).val = (q ⟨0, by decide⟩).val :=
  dot_S128x6144_S200x6144_S128x200_1_1_0_0_n_n.rhsIdx_val_of_single rfl i q

/-- The product into a zero accumulator at entry `(p, d)`: row `p` of the left operand against row `d` of the right. -/
theorem prod_apply {φ₁ φ₂ : FTy} (l : FVec Ideal S128x6144 φ₁) (r : FVec Ideal S200x6144 φ₂) (p : Fin 128) (d : Fin 200) :
    matmul (F := Ideal) dot_S128x6144_S200x6144_S128x200_1_1_0_0_n_n none l r (constant S128x200 .f32 0x00000000#32) (ix2 p d)
      = ∑ j : Fin 6144, l (ix2 p j) * r (ix2 d j) := by
  refine (Ideal.matmul_constant_zero_apply dot_S128x6144_S200x6144_S128x200_1_1_0_0_n_n none l r (ix2 p d)).trans ?_
  rw [← Equiv.sum_comp (contrEquiv1 dot_S128x6144_S200x6144_S128x200_1_1_0_0_n_n 6144 rfl rfl).symm]
  refine Finset.sum_congr rfl fun k _ => ?_
  have hk := contrEquiv1_symm_val dot_S128x6144_S200x6144_S128x200_1_1_0_0_n_n 6144 rfl rfl k
  have el : dot_S128x6144_S200x6144_S128x200_1_1_0_0_n_n.lhsIdx (ix2 p d) ((contrEquiv1 dot_S128x6144_S200x6144_S128x200_1_1_0_0_n_n 6144 rfl rfl).symm k) = ix2 p k := funext fun a => Fin.ext (by
    match a with
    | ⟨0, _⟩ => exact lhs_0 _ _
    | ⟨1, _⟩ => exact (lhs_1 _ _).trans hk)
  have er : dot_S128x6144_S200x6144_S128x200_1_1_0_0_n_n.rhsIdx (ix2 p d) ((contrEquiv1 dot_S128x6144_S200x6144_S128x200_1_1_0_0_n_n 6144 rfl rfl).symm k) = ix2 d k := funext fun a => Fin.ext (by
    match a with
    | ⟨0, _⟩ => exact rhs_0 _ _
    | ⟨1, _⟩ => exact (rhs_1 _ _).trans hk)
  rw [el, er]

/-- The channel-major layout: position `j` of row `p` is channel `j / 192` at position `j % 192`. -/
theorem flat_apply {α : Type} (x : S128x32x192.Idx → α) (h : S128x32x192.ShapeCasts S128x6144) (p : Fin 128) (j : Fin 6144) :
    shapeCast S128x6144 x h (ix2 p j)
      = x (ix3 p ⟨j.val / 192, by have := j.isLt; omega⟩ ⟨j.val % 192, Nat.mod_lt _ (by decide)⟩) :=
  shapeCast_apply x h _ _ (by
    rw [Shape.rowMajor_val_three, Shape.rowMajor_val_two]
    show (p.val * 32 + j.val / 192) * 192 + j.val % 192 = p.val * 6144 + j.val
    omega)

/-- A per-channel parameter spread over rows and positions: at `(p, o, w)` it is channel `o`'s. -/
theorem chan_apply {α : Type} (x : S1x32x1.Idx → α) (h : S1x32x1.Broadcasts S128x32x192) (p : Fin 128) (o : Fin 32) (w : Fin 192) :
    broadcastTo S128x32x192 x h (ix3 p o w) = x (ix3 0 o 0) :=
  broadcastTo_apply x h (ix3 p o w) (ix3 0 o 0) (fun a => match a with
    | ⟨0, _⟩ => by show 0 = if (1 : Nat) = 1 then 0 else p.val; rw [if_pos rfl]
    | ⟨1, _⟩ => by show o.val = if (32 : Nat) = 1 then 0 else o.val; rw [if_neg (by decide)]
    | ⟨2, _⟩ => by show 0 = if (1 : Nat) = 1 then 0 else w.val; rw [if_pos rfl])

/-- The bias row spread over the 128 rows: entry `(p, d)` is bias `d`. -/
theorem bias_apply (v : Vec Ideal S1x200 .f32) (p : Fin 128) (d : Fin 200) :
    broadcastTo S128x200 (shapeCast S1x200 v shapeCasts_S1x200_S1x200) broadcasts_S1x200_S128x200 (ix2 p d) = v (ix2 0 d) := by
  rw [shapeCast_self]
  exact broadcastTo_apply v broadcasts_S1x200_S128x200 (ix2 p d) (ix2 0 d) (fun a => match a with
    | ⟨0, _⟩ => by show 0 = if (1 : Nat) = 1 then 0 else p.val; rw [if_pos rfl]
    | ⟨1, _⟩ => by show d.val = if (200 : Nat) = 1 then 0 else d.val; rw [if_neg (by decide)])

/-- The per-channel batch normalisation of a block `c` at `(p, o, w)`. -/
theorem norm_apply (c : FVec Ideal S128x32x192 .f32) (v114 v118 v125 v129 : Vec Ideal S1x32x1 .f32)
    (p : Fin 128) (o : Fin 32) (w : Fin 192) :
    addf (mulf (mulf
          (subf c (broadcastTo S128x32x192 (shapeCast S1x32x1 v114 shapeCasts_S1x32x1_S1x32x1) broadcasts_S1x32x1_S128x32x192))
          (broadcastTo S128x32x192
            (rsqrt (addf (shapeCast S1x32x1 v118 shapeCasts_S1x32x1_S1x32x1)
              (broadcast S1x32x1 (Scalar.ofBits (F := Ideal) .f32 0x3727C5AC#32))))
            broadcasts_S1x32x1_S128x32x192))
        (broadcastTo S128x32x192 (shapeCast S1x32x1 v125 shapeCasts_S1x32x1_S1x32x1) broadcasts_S1x32x1_S128x32x192))
      (broadcastTo S128x32x192 (shapeCast S1x32x1 v129 shapeCasts_S1x32x1_S1x32x1) broadcasts_S1x32x1_S128x32x192)
      (ix3 p o w)
      = Hyper.bn (c (ix3 p o w)) (v114 (ix3 0 o 0)) (v118 (ix3 0 o 0)) (v125 (ix3 0 o 0)) (v129 (ix3 0 o 0)) := by
  simp only [shapeCast_self]
  unfold Hyper.bn
  refine congrArg₂ (· + ·) (congrArg₂ (· * ·) (congrArg₂ (· * ·) (congrArg₂ (· - ·) rfl ?_) ?_) ?_) ?_
  · exact chan_apply v114 _ p o w
  · exact (chan_apply _ _ p o w).trans rfl
  · exact chan_apply v125 _ p o w
  · exact chan_apply v129 _ p o w

end Cert.KernelIdeal.Body0Lin

end
-- ==== Proof.Body0Conv.lean ====
/-
  The middle of the hypernetwork body, over an abstract normalised entity block `v20` and an abstract tap array `v31`.
  The body accumulates, from zero, nine products of a tap (broadcast along the positions) with the block shifted by
  the tap's number (broadcast along the filters); in the extended reals the nine accumulations are one nine-term sum.
  Each channel is then batch-normalised, the 32 × 192 numbers of a row are laid out channel-major as 6144, and the
  final linear layer contracts them against the rows of its 200 × 6144 matrix and adds its bias.
-/
import proofs.«400437_j26628797235444_3_alg».proof.Proof.Gen.KernelIdeal.Frame
import proofs.«400437_j26628797235444_3_alg».proof.Proof.HyperSpec
import proofs.«400437_j26628797235444_3_alg».proof.Proof.Body0Taps
import proofs.«400437_j26628797235444_3_alg».proof.Proof.Body0Lin
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0Conv

open Idealize.ShloMosaic Idealize.ShloMosaic.ValueIdx Cert.KernelIdeal Cert.KernelIdeal.Gen

/-- The cast to the narrower format does nothing to an entry of the channel-major row. -/
theorem flat_narrow_apply (x : FVec Ideal S128x32x192 .f32) (p : Fin 128) (j : Fin 6144) :
    truncf .bf16 (shapeCast S128x6144 x shapeCasts_S128x32x192_S128x6144) bitsLt_bf16_f32 (ix2 p j)
      = x (ix3 p ⟨j.val / 192, by have := j.isLt; omega⟩ ⟨j.val % 192, Nat.mod_lt _ (by decide)⟩) :=
  Body0Lin.flat_apply (α := Ideal .f32) x shapeCasts_S128x32x192_S128x6144 p j

/-- Entry `(p, d)` of the final linear layer's output, before its batch normalisation: the sum over the 6144
    channel-major positions `j = 192 o + w` of the normalised convolution at `(o, w)` times the matrix entry `(d, j)`,
    plus the bias. `v38` is tap 0 broadcast along the positions and `v39` the unshifted block broadcast along the filters. -/
theorem pay10_apply (v20 : FVec Ideal S128x200 .f32) (v31 : FVec Ideal S128x32x9 .f32)
    (v38 v39 : FVec Ideal S128x32x192 .f32)
    (h38 : ∀ (p : Fin 128) (o : Fin 32) (w : Fin 192), v38 (ix3 p o w) = v31 (ix3 p o 0))
    (h39 : ∀ (p : Fin 128) (o : Fin 32) (w : Fin 192), v39 (ix3 p o w) = v20 (ix2 p ⟨w.val, by have := w.isLt; omega⟩))
    (v114 v118 v125 v129 : Vec Ideal S1x32x1 .f32) (v135 : Vec Ideal S200x6144 .f32) (v138 : Vec Ideal S1x200 .f32)
    (p : Fin 128) (d : Fin 200) :
    k0_pay10 (F := Ideal) v20 v31 (k0_pay7 v20 v31 (k0_pay4 (F := Ideal)) v38 v39) (k0_pay8 v20) (k0_pay9 v31)
        v114 v118 v125 v129 v135 v138 (ix2 p d)
      = (∑ j : Fin 6144,
          Hyper.bn (∑ f : Fin 9,
              v31 (ix3 p ⟨j.val / 192, by have := j.isLt; omega⟩ f)
                * v20 (ix2 p ⟨j.val % 192 + f.val, by have := Nat.mod_lt j.val (show 0 < 192 by decide); have := f.isLt; omega⟩))
            (v114 (ix3 0 ⟨j.val / 192, by have := j.isLt; omega⟩ 0)) (v118 (ix3 0 ⟨j.val / 192, by have := j.isLt; omega⟩ 0))
            (v125 (ix3 0 ⟨j.val / 192, by have := j.isLt; omega⟩ 0)) (v129 (ix3 0 ⟨j.val / 192, by have := j.isLt; omega⟩ 0))
          * v135 (ix2 d j))
        + v138 (ix2 0 d) := by
  unfold k0_pay10
  refine congrArg₂ (· + ·) ?_ (Body0Lin.bias_apply v138 p d)
  refine (Body0Lin.prod_apply _ _ p d).trans (Finset.sum_congr rfl fun j _ => congrArg₂ (· * ·) ?_ rfl)
  refine (flat_narrow_apply _ p j).trans ?_
  refine (Body0Lin.norm_apply _ v114 v118 v125 v129 p _ _).trans ?_
  refine congrArg (fun x => Hyper.bn x _ _ _ _) ?_
  exact Body0Taps.conv_apply v20 v31 v38 v39 h38 h39 p _ _

end Cert.KernelIdeal.Body0Conv

end
-- ==== Proof.Body0.lean ====
/-
  The hypernetwork body at one entry. A block holds 128 entity rows, the 128 relation rows beside them, and every
  parameter whole. Row `p` of what the body stores is the hidden vector of that row: it depends on row `p` of the two
  row blocks only.
-/
import proofs.«400437_j26628797235444_3_alg».proof.Proof.Gen.KernelIdeal.Frame
import proofs.«400437_j26628797235444_3_alg».proof.Proof.HyperSpec
import proofs.«400437_j26628797235444_3_alg».proof.Proof.Body0Conv
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0

open Idealize.ShloMosaic Idealize.ShloMosaic.ValueIdx Cert.KernelIdeal Cert.KernelIdeal.Gen

/-- The parameters as the body's windows carry them: matrices as they are, vectors as one-row (or one-column) arrays. -/
def wts (x2 : Vec Ideal S288x200 .f32) (x3 : Vec Ideal S1x288 .f32) (x4 : Vec Ideal S200x6144 .f32) (x5 : Vec Ideal S1x200 .f32)
    (x6 x7 x8 x9 : Vec Ideal S1x1 .f32) (x10 x11 x12 x13 : Vec Ideal S1x32x1 .f32) (x14 x15 x16 x17 : Vec Ideal S1x200 .f32) : Hyper.Wts where
  fc1W := fun j k => x2 (ix2 j k)
  fc1b := fun j => x3 (ix2 0 j)
  fcW := fun d j => x4 (ix2 d j)
  fcb := fun d => x5 (ix2 0 d)
  g0 := x6 (ix2 0 0)
  b0 := x7 (ix2 0 0)
  m0 := x8 (ix2 0 0)
  v0 := x9 (ix2 0 0)
  g1 := fun o => x10 (ix3 0 o 0)
  b1 := fun o => x11 (ix3 0 o 0)
  m1 := fun o => x12 (ix3 0 o 0)
  v1 := fun o => x13 (ix3 0 o 0)
  g2 := fun d => x14 (ix2 0 d)
  b2 := fun d => x15 (ix2 0 d)
  m2 := fun d => x16 (ix2 0 d)
  v2 := fun d => x17 (ix2 0 d)

/-- The offsets of a whole-block rectangle with two axes are all zero. -/
theorem off2 : (![0, 0] : Fin 2 → Nat) = fun _ => 0 := funext fun a => by
  match a with | ⟨0, _⟩ => rfl | ⟨1, _⟩ => rfl
/-- The offsets of a whole-block rectangle with three axes are all zero. -/
theorem off3 : (![0, 0, 0] : Fin 3 → Nat) = fun _ => 0 := funext fun a => by
  match a with | ⟨0, _⟩ => rfl | ⟨1, _⟩ => rfl | ⟨2, _⟩ => rfl

/-- Every access of the body is to a whole block, so the stored block is the body's arithmetic on the blocks themselves. -/
theorem out0_18_eq (x0 x1 : Vec Ideal S128x200 .f32) (x2 : Vec Ideal S288x200 .f32) (x3 : Vec Ideal S1x288 .f32)
    (x4 : Vec Ideal S200x6144 .f32) (x5 : Vec Ideal S1x200 .f32) (x6 x7 x8 x9 : Vec Ideal S1x1 .f32)
    (x10 x11 x12 x13 : Vec Ideal S1x32x1 .f32) (x14 x15 x16 x17 : Vec Ideal S1x200 .f32) :
    out0_18 (F := Ideal) x0 x1 x2 x3 x4 x5 x6 x7 x8 x9 x10 x11 x12 x13 x14 x15 x16 x17
      = k0_pay1 (k0_pay10 (k0_pay2 x0 x8 x9 x6 x7) (k0_pay3 x1 x2 x3)
          (k0_pay7 (k0_pay2 x0 x8 x9 x6 x7) (k0_pay3 x1 x2 x3) (k0_pay4 (F := Ideal)) (k0_pay5 x1 x2 x3) (k0_pay6 x0 x8 x9 x6 x7))
          (k0_pay8 (k0_pay2 x0 x8 x9 x6 x7)) (k0_pay9 (k0_pay3 x1 x2 x3)) x12 x13 x10 x11 x4 x5) x16 x17 x14 x15 := by
  unfold out0_18
  rw [View.canon_unit_zero off2]
  simp only [View.ld_unit_zero (S := S128x200) off2, View.ld_unit_zero (S := S1x1) off2, View.ld_unit_zero (S := S288x200) off2,
    View.ld_unit_zero (S := S1x288) off2, View.ld_unit_zero (S := S1x32x1) off3, View.ld_unit_zero (S := S200x6144) off2,
    View.ld_unit_zero (S := S1x200) off2]

/-- The reciprocal square root of a vector, entry by entry. -/
theorem rsqrt_apply {s : Shape} {φ : FTy} (a : FVec Ideal s φ) (i : s.Idx) : rsqrt a i = Ideal.rsqrt (a i) := rfl

/-- A one-entry array spread over a 128 × 200 block reads its entry everywhere. -/
theorem spread_one (y : FVec Ideal S1x1 .f32) (h : S1x1.Broadcasts S128x200) (p : Fin 128) (d : Fin 200) :
    broadcastTo S128x200 y h (ix2 p d) = y (ix2 0 0) :=
  broadcastTo_apply y h (ix2 p d) (ix2 0 0) (fun a => by
    match a with | ⟨0, _⟩ => rfl | ⟨1, _⟩ => rfl)

/-- A one-row array spread over the 128 rows reads its column. -/
theorem spread_row (y : FVec Ideal S1x200 .f32) (h : S1x200.Broadcasts S128x200) (p : Fin 128) (d : Fin 200) :
    broadcastTo S128x200 y h (ix2 p d) = y (ix2 0 d) :=
  broadcastTo_apply y h (ix2 p d) (ix2 0 d) (fun a => by
    match a with | ⟨0, _⟩ => rfl | ⟨1, _⟩ => rfl)

/-- Entry (p, d) of the normalised entity block: the batch normalisation of entry (p, d) with the one channel's statistics. -/
theorem feat_apply (x0 : Vec Ideal S128x200 .f32) (m v g b : Vec Ideal S1x1 .f32) (p : Fin 128) (d : Fin 200) :
    k0_pay2 x0 m v g b (ix2 p d)
      = Hyper.bn (x0 (ix2 p d)) (m (ix2 0 0)) (v (ix2 0 0)) (g (ix2 0 0)) (b (ix2 0 0)) := by
  unfold k0_pay2 Hyper.bn
  simp only [shapeCast_self, addf_apply, mulf_apply, subf_apply, spread_one, rsqrt_apply, broadcast_apply]
  rfl

/-- Entry (p, d) of the stored block: the last batch normalisation, per coordinate, clipped below at zero. -/
theorem relu_apply (y : FVec Ideal S128x200 .f32) (m v g b : Vec Ideal S1x200 .f32) (p : Fin 128) (d : Fin 200) :
    k0_pay1 y m v g b (ix2 p d)
      = max (Hyper.bn (y (ix2 p d)) (m (ix2 0 d)) (v (ix2 0 d)) (g (ix2 0 d)) (b (ix2 0 d))) 0 := by
  unfold k0_pay1 Hyper.bn
  simp only [shapeCast_self, addf_apply, mulf_apply, subf_apply, maximumf_apply, spread_row, rsqrt_apply, broadcast_apply]
  rw [show (Scalar.ofBits .f32 0x00000000#32 : Ideal .f32) = 0 from Ideal.ofBits_zero_f32]
  rfl

/-- Row `9 o + f` of the 288 outputs of the first linear layer: tap `f` of filter `o`. -/
def row (o : Fin 32) (f : Fin 9) : Fin 288 := ⟨9 * o.val + f.val, by have := o.isLt; have := f.isLt; omega⟩

/-! ## The first linear layer's product: both operands are contracted on their second axis -/

/-- The left operand's row is the entry's row. -/
theorem lhs_fc1_0 (i : S128x288.Idx) (q : dot_S128x200_S288x200_S128x288_1_1_0_0_n_n.contr.Idx) :
    (dot_S128x200_S288x200_S128x288_1_1_0_0_n_n.lhsIdx i q 0).val = (i 0).val := by
  unfold DotDims.lhsIdx
  rw [dif_neg (show ¬(0 : Fin S128x200.rank) ∈ dot_S128x200_S288x200_S128x288_1_1_0_0_n_n.lhsBatch by decide), dif_pos (show (0 : Fin S128x200.rank) ∈ dot_S128x200_S288x200_S128x288_1_1_0_0_n_n.lhsNonContracting by decide)]
  rfl
/-- The left operand's column is the summation position. -/
theorem lhs_fc1_1 (i : S128x288.Idx) (q : dot_S128x200_S288x200_S128x288_1_1_0_0_n_n.contr.Idx) :
    (dot_S128x200_S288x200_S128x288_1_1_0_0_n_n.lhsIdx i q 1).val = (q ⟨0, by decide⟩).val :=
  dot_S128x200_S288x200_S128x288_1_1_0_0_n_n.lhsIdx_val_of_single rfl i q
/-- The right operand's row is the entry's column. -/
theorem rhs_fc1_0 (i : S128x288.Idx) (q : dot_S128x200_S288x200_S128x288_1_1_0_0_n_n.contr.Idx) :
    (dot_S128x200_S288x200_S128x288_1_1_0_0_n_n.rhsIdx i q 0).val = (i 1).val := by
  unfold DotDims.rhsIdx
  rw [dif_neg (show ¬(0 : Fin S288x200.rank) ∈ dot_S128x200_S288x200_S128x288_1_1_0_0_n_n.rhsBatch by decide), dif_pos (show (0 : Fin S288x200.rank) ∈ dot_S128x200_S288x200_S128x288_1_1_0_0_n_n.rhsNonContracting by decide)]
  rfl
/-- The right operand's column is the summation position. -/
theorem rhs_fc1_1 (i : S128x288.Idx) (q : dot_S128x200_S288x200_S128x288_1_1_0_0_n_n.contr.Idx) :
    (dot_S128x200_S288x200_S128x288_1_1_0_0_n_n.rhsIdx i q 1).val = (q ⟨0, by decide⟩).val :=
  dot_S128x200_S288x200_S128x288_1_1_0_0_n_n.rhsIdx_val_of_single rfl i q

/-- Entry (p, j) of the product of the relation block with the 288 × 200 matrix, both contracted along their second
    axis: the inner product of row p with row j. -/
theorem fc1_apply (l : FVec Ideal S128x200 .bf16) (r : FVec Ideal S288x200 .bf16) (p : Fin 128) (j : Fin 288) :
    matmul dot_S128x200_S288x200_S128x288_1_1_0_0_n_n none l r (constant S128x288 .f32 0x00000000#32) (ix2 p j)
      = ∑ k : Fin 200, l (ix2 p k) * r (ix2 j k) := by
  simp only [matmul]
  rw [Ideal.matmul_constant_zero_apply, ← Equiv.sum_comp (contrEquiv1 dot_S128x200_S288x200_S128x288_1_1_0_0_n_n 200 rfl rfl).symm]
  refine Finset.sum_congr rfl fun k _ => ?_
  have hk := contrEquiv1_symm_val dot_S128x200_S288x200_S128x288_1_1_0_0_n_n 200 rfl rfl k
  have el : dot_S128x200_S288x200_S128x288_1_1_0_0_n_n.lhsIdx (ix2 p j) ((contrEquiv1 dot_S128x200_S288x200_S128x288_1_1_0_0_n_n 200 rfl rfl).symm k) = ix2 p k := funext fun a => Fin.ext (by
    match a with
    | ⟨0, _⟩ => exact lhs_fc1_0 _ _
    | ⟨1, _⟩ => exact (lhs_fc1_1 _ _).trans hk)
  have er : dot_S128x200_S288x200_S128x288_1_1_0_0_n_n.rhsIdx (ix2 p j) ((contrEquiv1 dot_S128x200_S288x200_S128x288_1_1_0_0_n_n 200 rfl rfl).symm k) = ix2 j k := funext fun a => Fin.ext (by
    match a with
    | ⟨0, _⟩ => exact rhs_fc1_0 _ _
    | ⟨1, _⟩ => exact (rhs_fc1_1 _ _).trans hk)
  rw [el, er]

/-- The bias row spread over the 128 rows reads its column. -/
theorem spread_bias (y : FVec Ideal S1x288 .f32) (h : S1x288.Broadcasts S128x288) (p : Fin 128) (j : Fin 288) :
    broadcastTo S128x288 y h (ix2 p j) = y (ix2 0 j) :=
  broadcastTo_apply y h (ix2 p j) (ix2 0 j) (fun a => by
    match a with | ⟨0, _⟩ => rfl | ⟨1, _⟩ => rfl)

/-- Entry (p, o, f) of the filter block: output `9 o + f` of the first linear layer on relation row p. -/
theorem tap_apply (x1 : Vec Ideal S128x200 .f32) (x2 : Vec Ideal S288x200 .f32) (x3 : Vec Ideal S1x288 .f32)
    (p : Fin 128) (o : Fin 32) (f : Fin 9) :
    k0_pay3 x1 x2 x3 (ix3 p o f)
      = (∑ k : Fin 200, x1 (ix2 p k) * x2 (ix2 (row o f) k)) + x3 (ix2 0 (row o f)) := by
  unfold k0_pay3
  refine (shapeCast_apply _ shapeCasts_S128x288_S128x32x9 (ix3 p o f) (ix2 p (row o f)) ?_).trans ?_
  · rw [Shape.rowMajor_val_two, Shape.rowMajor_val_three]
    show p.val * 288 + (9 * o.val + f.val) = (p.val * 32 + o.val) * 9 + f.val
    omega
  · simp only [addf_apply, fc1_apply, shapeCast_self, truncf_apply, spread_bias]

/-- The first one-tap slice of the filter block reads tap 0. -/
theorem slice_tap (v31 : FVec Ideal S128x32x9 .f32) (h : S128x32x9.Slices ![0, 0, 0] S128x32x1)
    (p : Fin 128) (o : Fin 32) (u : Fin 1) :
    extractStridedSlice S128x32x1 ![0, 0, 0] v31 h (ix3 p o u) = v31 (ix3 p o 0) :=
  extractStridedSlice_apply _ v31 h (ix3 p o u) (ix3 p o 0) (fun a => by
    match a with
    | ⟨0, _⟩ => show p.val = 0 + p.val; omega
    | ⟨1, _⟩ => show o.val = 0 + o.val; omega
    | ⟨2, _⟩ => show 0 = 0 + u.val; have := u.isLt; omega)

/-- The first 192-wide slice of a 200-wide block reads the same position. -/
theorem slice_ent (v20 : FVec Ideal S128x200 .f32) (h : S128x200.Slices ![0, 0] S128x192)
    (p : Fin 128) (w : Fin 192) :
    extractStridedSlice S128x192 ![0, 0] v20 h (ix2 p w) = v20 (ix2 p ⟨w.val, by have := w.isLt; omega⟩) :=
  extractStridedSlice_apply _ v20 h (ix2 p w) (ix2 p ⟨w.val, by have := w.isLt; omega⟩) (fun a => by
    match a with
    | ⟨0, _⟩ => show p.val = 0 + p.val; omega
    | ⟨1, _⟩ => show w.val = 0 + w.val; omega)

/-- A [128, 32, 1] array spread along the 192 positions reads its one entry per (row, filter). -/
theorem spread_w (y : FVec Ideal S128x32x1 .f32) (h : S128x32x1.Broadcasts S128x32x192) (p : Fin 128) (o : Fin 32) (w : Fin 192) :
    broadcastTo S128x32x192 y h (ix3 p o w) = y (ix3 p o 0) :=
  broadcastTo_apply y h (ix3 p o w) (ix3 p o 0) (fun a => by
    match a with | ⟨0, _⟩ => rfl | ⟨1, _⟩ => rfl | ⟨2, _⟩ => rfl)

/-- A [128, 1, 192] array spread along the 32 filters reads its one entry per (row, position). -/
theorem spread_o (y : FVec Ideal S128x1x192 .f32) (h : S128x1x192.Broadcasts S128x32x192) (p : Fin 128) (o : Fin 32) (w : Fin 192) :
    broadcastTo S128x32x192 y h (ix3 p o w) = y (ix3 p 0 w) :=
  broadcastTo_apply y h (ix3 p o w) (ix3 p 0 w) (fun a => by
    match a with | ⟨0, _⟩ => rfl | ⟨1, _⟩ => rfl | ⟨2, _⟩ => rfl)

/-- [128, 192] read as [128, 1, 192]: the same row-major position. -/
theorem cast_mid (y : FVec Ideal S128x192 .f32) (h : S128x192.ShapeCasts S128x1x192) (p : Fin 128) (u : Fin 1) (w : Fin 192) :
    shapeCast S128x1x192 y h (ix3 p u w) = y (ix2 p w) :=
  shapeCast_apply y h (ix3 p u w) (ix2 p w) (by
    rw [Shape.rowMajor_val_two, Shape.rowMajor_val_three]
    show p.val * 192 + w.val = (p.val * 1 + u.val) * 192 + w.val
    have := u.isLt; omega)

/-- [128, 32, 1] read as [128, 32]: the same row-major position. -/
theorem cast_drop (y : FVec Ideal S128x32x1 .f32) (h : S128x32x1.ShapeCasts S128x32) (p : Fin 128) (o : Fin 32) :
    shapeCast S128x32 y h (ix2 p o) = y (ix3 p o 0) :=
  shapeCast_apply y h (ix2 p o) (ix3 p o 0) (by
    rw [Shape.rowMajor_val_two, Shape.rowMajor_val_three]
    show (p.val * 32 + o.val) * 1 + 0 = p.val * 32 + o.val
    omega)

/-- [128, 32] read as [128, 32, 1]: the same row-major position. -/
theorem cast_add (y : FVec Ideal S128x32 .f32) (h : S128x32.ShapeCasts S128x32x1) (p : Fin 128) (o : Fin 32) (u : Fin 1) :
    shapeCast S128x32x1 y h (ix3 p o u) = y (ix2 p o) :=
  shapeCast_apply y h (ix3 p o u) (ix2 p o) (by
    rw [Shape.rowMajor_val_two, Shape.rowMajor_val_three]
    show p.val * 32 + o.val = (p.val * 32 + o.val) * 1 + u.val
    have := u.isLt; omega)

/-- Tap 0 spread along the positions: entry (p, o, w) is entry (p, o, 0) of the filter block. -/
theorem tap0_apply (x1 : Vec Ideal S128x200 .f32) (x2 : Vec Ideal S288x200 .f32) (x3 : Vec Ideal S1x288 .f32)
    (p : Fin 128) (o : Fin 32) (w : Fin 192) :
    k0_pay5 x1 x2 x3 (ix3 p o w) = k0_pay3 x1 x2 x3 (ix3 p o 0) := by
  unfold k0_pay5
  simp only [spread_w, cast_add, cast_drop, slice_tap]

/-- The unshifted normalised block spread along the filters: entry (p, o, w) is entry (p, w) of the block. -/
theorem ent0_apply (x0 : Vec Ideal S128x200 .f32) (m v g b : Vec Ideal S1x1 .f32) (p : Fin 128) (o : Fin 32) (w : Fin 192) :
    k0_pay6 x0 m v g b (ix3 p o w) = k0_pay2 x0 m v g b (ix2 p ⟨w.val, by have := w.isLt; omega⟩) := by
  unfold k0_pay6
  simp only [spread_o, cast_mid, slice_ent]

/-- Entry `(p, d)` of the block the hypernetwork body leaves: coordinate `d` of the hidden vector of row `p`. -/
theorem out0_18_apply (x0 x1 : Vec Ideal S128x200 .f32) (x2 : Vec Ideal S288x200 .f32) (x3 : Vec Ideal S1x288 .f32)
    (x4 : Vec Ideal S200x6144 .f32) (x5 : Vec Ideal S1x200 .f32) (x6 x7 x8 x9 : Vec Ideal S1x1 .f32)
    (x10 x11 x12 x13 : Vec Ideal S1x32x1 .f32) (x14 x15 x16 x17 : Vec Ideal S1x200 .f32) (p : Fin 128) (d : Fin 200) :
    out0_18 (F := Ideal) x0 x1 x2 x3 x4 x5 x6 x7 x8 x9 x10 x11 x12 x13 x14 x15 x16 x17 (ix2 p d)
      = Hyper.yRow (wts x2 x3 x4 x5 x6 x7 x8 x9 x10 x11 x12 x13 x14 x15 x16 x17)
          (fun d' => x0 (ix2 p d')) (fun k => x1 (ix2 p k)) d := by
  rw [out0_18_eq, relu_apply,
    Body0Conv.pay10_apply (k0_pay2 x0 x8 x9 x6 x7) (k0_pay3 x1 x2 x3) (k0_pay5 x1 x2 x3) (k0_pay6 x0 x8 x9 x6 x7)
      (tap0_apply x1 x2 x3) (ent0_apply x0 x8 x9 x6 x7) x12 x13 x10 x11 x4 x5 p d]
  simp only [tap_apply, feat_apply]
  rfl

end Cert.KernelIdeal.Body0

end
-- ==== Proof.Host0.lean ====
/-
  What the first kernel's parameter windows hold when it starts. No host operation before it writes an argument array,
  so the two weight matrices are the launch memory's; each vector parameter was reshaped to one row (or one column of
  one row), and entry `j` of the vector sits at `(0, j)` (or `(0, j, 0)`) of the reshaped array.
-/
import proofs.«400437_j26628797235444_3_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.Host0

open Idealize.ShloMosaic Idealize.ShloMosaic.ValueIdx Idealize.SL.Sem Cert.KernelIdeal Cert.KernelIdeal.Gen

/-- A buffer that none of a stretch's operations writes holds after the stretch what it held before. -/
local macro "kept_tac" : tactic =>
  `(tactic| (refine StableHlo.after_of_forall_not_mem _ _ (List.forall_iff_forall_mem.mp ?_)
             simp only [hostOps0, hostOps0_1, hostOps0_2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- A vector cast to one column of one row reads, at `(u, i, v)`, the vector at `i`: the two unit coordinates add
    nothing to the row-major position. -/
theorem shapeCast_a_1a1_apply {α : Type} {a : ℕ} (x : (⟨1, ![a]⟩ : Shape).Idx → α)
    (h : (⟨1, ![a]⟩ : Shape).ShapeCasts ⟨3, ![1, a, 1]⟩) (u : Fin 1) (i : Fin a) (v : Fin 1) :
    shapeCast ⟨3, ![1, a, 1]⟩ x h (ix3 u i v) = x (ix1 i) :=
  shapeCast_apply x h _ _ (by
    have hu : u.val = 0 := by omega
    have hv : v.val = 0 := by omega
    rw [Shape.rowMajor_val_three, Shape.rowMajor_val_one]
    show i.val = (u.val * a + i.val) * 1 + v.val
    rw [hu, hv, Nat.zero_mul, Nat.zero_add, Nat.mul_one, Nat.add_zero])

/-! ## No stretch before the kernel writes an argument array

The two row lookups and the reshapes each write only their own results, so an argument array read after them is the
array they started from. -/

/-- No operation of the three stretches before the first kernel writes argument array 4 (the first linear layer's weight matrix). -/
theorem kept_arg4 (U : Valuation τ sig (Elt Ideal)) :
    StableHlo.after hostOps0_2 (StableHlo.after hostOps0_1 (StableHlo.after hostOps0 U)) (Proc.devRef .tc main_arg4)
      = U (Proc.devRef .tc main_arg4) :=
  (by kept_tac : StableHlo.after hostOps0_2 (StableHlo.after hostOps0_1 (StableHlo.after hostOps0 U)) (Proc.devRef .tc main_arg4)
      = StableHlo.after hostOps0_1 (StableHlo.after hostOps0 U) (Proc.devRef .tc main_arg4)).trans
    ((by kept_tac : StableHlo.after hostOps0_1 (StableHlo.after hostOps0 U) (Proc.devRef .tc main_arg4)
      = StableHlo.after hostOps0 U (Proc.devRef .tc main_arg4)).trans (by kept_tac))

/-- No operation of the three stretches before the first kernel writes argument array 6 (the final linear layer's weight matrix). -/
theorem kept_arg6 (U : Valuation τ sig (Elt Ideal)) :
    StableHlo.after hostOps0_2 (StableHlo.after hostOps0_1 (StableHlo.after hostOps0 U)) (Proc.devRef .tc main_arg6)
      = U (Proc.devRef .tc main_arg6) :=
  (by kept_tac : StableHlo.after hostOps0_2 (StableHlo.after hostOps0_1 (StableHlo.after hostOps0 U)) (Proc.devRef .tc main_arg6)
      = StableHlo.after hostOps0_1 (StableHlo.after hostOps0 U) (Proc.devRef .tc main_arg6)).trans
    ((by kept_tac : StableHlo.after hostOps0_1 (StableHlo.after hostOps0 U) (Proc.devRef .tc main_arg6)
      = StableHlo.after hostOps0 U (Proc.devRef .tc main_arg6)).trans (by kept_tac))

/-- Neither row lookup writes argument array 5 (the first linear layer's bias). -/
theorem kept_arg5 (U : Valuation τ sig (Elt Ideal)) :
    StableHlo.after hostOps0_1 (StableHlo.after hostOps0 U) (Proc.devRef .tc main_arg5) = U (Proc.devRef .tc main_arg5) :=
  (by kept_tac : StableHlo.after hostOps0_1 (StableHlo.after hostOps0 U) (Proc.devRef .tc main_arg5)
      = StableHlo.after hostOps0 U (Proc.devRef .tc main_arg5)).trans (by kept_tac)

/-- Neither row lookup writes argument array 7 (the final linear layer's bias). -/
theorem kept_arg7 (U : Valuation τ sig (Elt Ideal)) :
    StableHlo.after hostOps0_1 (StableHlo.after hostOps0 U) (Proc.devRef .tc main_arg7) = U (Proc.devRef .tc main_arg7) :=
  (by kept_tac : StableHlo.after hostOps0_1 (StableHlo.after hostOps0 U) (Proc.devRef .tc main_arg7)
      = StableHlo.after hostOps0 U (Proc.devRef .tc main_arg7)).trans (by kept_tac)

/-- Neither row lookup writes argument array 9 (the scale of the entity rows' normalisation). -/
theorem kept_arg9 (U : Valuation τ sig (Elt Ideal)) :
    StableHlo.after hostOps0_1 (StableHlo.after hostOps0 U) (Proc.devRef .tc main_arg9) = U (Proc.devRef .tc main_arg9) :=
  (by kept_tac : StableHlo.after hostOps0_1 (StableHlo.after hostOps0 U) (Proc.devRef .tc main_arg9)
      = StableHlo.after hostOps0 U (Proc.devRef .tc main_arg9)).trans (by kept_tac)

/-- Neither row lookup writes argument array 10 (the shift of the entity rows' normalisation). -/
theorem kept_arg10 (U : Valuation τ sig (Elt Ideal)) :
    StableHlo.after hostOps0_1 (StableHlo.after hostOps0 U) (Proc.devRef .tc main_arg10) = U (Proc.devRef .tc main_arg10) :=
  (by kept_tac : StableHlo.after hostOps0_1 (StableHlo.after hostOps0 U) (Proc.devRef .tc main_arg10)
      = StableHlo.after hostOps0 U (Proc.devRef .tc main_arg10)).trans (by kept_tac)

/-- Neither row lookup writes argument array 11 (the mean of the entity rows' normalisation). -/
theorem kept_arg11 (U : Valuation τ sig (Elt Ideal)) :
    StableHlo.after hostOps0_1 (StableHlo.after hostOps0 U) (Proc.devRef .tc main_arg11) = U (Proc.devRef .tc main_arg11) :=
  (by kept_tac : StableHlo.after hostOps0_1 (StableHlo.after hostOps0 U) (Proc.devRef .tc main_arg11)
      = StableHlo.after hostOps0 U (Proc.devRef .tc main_arg11)).trans (by kept_tac)

/-- Neither row lookup writes argument array 12 (the variance of the entity rows' normalisation). -/
theorem kept_arg12 (U : Valuation τ sig (Elt Ideal)) :
    StableHlo.after hostOps0_1 (StableHlo.after hostOps0 U) (Proc.devRef .tc main_arg12) = U (Proc.devRef .tc main_arg12) :=
  (by kept_tac : StableHlo.after hostOps0_1 (StableHlo.after hostOps0 U) (Proc.devRef .tc main_arg12)
      = StableHlo.after hostOps0 U (Proc.devRef .tc main_arg12)).trans (by kept_tac)

/-- Neither row lookup writes argument array 13 (the per-channel scales). -/
theorem kept_arg13 (U : Valuation τ sig (Elt Ideal)) :
    StableHlo.after hostOps0_1 (StableHlo.after hostOps0 U) (Proc.devRef .tc main_arg13) = U (Proc.devRef .tc main_arg13) :=
  (by kept_tac : StableHlo.after hostOps0_1 (StableHlo.after hostOps0 U) (Proc.devRef .tc main_arg13)
      = StableHlo.after hostOps0 U (Proc.devRef .tc main_arg13)).trans (by kept_tac)

/-- Neither row lookup writes argument array 14 (the per-channel shifts). -/
theorem kept_arg14 (U : Valuation τ sig (Elt Ideal)) :
    StableHlo.after hostOps0_1 (StableHlo.after hostOps0 U) (Proc.devRef .tc main_arg14) = U (Proc.devRef .tc main_arg14) :=
  (by kept_tac : StableHlo.after hostOps0_1 (StableHlo.after hostOps0 U) (Proc.devRef .tc main_arg14)
      = StableHlo.after hostOps0 U (Proc.devRef .tc main_arg14)).trans (by kept_tac)

/-- Neither row lookup writes argument array 15 (the per-channel means). -/
theorem kept_arg15 (U : Valuation τ sig (Elt Ideal)) :
    StableHlo.after hostOps0_1 (StableHlo.after hostOps0 U) (Proc.devRef .tc main_arg15) = U (Proc.devRef .tc main_arg15) :=
  (by kept_tac : StableHlo.after hostOps0_1 (StableHlo.after hostOps0 U) (Proc.devRef .tc main_arg15)
      = StableHlo.after hostOps0 U (Proc.devRef .tc main_arg15)).trans (by kept_tac)

/-- Neither row lookup writes argument array 16 (the per-channel variances). -/
theorem kept_arg16 (U : Valuation τ sig (Elt Ideal)) :
    StableHlo.after hostOps0_1 (StableHlo.after hostOps0 U) (Proc.devRef .tc main_arg16) = U (Proc.devRef .tc main_arg16) :=
  (by kept_tac : StableHlo.after hostOps0_1 (StableHlo.after hostOps0 U) (Proc.devRef .tc main_arg16)
      = StableHlo.after hostOps0 U (Proc.devRef .tc main_arg16)).trans (by kept_tac)

/-- Neither row lookup writes argument array 17 (the hidden vector's scales). -/
theorem kept_arg17 (U : Valuation τ sig (Elt Ideal)) :
    StableHlo.after hostOps0_1 (StableHlo.after hostOps0 U) (Proc.devRef .tc main_arg17) = U (Proc.devRef .tc main_arg17) :=
  (by kept_tac : StableHlo.after hostOps0_1 (StableHlo.after hostOps0 U) (Proc.devRef .tc main_arg17)
      = StableHlo.after hostOps0 U (Proc.devRef .tc main_arg17)).trans (by kept_tac)

/-- Neither row lookup writes argument array 18 (the hidden vector's shifts). -/
theorem kept_arg18 (U : Valuation τ sig (Elt Ideal)) :
    StableHlo.after hostOps0_1 (StableHlo.after hostOps0 U) (Proc.devRef .tc main_arg18) = U (Proc.devRef .tc main_arg18) :=
  (by kept_tac : StableHlo.after hostOps0_1 (StableHlo.after hostOps0 U) (Proc.devRef .tc main_arg18)
      = StableHlo.after hostOps0 U (Proc.devRef .tc main_arg18)).trans (by kept_tac)

/-- Neither row lookup writes argument array 19 (the hidden vector's means). -/
theorem kept_arg19 (U : Valuation τ sig (Elt Ideal)) :
    StableHlo.after hostOps0_1 (StableHlo.after hostOps0 U) (Proc.devRef .tc main_arg19) = U (Proc.devRef .tc main_arg19) :=
  (by kept_tac : StableHlo.after hostOps0_1 (StableHlo.after hostOps0 U) (Proc.devRef .tc main_arg19)
      = StableHlo.after hostOps0 U (Proc.devRef .tc main_arg19)).trans (by kept_tac)

/-- Neither row lookup writes argument array 20 (the hidden vector's variances). -/
theorem kept_arg20 (U : Valuation τ sig (Elt Ideal)) :
    StableHlo.after hostOps0_1 (StableHlo.after hostOps0 U) (Proc.devRef .tc main_arg20) = U (Proc.devRef .tc main_arg20) :=
  (by kept_tac : StableHlo.after hostOps0_1 (StableHlo.after hostOps0 U) (Proc.devRef .tc main_arg20)
      = StableHlo.after hostOps0 U (Proc.devRef .tc main_arg20)).trans (by kept_tac)

/-! ## Each reshaped parameter is the cast of its argument array -/

/-- After the reshapes buffer `main_v2` holds argument array 5 (the first linear layer's bias) cast to one row. -/
theorem resh_v2 (U : Valuation τ sig (Elt Ideal)) :
    StableHlo.after hostOps0_2 U (Proc.devRef .tc main_v2)
      = (fun i => shapeCast S1x288 (U (Proc.devRef .tc main_arg5)) shapeCasts_S288_S1x288 i) := by
  after_results
  rfl

/-- After the reshapes buffer `main_v3` holds argument array 7 (the final linear layer's bias) cast to one row. -/
theorem resh_v3 (U : Valuation τ sig (Elt Ideal)) :
    StableHlo.after hostOps0_2 U (Proc.devRef .tc main_v3)
      = (fun i => shapeCast S1x200 (U (Proc.devRef .tc main_arg7)) shapeCasts_S200_S1x200 i) := by
  after_results
  rfl

/-- After the reshapes buffer `main_v4` holds argument array 9 (the scale of the entity rows' normalisation) cast to a one-by-one array. -/
theorem resh_v4 (U : Valuation τ sig (Elt Ideal)) :
    StableHlo.after hostOps0_2 U (Proc.devRef .tc main_v4)
      = (fun i => shapeCast S1x1 (U (Proc.devRef .tc main_arg9)) shapeCasts_S1_S1x1 i) := by
  after_results
  rfl

/-- After the reshapes buffer `main_v5` holds argument array 10 (the shift of the entity rows' normalisation) cast to a one-by-one array. -/
theorem resh_v5 (U : Valuation τ sig (Elt Ideal)) :
    StableHlo.after hostOps0_2 U (Proc.devRef .tc main_v5)
      = (fun i => shapeCast S1x1 (U (Proc.devRef .tc main_arg10)) shapeCasts_S1_S1x1 i) := by
  after_results
  rfl

/-- After the reshapes buffer `main_v6` holds argument array 11 (the mean of the entity rows' normalisation) cast to a one-by-one array. -/
theorem resh_v6 (U : Valuation τ sig (Elt Ideal)) :
    StableHlo.after hostOps0_2 U (Proc.devRef .tc main_v6)
      = (fun i => shapeCast S1x1 (U (Proc.devRef .tc main_arg11)) shapeCasts_S1_S1x1 i) := by
  after_results
  rfl

/-- After the reshapes buffer `main_v7` holds argument array 12 (the variance of the entity rows' normalisation) cast to a one-by-one array. -/
theorem resh_v7 (U : Valuation τ sig (Elt Ideal)) :
    StableHlo.after hostOps0_2 U (Proc.devRef .tc main_v7)
      = (fun i => shapeCast S1x1 (U (Proc.devRef .tc main_arg12)) shapeCasts_S1_S1x1 i) := by
  after_results
  rfl

/-- After the reshapes buffer `main_v8` holds argument array 13 (the per-channel scales) cast to one column of one row, `[1, 32, 1]`. -/
theorem resh_v8 (U : Valuation τ sig (Elt Ideal)) :
    StableHlo.after hostOps0_2 U (Proc.devRef .tc main_v8)
      = (fun i => shapeCast S1x32x1 (U (Proc.devRef .tc main_arg13)) shapeCasts_S32_S1x32x1 i) := by
  after_results
  rfl

/-- After the reshapes buffer `main_v9` holds argument array 14 (the per-channel shifts) cast to one column of one row, `[1, 32, 1]`. -/
theorem resh_v9 (U : Valuation τ sig (Elt Ideal)) :
    StableHlo.after hostOps0_2 U (Proc.devRef .tc main_v9)
      = (fun i => shapeCast S1x32x1 (U (Proc.devRef .tc main_arg14)) shapeCasts_S32_S1x32x1 i) := by
  after_results
  rfl

/-- After the reshapes buffer `main_v10` holds argument array 15 (the per-channel means) cast to one column of one row, `[1, 32, 1]`. -/
theorem resh_v10 (U : Valuation τ sig (Elt Ideal)) :
    StableHlo.after hostOps0_2 U (Proc.devRef .tc main_v10)
      = (fun i => shapeCast S1x32x1 (U (Proc.devRef .tc main_arg15)) shapeCasts_S32_S1x32x1 i) := by
  after_results
  rfl

/-- After the reshapes buffer `main_v11` holds argument array 16 (the per-channel variances) cast to one column of one row, `[1, 32, 1]`. -/
theorem resh_v11 (U : Valuation τ sig (Elt Ideal)) :
    StableHlo.after hostOps0_2 U (Proc.devRef .tc main_v11)
      = (fun i => shapeCast S1x32x1 (U (Proc.devRef .tc main_arg16)) shapeCasts_S32_S1x32x1 i) := by
  after_results
  rfl

/-- After the reshapes buffer `main_v12` holds argument array 17 (the hidden vector's scales) cast to one row. -/
theorem resh_v12 (U : Valuation τ sig (Elt Ideal)) :
    StableHlo.after hostOps0_2 U (Proc.devRef .tc main_v12)
      = (fun i => shapeCast S1x200 (U (Proc.devRef .tc main_arg17)) shapeCasts_S200_S1x200 i) := by
  after_results
  rfl

/-- After the reshapes buffer `main_v13` holds argument array 18 (the hidden vector's shifts) cast to one row. -/
theorem resh_v13 (U : Valuation τ sig (Elt Ideal)) :
    StableHlo.after hostOps0_2 U (Proc.devRef .tc main_v13)
      = (fun i => shapeCast S1x200 (U (Proc.devRef .tc main_arg18)) shapeCasts_S200_S1x200 i) := by
  after_results
  rfl

/-- After the reshapes buffer `main_v14` holds argument array 19 (the hidden vector's means) cast to one row. -/
theorem resh_v14 (U : Valuation τ sig (Elt Ideal)) :
    StableHlo.after hostOps0_2 U (Proc.devRef .tc main_v14)
      = (fun i => shapeCast S1x200 (U (Proc.devRef .tc main_arg19)) shapeCasts_S200_S1x200 i) := by
  after_results
  rfl

/-- After the reshapes buffer `main_v15` holds argument array 20 (the hidden vector's variances) cast to one row. -/
theorem resh_v15 (U : Valuation τ sig (Elt Ideal)) :
    StableHlo.after hostOps0_2 U (Proc.devRef .tc main_v15)
      = (fun i => shapeCast S1x200 (U (Proc.devRef .tc main_arg20)) shapeCasts_S200_S1x200 i) := by
  after_results
  rfl

/-! ## The windows' contents at the kernel's start, entry by entry -/

variable (m : (ℓ : Loc nD τ sig) → Buf (Elt Ideal) ℓ) (ρ : Dev nD → PrngReg)

/-- The first kernel finds the first linear layer's weight matrix as the launch memory holds it. -/
theorem arg4 (c : Dev nD) : V3 m ρ c main_arg4 = m ((c.tc : Thread nD τ).loc main_arg4) :=
  kept_arg4 (W0 m ρ c)
/-- The first kernel finds the final linear layer's weight matrix as the launch memory holds it. -/
theorem arg6 (c : Dev nD) : V3 m ρ c main_arg6 = m ((c.tc : Thread nD τ).loc main_arg6) :=
  kept_arg6 (W0 m ρ c)

/-- Entry `(0, j)` of window array `main_v2` as the first kernel finds it is entry `j` of the launch memory's argument array 5 (the first linear layer's bias). -/
theorem v2 (c : Dev nD) (j : Fin 288) :
    (V3 m ρ c main_v2 : S1x288.Idx → EReal) (ix2 (0 : Fin 1) j) = (m ((c.tc : Thread nD τ).loc main_arg5) : S288.Idx → EReal) (ix1 j) :=
  (congrFun (resh_v2 (W2 m ρ c)) (ix2 (0 : Fin 1) j)).trans
    ((shapeCast_a_1a_apply _ _ (0 : Fin 1) j).trans (congrFun (kept_arg5 (W0 m ρ c)) (ix1 j)))
/-- Entry `(0, d)` of window array `main_v3` as the first kernel finds it is entry `d` of the launch memory's argument array 7 (the final linear layer's bias). -/
theorem v3 (c : Dev nD) (d : Fin 200) :
    (V3 m ρ c main_v3 : S1x200.Idx → EReal) (ix2 (0 : Fin 1) d) = (m ((c.tc : Thread nD τ).loc main_arg7) : S200.Idx → EReal) (ix1 d) :=
  (congrFun (resh_v3 (W2 m ρ c)) (ix2 (0 : Fin 1) d)).trans
    ((shapeCast_a_1a_apply _ _ (0 : Fin 1) d).trans (congrFun (kept_arg7 (W0 m ρ c)) (ix1 d)))
/-- Entry `(0, 0)` of window array `main_v4` as the first kernel finds it is the one entry of the launch memory's argument array 9 (the scale of the entity rows' normalisation). -/
theorem v4 (c : Dev nD) :
    (V3 m ρ c main_v4 : S1x1.Idx → EReal) (ix2 (0 : Fin 1) (0 : Fin 1)) = (m ((c.tc : Thread nD τ).loc main_arg9) : S1.Idx → EReal) (ix1 (0 : Fin 1)) :=
  (congrFun (resh_v4 (W2 m ρ c)) (ix2 (0 : Fin 1) (0 : Fin 1))).trans
    ((shapeCast_a_1a_apply _ _ (0 : Fin 1) (0 : Fin 1)).trans (congrFun (kept_arg9 (W0 m ρ c)) (ix1 (0 : Fin 1))))
/-- Entry `(0, 0)` of window array `main_v5` as the first kernel finds it is the one entry of the launch memory's argument array 10 (the shift of the entity rows' normalisation). -/
theorem v5 (c : Dev nD) :
    (V3 m ρ c main_v5 : S1x1.Idx → EReal) (ix2 (0 : Fin 1) (0 : Fin 1)) = (m ((c.tc : Thread nD τ).loc main_arg10) : S1.Idx → EReal) (ix1 (0 : Fin 1)) :=
  (congrFun (resh_v5 (W2 m ρ c)) (ix2 (0 : Fin 1) (0 : Fin 1))).trans
    ((shapeCast_a_1a_apply _ _ (0 : Fin 1) (0 : Fin 1)).trans (congrFun (kept_arg10 (W0 m ρ c)) (ix1 (0 : Fin 1))))
/-- Entry `(0, 0)` of window array `main_v6` as the first kernel finds it is the one entry of the launch memory's argument array 11 (the mean of the entity rows' normalisation). -/
theorem v6 (c : Dev nD) :
    (V3 m ρ c main_v6 : S1x1.Idx → EReal) (ix2 (0 : Fin 1) (0 : Fin 1)) = (m ((c.tc : Thread nD τ).loc main_arg11) : S1.Idx → EReal) (ix1 (0 : Fin 1)) :=
  (congrFun (resh_v6 (W2 m ρ c)) (ix2 (0 : Fin 1) (0 : Fin 1))).trans
    ((shapeCast_a_1a_apply _ _ (0 : Fin 1) (0 : Fin 1)).trans (congrFun (kept_arg11 (W0 m ρ c)) (ix1 (0 : Fin 1))))
/-- Entry `(0, 0)` of window array `main_v7` as the first kernel finds it is the one entry of the launch memory's argument array 12 (the variance of the entity rows' normalisation). -/
theorem v7 (c : Dev nD) :
    (V3 m ρ c main_v7 : S1x1.Idx → EReal) (ix2 (0 : Fin 1) (0 : Fin 1)) = (m ((c.tc : Thread nD τ).loc main_arg12) : S1.Idx → EReal) (ix1 (0 : Fin 1)) :=
  (congrFun (resh_v7 (W2 m ρ c)) (ix2 (0 : Fin 1) (0 : Fin 1))).trans
    ((shapeCast_a_1a_apply _ _ (0 : Fin 1) (0 : Fin 1)).trans (congrFun (kept_arg12 (W0 m ρ c)) (ix1 (0 : Fin 1))))
/-- Entry `(0, o, 0)` of window array `main_v8` as the first kernel finds it is entry `o` of the launch memory's argument array 13 (the per-channel scales). -/
theorem v8 (c : Dev nD) (o : Fin 32) :
    (V3 m ρ c main_v8 : S1x32x1.Idx → EReal) (ix3 (0 : Fin 1) o (0 : Fin 1)) = (m ((c.tc : Thread nD τ).loc main_arg13) : S32.Idx → EReal) (ix1 o) :=
  (congrFun (resh_v8 (W2 m ρ c)) (ix3 (0 : Fin 1) o (0 : Fin 1))).trans
    ((shapeCast_a_1a1_apply _ _ (0 : Fin 1) o (0 : Fin 1)).trans (congrFun (kept_arg13 (W0 m ρ c)) (ix1 o)))
/-- Entry `(0, o, 0)` of window array `main_v9` as the first kernel finds it is entry `o` of the launch memory's argument array 14 (the per-channel shifts). -/
theorem v9 (c : Dev nD) (o : Fin 32) :
    (V3 m ρ c main_v9 : S1x32x1.Idx → EReal) (ix3 (0 : Fin 1) o (0 : Fin 1)) = (m ((c.tc : Thread nD τ).loc main_arg14) : S32.Idx → EReal) (ix1 o) :=
  (congrFun (resh_v9 (W2 m ρ c)) (ix3 (0 : Fin 1) o (0 : Fin 1))).trans
    ((shapeCast_a_1a1_apply _ _ (0 : Fin 1) o (0 : Fin 1)).trans (congrFun (kept_arg14 (W0 m ρ c)) (ix1 o)))
/-- Entry `(0, o, 0)` of window array `main_v10` as the first kernel finds it is entry `o` of the launch memory's argument array 15 (the per-channel means). -/
theorem v10 (c : Dev nD) (o : Fin 32) :
    (V3 m ρ c main_v10 : S1x32x1.Idx → EReal) (ix3 (0 : Fin 1) o (0 : Fin 1)) = (m ((c.tc : Thread nD τ).loc main_arg15) : S32.Idx → EReal) (ix1 o) :=
  (congrFun (resh_v10 (W2 m ρ c)) (ix3 (0 : Fin 1) o (0 : Fin 1))).trans
    ((shapeCast_a_1a1_apply _ _ (0 : Fin 1) o (0 : Fin 1)).trans (congrFun (kept_arg15 (W0 m ρ c)) (ix1 o)))
/-- Entry `(0, o, 0)` of window array `main_v11` as the first kernel finds it is entry `o` of the launch memory's argument array 16 (the per-channel variances). -/
theorem v11 (c : Dev nD) (o : Fin 32) :
    (V3 m ρ c main_v11 : S1x32x1.Idx → EReal) (ix3 (0 : Fin 1) o (0 : Fin 1)) = (m ((c.tc : Thread nD τ).loc main_arg16) : S32.Idx → EReal) (ix1 o) :=
  (congrFun (resh_v11 (W2 m ρ c)) (ix3 (0 : Fin 1) o (0 : Fin 1))).trans
    ((shapeCast_a_1a1_apply _ _ (0 : Fin 1) o (0 : Fin 1)).trans (congrFun (kept_arg16 (W0 m ρ c)) (ix1 o)))
/-- Entry `(0, d)` of window array `main_v12` as the first kernel finds it is entry `d` of the launch memory's argument array 17 (the hidden vector's scales). -/
theorem v12 (c : Dev nD) (d : Fin 200) :
    (V3 m ρ c main_v12 : S1x200.Idx → EReal) (ix2 (0 : Fin 1) d) = (m ((c.tc : Thread nD τ).loc main_arg17) : S200.Idx → EReal) (ix1 d) :=
  (congrFun (resh_v12 (W2 m ρ c)) (ix2 (0 : Fin 1) d)).trans
    ((shapeCast_a_1a_apply _ _ (0 : Fin 1) d).trans (congrFun (kept_arg17 (W0 m ρ c)) (ix1 d)))
/-- Entry `(0, d)` of window array `main_v13` as the first kernel finds it is entry `d` of the launch memory's argument array 18 (the hidden vector's shifts). -/
theorem v13 (c : Dev nD) (d : Fin 200) :
    (V3 m ρ c main_v13 : S1x200.Idx → EReal) (ix2 (0 : Fin 1) d) = (m ((c.tc : Thread nD τ).loc main_arg18) : S200.Idx → EReal) (ix1 d) :=
  (congrFun (resh_v13 (W2 m ρ c)) (ix2 (0 : Fin 1) d)).trans
    ((shapeCast_a_1a_apply _ _ (0 : Fin 1) d).trans (congrFun (kept_arg18 (W0 m ρ c)) (ix1 d)))
/-- Entry `(0, d)` of window array `main_v14` as the first kernel finds it is entry `d` of the launch memory's argument array 19 (the hidden vector's means). -/
theorem v14 (c : Dev nD) (d : Fin 200) :
    (V3 m ρ c main_v14 : S1x200.Idx → EReal) (ix2 (0 : Fin 1) d) = (m ((c.tc : Thread nD τ).loc main_arg19) : S200.Idx → EReal) (ix1 d) :=
  (congrFun (resh_v14 (W2 m ρ c)) (ix2 (0 : Fin 1) d)).trans
    ((shapeCast_a_1a_apply _ _ (0 : Fin 1) d).trans (congrFun (kept_arg19 (W0 m ρ c)) (ix1 d)))
/-- Entry `(0, d)` of window array `main_v15` as the first kernel finds it is entry `d` of the launch memory's argument array 20 (the hidden vector's variances). -/
theorem v15 (c : Dev nD) (d : Fin 200) :
    (V3 m ρ c main_v15 : S1x200.Idx → EReal) (ix2 (0 : Fin 1) d) = (m ((c.tc : Thread nD τ).loc main_arg20) : S200.Idx → EReal) (ix1 d) :=
  (congrFun (resh_v15 (W2 m ρ c)) (ix2 (0 : Fin 1) d)).trans
    ((shapeCast_a_1a_apply _ _ (0 : Fin 1) d).trans (congrFun (kept_arg20 (W0 m ρ c)) (ix1 d)))

end Cert.KernelIdeal.Host0

end
-- ==== Proof.Final0.lean ====
/-
  The hidden array the first kernel leaves. Its grid has eight points; point `t` is given rows `128 t … 128 t + 127` of
  the two gathered arrays and every parameter whole, and writes the same rows of the result. Each written row is the
  hidden vector of that batch row, so the eight blocks are restrictions of one array, and they tile it.
-/
import proofs.«400437_j26628797235444_3_alg».proof.Proof.Gen.KernelIdeal.Frame
import proofs.«400437_j26628797235444_3_alg».proof.Proof.HyperArr
import proofs.«400437_j26628797235444_3_alg».proof.Proof.Body0
import proofs.«400437_j26628797235444_3_alg».proof.Proof.Host0

set_option maxRecDepth 16384

noncomputable section

namespace Cert.KernelIdeal.Final0

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg)

/-- The parameters as the launch memory holds them. -/
def W (c : Dev nD) : Hyper.Wts :=
  Hyper.wtsOf (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))

section Blocks

variable (V : (c : Dev nD) → (b : Ref sig .tc) → Buf (Elt Ideal) ((c.tc : Thread nD τ).loc b))

/-- The two row windows and the result window sit at block `(t, 0)` at point `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_18.index t (0 : Fin 2) = t.val ∧ win0_18.index t (1 : Fin 2) = 0 :=
  (by decide +kernel : ∀ t : Fin grid0.N, _)

/-- Every parameter window sits at block zero at every point. -/
theorem idx_whole : ∀ t : Fin cfg0.N,
    (∀ a : Fin 2, win0_2.index t a = 0) ∧ (∀ a : Fin 2, win0_3.index t a = 0)
    ∧ (∀ a : Fin 2, win0_4.index t a = 0) ∧ (∀ a : Fin 2, win0_5.index t a = 0)
    ∧ (∀ a : Fin 2, win0_6.index t a = 0) ∧ (∀ a : Fin 2, win0_7.index t a = 0)
    ∧ (∀ a : Fin 2, win0_8.index t a = 0) ∧ (∀ a : Fin 2, win0_9.index t a = 0)
    ∧ (∀ a : Fin 3, win0_10.index t a = 0) ∧ (∀ a : Fin 3, win0_11.index t a = 0)
    ∧ (∀ a : Fin 3, win0_12.index t a = 0) ∧ (∀ a : Fin 3, win0_13.index t a = 0)
    ∧ (∀ a : Fin 2, win0_14.index t a = 0) ∧ (∀ a : Fin 2, win0_15.index t a = 0)
    ∧ (∀ a : Fin 2, win0_16.index t a = 0) ∧ (∀ a : Fin 2, win0_17.index t a = 0) :=
  (by decide +kernel : ∀ t : Fin grid0.N, _)

/-- Entry `(p, d)` of the entity block at point `t` is entry `(128 t + p, d)` of the gathered entity array. -/
theorem rows0 (c : Dev nD) (t : Fin cfg0.N) (p : Fin 128) (d : Fin 200) (k : S1024x200.Idx)
    (hk0 : (k 0).val = 128 * t.val + p.val) (hk1 : (k 1).val = d.val) :
    (iblk0 V c 0 t : Vec Ideal S128x200 .f32) (ix2 p d) = (V c main_v0 : S1024x200.Idx → EReal) k := by
  obtain ⟨e0, e1, -⟩ := idx_rows t
  unfold iblk0
  rw [View.read_apply]
  show V c main_v0 _ = V c main_v0 _
  refine congrArg (V c main_v0) (funext fun a => Fin.ext ?_)
  match a with
  | ⟨0, _⟩ => show win0_0.index t (0 : Fin 2) * 128 + 1 * p.val = (k 0).val; rw [e0, hk0]; omega
  | ⟨1, _⟩ => show win0_0.index t (1 : Fin 2) * 200 + 1 * d.val = (k 1).val; rw [e1, hk1]; omega

/-- The same for the relation block. -/
theorem rows1 (c : Dev nD) (t : Fin cfg0.N) (p : Fin 128) (d : Fin 200) (k : S1024x200.Idx)
    (hk0 : (k 0).val = 128 * t.val + p.val) (hk1 : (k 1).val = d.val) :
    (iblk0 V c 1 t : Vec Ideal S128x200 .f32) (ix2 p d) = (V c main_v1 : S1024x200.Idx → EReal) k := by
  obtain ⟨-, -, e0, e1, -⟩ := idx_rows t
  unfold iblk0
  rw [View.read_apply]
  show V c main_v1 _ = V c main_v1 _
  refine congrArg (V c main_v1) (funext fun a => Fin.ext ?_)
  match a with
  | ⟨0, _⟩ => show win0_1.index t (0 : Fin 2) * 128 + 1 * p.val = (k 0).val; rw [e0, hk0]; omega
  | ⟨1, _⟩ => show win0_1.index t (1 : Fin 2) * 200 + 1 * d.val = (k 1).val; rw [e1, hk1]; omega

set_option hygiene false in
/-- A window whose block is its whole array, at block zero, reads the array. -/
local macro "whole_read" r:term "," w:term "," h:term : tactic =>
  `(tactic| (funext x
             unfold iblk0
             rw [View.read_apply]
             show V c $r _ = V c $r x
             refine congrArg (V c $r) (funext fun a => Fin.ext ?_)
             exact Pipeline.Window.rect_emb_val_of_index_zero $w t a ($h a) x))

/-- Window 2's block at every point is the whole array `main_arg4` (the first linear layer's weight matrix). -/
theorem whole2 (c : Dev nD) (t : Fin cfg0.N) :
    (iblk0 V c 2 t : Vec Ideal S288x200 .f32) = (V c main_arg4 : S288x200.Idx → EReal) := by
  obtain ⟨h, -⟩ := idx_whole t
  whole_read main_arg4, win0_2, h

/-- Window 3's block at every point is the whole array `main_v2` (the first linear layer's bias, as one row). -/
theorem whole3 (c : Dev nD) (t : Fin cfg0.N) :
    (iblk0 V c 3 t : Vec Ideal S1x288 .f32) = (V c main_v2 : S1x288.Idx → EReal) := by
  obtain ⟨-, h, -⟩ := idx_whole t
  whole_read main_v2, win0_3, h

/-- Window 4's block at every point is the whole array `main_arg6` (the final linear layer's weight matrix). -/
theorem whole4 (c : Dev nD) (t : Fin cfg0.N) :
    (iblk0 V c 4 t : Vec Ideal S200x6144 .f32) = (V c main_arg6 : S200x6144.Idx → EReal) := by
  obtain ⟨-, -, h, -⟩ := idx_whole t
  whole_read main_arg6, win0_4, h

/-- Window 5's block at every point is the whole array `main_v3` (the final linear layer's bias, as one row). -/
theorem whole5 (c : Dev nD) (t : Fin cfg0.N) :
    (iblk0 V c 5 t : Vec Ideal S1x200 .f32) = (V c main_v3 : S1x200.Idx → EReal) := by
  obtain ⟨-, -, -, h, -⟩ := idx_whole t
  whole_read main_v3, win0_5, h

/-- Window 6's block at every point is the whole array `main_v4` (the scale of the entity rows' normalisation). -/
theorem whole6 (c : Dev nD) (t : Fin cfg0.N) :
    (iblk0 V c 6 t : Vec Ideal S1x1 .f32) = (V c main_v4 : S1x1.Idx → EReal) := by
  obtain ⟨-, -, -, -, h, -⟩ := idx_whole t
  whole_read main_v4, win0_6, h

/-- Window 7's block at every point is the whole array `main_v5` (the shift of the entity rows' normalisation). -/
theorem whole7 (c : Dev nD) (t : Fin cfg0.N) :
    (iblk0 V c 7 t : Vec Ideal S1x1 .f32) = (V c main_v5 : S1x1.Idx → EReal) := by
  obtain ⟨-, -, -, -, -, h, -⟩ := idx_whole t
  whole_read main_v5, win0_7, h

/-- Window 8's block at every point is the whole array `main_v6` (the mean of the entity rows' normalisation). -/
theorem whole8 (c : Dev nD) (t : Fin cfg0.N) :
    (iblk0 V c 8 t : Vec Ideal S1x1 .f32) = (V c main_v6 : S1x1.Idx → EReal) := by
  obtain ⟨-, -, -, -, -, -, h, -⟩ := idx_whole t
  whole_read main_v6, win0_8, h

/-- Window 9's block at every point is the whole array `main_v7` (the variance of the entity rows' normalisation). -/
theorem whole9 (c : Dev nD) (t : Fin cfg0.N) :
    (iblk0 V c 9 t : Vec Ideal S1x1 .f32) = (V c main_v7 : S1x1.Idx → EReal) := by
  obtain ⟨-, -, -, -, -, -, -, h, -⟩ := idx_whole t
  whole_read main_v7, win0_9, h

/-- Window 10's block at every point is the whole array `main_v8` (the per-channel scales). -/
theorem whole10 (c : Dev nD) (t : Fin cfg0.N) :
    (iblk0 V c 10 t : Vec Ideal S1x32x1 .f32) = (V c main_v8 : S1x32x1.Idx → EReal) := by
  obtain ⟨-, -, -, -, -, -, -, -, h, -⟩ := idx_whole t
  whole_read main_v8, win0_10, h

/-- Window 11's block at every point is the whole array `main_v9` (the per-channel shifts). -/
theorem whole11 (c : Dev nD) (t : Fin cfg0.N) :
    (iblk0 V c 11 t : Vec Ideal S1x32x1 .f32) = (V c main_v9 : S1x32x1.Idx → EReal) := by
  obtain ⟨-, -, -, -, -, -, -, -, -, h, -⟩ := idx_whole t
  whole_read main_v9, win0_11, h

/-- Window 12's block at every point is the whole array `main_v10` (the per-channel means). -/
theorem whole12 (c : Dev nD) (t : Fin cfg0.N) :
    (iblk0 V c 12 t : Vec Ideal S1x32x1 .f32) = (V c main_v10 : S1x32x1.Idx → EReal) := by
  obtain ⟨-, -, -, -, -, -, -, -, -, -, h, -⟩ := idx_whole t
  whole_read main_v10, win0_12, h

/-- Window 13's block at every point is the whole array `main_v11` (the per-channel variances). -/
theorem whole13 (c : Dev nD) (t : Fin cfg0.N) :
    (iblk0 V c 13 t : Vec Ideal S1x32x1 .f32) = (V c main_v11 : S1x32x1.Idx → EReal) := by
  obtain ⟨-, -, -, -, -, -, -, -, -, -, -, h, -⟩ := idx_whole t
  whole_read main_v11, win0_13, h

/-- Window 14's block at every point is the whole array `main_v12` (the hidden vector's scales, as one row). -/
theorem whole14 (c : Dev nD) (t : Fin cfg0.N) :
    (iblk0 V c 14 t : Vec Ideal S1x200 .f32) = (V c main_v12 : S1x200.Idx → EReal) := by
  obtain ⟨-, -, -, -, -, -, -, -, -, -, -, -, h, -⟩ := idx_whole t
  whole_read main_v12, win0_14, h

/-- Window 15's block at every point is the whole array `main_v13` (the hidden vector's shifts, as one row). -/
theorem whole15 (c : Dev nD) (t : Fin cfg0.N) :
    (iblk0 V c 15 t : Vec Ideal S1x200 .f32) = (V c main_v13 : S1x200.Idx → EReal) := by
  obtain ⟨-, -, -, -, -, -, -, -, -, -, -, -, -, h, -⟩ := idx_whole t
  whole_read main_v13, win0_15, h

/-- Window 16's block at every point is the whole array `main_v14` (the hidden vector's means, as one row). -/
theorem whole16 (c : Dev nD) (t : Fin cfg0.N) :
    (iblk0 V c 16 t : Vec Ideal S1x200 .f32) = (V c main_v14 : S1x200.Idx → EReal) := by
  obtain ⟨-, -, -, -, -, -, -, -, -, -, -, -, -, -, h, -⟩ := idx_whole t
  whole_read main_v14, win0_16, h

/-- Window 17's block at every point is the whole array `main_v15` (the hidden vector's variances, as one row). -/
theorem whole17 (c : Dev nD) (t : Fin cfg0.N) :
    (iblk0 V c 17 t : Vec Ideal S1x200 .f32) = (V c main_v15 : S1x200.Idx → EReal) := by
  obtain ⟨-, -, -, -, -, -, -, -, -, -, -, -, -, -, -, h⟩ := idx_whole t
  whole_read main_v15, win0_17, h

/-- The hidden array of the arrays the region finds under its windows. -/
def G (c : Dev nD) : S1024x200.Idx → EReal :=
  Hyper.hidden (Body0.wts (V c main_arg4) (V c main_v2) (V c main_arg6) (V c main_v3) (V c main_v4) (V c main_v5)
      (V c main_v6) (V c main_v7) (V c main_v8) (V c main_v9) (V c main_v10) (V c main_v11) (V c main_v12)
      (V c main_v13) (V c main_v14) (V c main_v15))
    (V c main_v0) (V c main_v1)

/-- Entry `(r, d)` of a hidden array is coordinate `d` of the hidden vector of row `r`. -/
theorem hidden_apply (Wt : Hyper.Wts) (A0 A1 : Hyper.A2 1024 200) (r : Fin 1024) (d : Fin 200) :
    Hyper.hidden Wt A0 A1 (ix2 r d) = Hyper.yRow Wt (fun d' => A0 (ix2 r d')) (fun k => A1 (ix2 r k)) d := rfl

/-- Entry `(p, d)` of the result block at point `t` is entry `(128 t + p, d)` of the result array. -/
theorem emb18 (t : Fin cfg0.N) (p : Fin 128) (d : Fin 200) (h : 128 * t.val + p.val < 1024) :
    ((cfg0.win 18).blk t).view.emb (ix2 p d) = (ix2 ⟨128 * t.val + p.val, h⟩ d : S1024x200.Idx) := by
  obtain ⟨-, -, -, -, e0, e1⟩ := idx_rows t
  funext a
  apply Fin.ext
  match a with
  | ⟨0, _⟩ => show win0_18.index t (0 : Fin 2) * 128 + 1 * p.val = 128 * t.val + p.val; rw [e0]; omega
  | ⟨1, _⟩ => show win0_18.index t (1 : Fin 2) * 200 + 1 * d.val = d.val; rw [e1]; omega

/-- What point `t` writes back is block `t` of that one array. -/
theorem flushed_eq (c : Dev nD) (t : Fin cfg0.N) :
    (dat0 V c).flushed 18 t = ((cfg0.win 18).blk t).view.read (Elt Ideal) (G V c) := by
  show (cfg0.win 18).cut (grid0.coords t) ((dat0 V c).after 18 t) = _
  rw [after0_18]
  funext j
  obtain ⟨p, d, rfl⟩ : ∃ (p : Fin 128) (d : Fin 200), j = ix2 p d := ⟨j 0, j 1, eq_ix2 (n0 := 128) (n1 := 200) j⟩
  have hN : cfg0.N = 8 := N_0
  have hlt : 128 * t.val + p.val < 1024 := by have := t.isLt; have := p.isLt; omega
  rw [View.read_apply]
  show out0_18 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (iblk0 V c 12 t)
      (iblk0 V c 13 t) (iblk0 V c 14 t) (iblk0 V c 15 t) (iblk0 V c 16 t) (iblk0 V c 17 t) (ix2 p d)
    = G V c (((cfg0.win 18).blk t).view.emb (ix2 p d))
  refine (Body0.out0_18_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (iblk0 V c 12 t)
      (iblk0 V c 13 t) (iblk0 V c 14 t) (iblk0 V c 15 t) (iblk0 V c 16 t) (iblk0 V c 17 t) p d).trans ?_
  rw [whole2 V c t, whole3 V c t, whole4 V c t, whole5 V c t, whole6 V c t, whole7 V c t, whole8 V c t, whole9 V c t,
    whole10 V c t, whole11 V c t, whole12 V c t, whole13 V c t, whole14 V c t, whole15 V c t, whole16 V c t, whole17 V c t,
    emb18 t p d hlt]
  have h0 : (fun d' : Fin 200 => (iblk0 V c 0 t : Vec Ideal S128x200 .f32) (ix2 p d'))
      = fun d' => (V c main_v0 : S1024x200.Idx → EReal) (ix2 ⟨128 * t.val + p.val, hlt⟩ d') :=
    funext fun d' => rows0 V c t p d' _ rfl rfl
  have h1 : (fun k : Fin 200 => (iblk0 V c 1 t : Vec Ideal S128x200 .f32) (ix2 p k))
      = fun k => (V c main_v1 : S1024x200.Idx → EReal) (ix2 ⟨128 * t.val + p.val, hlt⟩ k) :=
    funext fun k => rows1 V c t p k _ rfl rfl
  rw [h0, h1]
  rfl

/-- Row `r` of the result array lies in the block of point `r / 128`. -/
theorem cover (i : S1024x200.Idx) :
    ∃ t : Fin cfg0.N, (cfg0.win 18).flush t = true ∧ i ∈ ((cfg0.win 18).blk t).view.set := by
  have hi0 : (i 0).val < 1024 := (i 0).isLt
  have hi1 : (i 1).val < 200 := (i 1).isLt
  have hN : cfg0.N = 8 := N_0
  have ht : (i 0).val / 128 < cfg0.N := by rw [hN]; omega
  obtain ⟨-, -, -, -, e0, e1⟩ := idx_rows ⟨(i 0).val / 128, ht⟩
  refine ⟨⟨(i 0).val / 128, ht⟩, flush0_18 _, ?_⟩
  show i ∈ ((View.whole main_v16).slice (win0_18.rect ⟨(i 0).val / 128, ht⟩)).set
  rw [View.set_slice_whole, Rect.mem_set_unit]
  intro a
  match a with
  | ⟨0, _⟩ =>
    show win0_18.index ⟨(i 0).val / 128, ht⟩ (0 : Fin 2) * 128 ≤ (i 0).val
      ∧ (i 0).val < win0_18.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_18.index ⟨(i 0).val / 128, ht⟩ (1 : Fin 2) * 200 ≤ (i 1).val
      ∧ (i 1).val < win0_18.index ⟨(i 0).val / 128, ht⟩ (1 : Fin 2) * 200 + 200
    rw [e1]
    omega

/-- The eight blocks tile the result array, so it ends holding that one array. -/
theorem final_gen (c : Dev nD) : (dat0 V c).arrAt 18 cfg0.N = G V c :=
  (dat0 V c).arrAt_eq_of_cover 18 (G V c) (fun t _ => flushed_eq V c t) cover

end Blocks

/-- Two parameter sets with the same sixteen entries are the same. -/
theorem wts_ext {A B : Hyper.Wts} (h1 : A.fc1W = B.fc1W) (h2 : A.fc1b = B.fc1b) (h3 : A.fcW = B.fcW) (h4 : A.fcb = B.fcb)
    (h5 : A.g0 = B.g0) (h6 : A.b0 = B.b0) (h7 : A.m0 = B.m0) (h8 : A.v0 = B.v0)
    (h9 : A.g1 = B.g1) (h10 : A.b1 = B.b1) (h11 : A.m1 = B.m1) (h12 : A.v1 = B.v1)
    (h13 : A.g2 = B.g2) (h14 : A.b2 = B.b2) (h15 : A.m2 = B.m2) (h16 : A.v2 = B.v2) : A = B := by
  cases A
  cases B
  simp only [Hyper.Wts.mk.injEq]
  exact ⟨h1, h2, h3, h4, h5, h6, h7, h8, h9, h10, h11, h12, h13, h14, h15, h16⟩

/-- Window arrays that hold the argument arrays — the matrices as they are, entry `j` of a vector at `(0, j)` or
    `(0, j, 0)` — carry the parameters the argument arrays spell. -/
theorem wts_eq_of (x2 : Vec Ideal S288x200 .f32) (x3 : Vec Ideal S1x288 .f32) (x4 : Vec Ideal S200x6144 .f32)
    (x5 : Vec Ideal S1x200 .f32) (x6 x7 x8 x9 : Vec Ideal S1x1 .f32) (x10 x11 x12 x13 : Vec Ideal S1x32x1 .f32)
    (x14 x15 x16 x17 : Vec Ideal S1x200 .f32)
    (a4 : Hyper.A2 288 200) (a5 : Hyper.A1 288) (a6 : Hyper.A2 200 6144) (a7 : Hyper.A1 200) (a9 a10 a11 a12 : Hyper.A1 1)
    (a13 a14 a15 a16 : Hyper.A1 32) (a17 a18 a19 a20 : Hyper.A1 200)
    (h2 : x2 = a4) (h3 : ∀ j : Fin 288, x3 (ix2 (0 : Fin 1) j) = a5 (ix1 j))
    (h4 : x4 = a6) (h5 : ∀ d : Fin 200, x5 (ix2 (0 : Fin 1) d) = a7 (ix1 d))
    (h6 : x6 (ix2 (0 : Fin 1) (0 : Fin 1)) = a9 (ix1 (0 : Fin 1)))
    (h7 : x7 (ix2 (0 : Fin 1) (0 : Fin 1)) = a10 (ix1 (0 : Fin 1)))
    (h8 : x8 (ix2 (0 : Fin 1) (0 : Fin 1)) = a11 (ix1 (0 : Fin 1)))
    (h9 : x9 (ix2 (0 : Fin 1) (0 : Fin 1)) = a12 (ix1 (0 : Fin 1)))
    (h10 : ∀ o : Fin 32, x10 (ix3 (0 : Fin 1) o (0 : Fin 1)) = a13 (ix1 o))
    (h11 : ∀ o : Fin 32, x11 (ix3 (0 : Fin 1) o (0 : Fin 1)) = a14 (ix1 o))
    (h12 : ∀ o : Fin 32, x12 (ix3 (0 : Fin 1) o (0 : Fin 1)) = a15 (ix1 o))
    (h13 : ∀ o : Fin 32, x13 (ix3 (0 : Fin 1) o (0 : Fin 1)) = a16 (ix1 o))
    (h14 : ∀ d : Fin 200, x14 (ix2 (0 : Fin 1) d) = a17 (ix1 d))
    (h15 : ∀ d : Fin 200, x15 (ix2 (0 : Fin 1) d) = a18 (ix1 d))
    (h16 : ∀ d : Fin 200, x16 (ix2 (0 : Fin 1) d) = a19 (ix1 d))
    (h17 : ∀ d : Fin 200, x17 (ix2 (0 : Fin 1) d) = a20 (ix1 d)) :
    Body0.wts x2 x3 x4 x5 x6 x7 x8 x9 x10 x11 x12 x13 x14 x15 x16 x17
      = Hyper.wtsOf a4 a5 a6 a7 a9 a10 a11 a12 a13 a14 a15 a16 a17 a18 a19 a20 := by
  subst h2 h4
  exact wts_ext rfl (funext h3) rfl (funext h5) h6 h7 h8 h9 (funext h10) (funext h11) (funext h12) (funext h13)
    (funext h14) (funext h15) (funext h16) (funext h17)

/-- The parameters the first kernel's windows carry are the launch memory's: the two matrices untouched, every vector
    read back through its reshape. -/
theorem wts_eq (c : Dev nD) :
    Body0.wts (V3 m ρ c main_arg4) (V3 m ρ c main_v2) (V3 m ρ c main_arg6) (V3 m ρ c main_v3) (V3 m ρ c main_v4)
      (V3 m ρ c main_v5) (V3 m ρ c main_v6) (V3 m ρ c main_v7) (V3 m ρ c main_v8) (V3 m ρ c main_v9) (V3 m ρ c main_v10)
      (V3 m ρ c main_v11) (V3 m ρ c main_v12) (V3 m ρ c main_v13) (V3 m ρ c main_v14) (V3 m ρ c main_v15) = W m c :=
  wts_eq_of (V3 m ρ c main_arg4) (V3 m ρ c main_v2) (V3 m ρ c main_arg6) (V3 m ρ c main_v3) (V3 m ρ c main_v4)
      (V3 m ρ c main_v5) (V3 m ρ c main_v6) (V3 m ρ c main_v7) (V3 m ρ c main_v8) (V3 m ρ c main_v9) (V3 m ρ c main_v10)
      (V3 m ρ c main_v11) (V3 m ρ c main_v12) (V3 m ρ c main_v13) (V3 m ρ c main_v14) (V3 m ρ c main_v15)
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg9)) (m ((c.tc : Thread nD τ).loc main_arg10))
      (m ((c.tc : Thread nD τ).loc main_arg11)) (m ((c.tc : Thread nD τ).loc main_arg12))
      (m ((c.tc : Thread nD τ).loc main_arg13)) (m ((c.tc : Thread nD τ).loc main_arg14))
      (m ((c.tc : Thread nD τ).loc main_arg15)) (m ((c.tc : Thread nD τ).loc main_arg16))
      (m ((c.tc : Thread nD τ).loc main_arg17)) (m ((c.tc : Thread nD τ).loc main_arg18))
      (m ((c.tc : Thread nD τ).loc main_arg19)) (m ((c.tc : Thread nD τ).loc main_arg20))
      (Host0.arg4 m ρ c) (Host0.v2 m ρ c) (Host0.arg6 m ρ c) (Host0.v3 m ρ c)
      (Host0.v4 m ρ c) (Host0.v5 m ρ c) (Host0.v6 m ρ c) (Host0.v7 m ρ c)
      (Host0.v8 m ρ c) (Host0.v9 m ρ c) (Host0.v10 m ρ c) (Host0.v11 m ρ c)
      (Host0.v12 m ρ c) (Host0.v13 m ρ c) (Host0.v14 m ρ c) (Host0.v15 m ρ c)

/-- The first kernel's result array is the hidden array of the two gathered arrays it was given. -/
theorem final0 (c : Dev nD) :
    (dat0 (V3 m ρ) c).arrAt 18 cfg0.N = Hyper.hidden (W m c) (V3 m ρ c main_v0) (V3 m ρ c main_v1) :=
  (final_gen (V3 m ρ) c).trans
    (congrArg (fun Wt => Hyper.hidden Wt (V3 m ρ c main_v0) (V3 m ρ c main_v1)) (wts_eq m ρ c))

end Cert.KernelIdeal.Final0

end
-- ==== Proof.KBlocks.lean ====
/-
  The second kernel's result array as one function of the arrays it is given. Its grid has 49 points; point `t` is given
  all 1024 hidden rows, rows `2048 t … 2048 t + 2047` of the padded entity table and the same columns of the padded bias
  row, and writes columns `2048 t … 2048 t + 2047` of the result. Entry `(b, q)` of the written block is the score of
  hidden row `b` against entity row `2048 t + q`, so the 49 blocks are restrictions of one array, and they tile it.
-/
import proofs.«400437_j26628797235444_3_alg».proof.Proof.Gen.KernelIdeal.Frame
import proofs.«400437_j26628797235444_3_alg».proof.Proof.HyperSpec
import proofs.«400437_j26628797235444_3_alg».proof.Proof.Body1
import Idealize.ShloMosaic.Lib.Pipeline.Value

set_option maxRecDepth 16384

noncomputable section

namespace Cert.KernelIdeal.KBlocks

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The score array over the padded table: entry `(b, n)` scores row `b` of `Y` against row `n` of `E` with bias
    `B (0, n)`. -/
def scoreArr (Y : S1024x200.Idx → EReal) (E : S100352x200.Idx → EReal) (B : S1x100352.Idx → EReal) :
    S1024x100352.Idx → EReal :=
  fun i => Hyper.score (fun k => Y (ix2 (i 0) k)) (fun k => E (ix2 (i 1) k)) (B (ix2 0 (i 1)))

/-- The block indices of the four windows at point `t`: the hidden array whole, block `t` of the table's rows, block
    `t` of the bias row's columns, block `t` of the result's columns. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The body's block at any index of it, not only at one written with its two coordinates. -/
theorem out_read (x0 : Vec Ideal S1024x200 .f32) (x1 : Vec Ideal S2048x200 .f32) (x2 : Vec Ideal S1x2048 .f32)
    (y : S1024x2048.Idx) :
    out1_3 (F := Ideal) x0 x1 x2 y
      = Hyper.score (fun k => x0 (ix2 (y 0) k)) (fun k => x1 (ix2 (y 1) k)) (x2 (ix2 0 (y 1))) := by
  exact (congrArg (out1_3 (F := Ideal) x0 x1 x2) (eq_ix2 y)).trans (Body1.out1_3_apply x0 x1 x2 (y 0) (y 1))

/-- The hidden array's block at every point is the array. -/
theorem iblk0_apply (c : Dev nD) (t : Fin cfg1.N) (x k : S1024x200.Idx)
    (h0 : (k 0).val = (x 0).val) (h1 : (k 1).val = (x 1).val) :
    (iblk1 V c 0 t : Vec Ideal S1024x200 .f32) x = (V c main_v16 : S1024x200.Idx → EReal) k := by
  obtain ⟨e0, e1, -⟩ := idx_facts t
  unfold iblk1
  rw [View.read_apply]
  show V c main_v16 _ = V c main_v16 _
  congr 1
  funext a; apply Fin.ext
  match a with
  | ⟨0, _⟩ => show win1_0.index t 0 * 1024 + 1 * (x 0).val = (k 0).val; rw [e0, h0]; omega
  | ⟨1, _⟩ => show win1_0.index t 1 * 200 + 1 * (x 1).val = (k 1).val; rw [e1, h1]; omega

/-- The table's block at point `t` is rows `2048 t … 2048 t + 2047` of the table. -/
theorem iblk1_apply (c : Dev nD) (t : Fin cfg1.N) (x : S2048x200.Idx) (k : S100352x200.Idx)
    (h0 : (k 0).val = 2048 * t.val + (x 0).val) (h1 : (k 1).val = (x 1).val) :
    (iblk1 V c 1 t : Vec Ideal S2048x200 .f32) x = (V c main_v17 : S100352x200.Idx → EReal) k := by
  obtain ⟨-, -, e0, e1, -⟩ := idx_facts t
  unfold iblk1
  rw [View.read_apply]
  show V c main_v17 _ = V c main_v17 _
  congr 1
  funext a; apply Fin.ext
  match a with
  | ⟨0, _⟩ => show win1_1.index t 0 * 2048 + 1 * (x 0).val = (k 0).val; rw [e0, h0]; omega
  | ⟨1, _⟩ => show win1_1.index t 1 * 200 + 1 * (x 1).val = (k 1).val; rw [e1, h1]; omega

/-- The bias row's block at point `t` is columns `2048 t … 2048 t + 2047` of the row. -/
theorem iblk2_apply (c : Dev nD) (t : Fin cfg1.N) (x : S1x2048.Idx) (k : S1x100352.Idx)
    (h0 : (k 0).val = (x 0).val) (h1 : (k 1).val = 2048 * t.val + (x 1).val) :
    (iblk1 V c 2 t : Vec Ideal S1x2048 .f32) x = (V c main_v19 : S1x100352.Idx → EReal) k := by
  obtain ⟨-, -, -, -, e0, e1, -⟩ := idx_facts t
  unfold iblk1
  rw [View.read_apply]
  show V c main_v19 _ = V c main_v19 _
  congr 1
  funext a; apply Fin.ext
  match a with
  | ⟨0, _⟩ => show win1_2.index t 0 * 1 + 1 * (x 0).val = (k 0).val; rw [e0, h0]; omega
  | ⟨1, _⟩ => show win1_2.index t 1 * 2048 + 1 * (x 1).val = (k 1).val; rw [e1, h1]; omega

/-- What point `t` writes back is block `t` of the score array of the three arrays the kernel is given. -/
theorem flushed_eq (c : Dev nD) (t : Fin cfg1.N) :
    (dat1 V c).flushed 3 t
      = ((cfg1.win 3).blk t).view.read (Elt Ideal) (scoreArr (V c main_v16) (V c main_v17) (V c main_v19)) := by
  show (cfg1.win 3).cut (grid1.coords t) ((dat1 V c).after 3 t) = _
  rw [after1_3]
  obtain ⟨-, -, -, -, -, -, e0, e1⟩ := idx_facts t
  funext j
  have hj0 : (j 0).val < 1024 := (j 0).isLt
  have hj1 : (j 1).val < 2048 := (j 1).isLt
  have ht : t.val < 49 := by have := t.isLt; have hN : cfg1.N = 49 := N_1; omega
  have hi : ((cfg1.win 3).blk t).view.emb j
      = (ix2 (⟨(j 0).val, hj0⟩ : Fin 1024) (⟨2048 * t.val + (j 1).val, by omega⟩ : Fin 100352) : S1024x100352.Idx) := by
    funext a; apply Fin.ext
    match a with
    | ⟨0, _⟩ => show win1_3.index t 0 * 1024 + 1 * (j 0).val = (j 0).val; rw [e0]; omega
    | ⟨1, _⟩ => show win1_3.index t 1 * 2048 + 1 * (j 1).val = 2048 * t.val + (j 1).val; rw [e1]; omega
  show out1_3 (F := Ideal) (iblk1 V c 0 t) (iblk1 V c 1 t) (iblk1 V c 2 t) ((cfg1.win 3).xinj (grid1.coords t) j)
    = scoreArr (V c main_v16) (V c main_v17) (V c main_v19) (((cfg1.win 3).blk t).view.emb j)
  rw [hi]
  refine (out_read (iblk1 V c 0 t) (iblk1 V c 1 t) (iblk1 V c 2 t) ((cfg1.win 3).xinj (grid1.coords t) j)).trans ?_
  unfold scoreArr
  congr 1
  · funext k
    refine iblk0_apply V c t _ _ ?_ ?_
    · rfl
    · rfl
  · funext k
    refine iblk1_apply V c t _ _ ?_ ?_
    · rfl
    · rfl
  · refine iblk2_apply V c t _ _ ?_ ?_
    · rfl
    · rfl

/-- An index of the result array is in point `t`'s block iff each coordinate is in the block's range on its axis. -/
theorem mem_blk (t : Fin cfg1.N) (i : S1024x100352.Idx) :
    i ∈ ((cfg1.win 3).blk t).view.set
      ↔ ∀ a : Fin 2, win1_3.index t a * S1024x2048.size a ≤ (i a).val
          ∧ (i a).val < win1_3.index t a * S1024x2048.size a + S1024x2048.size a := by
  show i ∈ ((View.whole main_v20).slice (win1_3.rect t)).set ↔ _
  rw [View.set_slice_whole, Rect.mem_set_unit]
  exact Iff.rfl

/-- Column `n` of the result is written by point `n / 2048`. -/
theorem cover (i : S1024x100352.Idx) :
    ∃ t : Fin cfg1.N, (cfg1.win 3).flush t = true ∧ i ∈ ((cfg1.win 3).blk t).view.set := by
  have h0 : (i 0).val < 1024 := (i 0).isLt
  have h1 : (i 1).val < 100352 := (i 1).isLt
  have hN : cfg1.N = 49 := N_1
  have ht : (i 1).val / 2048 < cfg1.N := by rw [hN]; omega
  obtain ⟨-, -, -, -, -, -, e0, e1⟩ := idx_facts ⟨(i 1).val / 2048, ht⟩
  refine ⟨⟨(i 1).val / 2048, ht⟩, flush1_3 _, ?_⟩
  rw [mem_blk]
  intro a
  match a with
  | ⟨0, _⟩ =>
    show win1_3.index ⟨(i 1).val / 2048, ht⟩ 0 * 1024 ≤ (i 0).val
      ∧ (i 0).val < win1_3.index ⟨(i 1).val / 2048, ht⟩ 0 * 1024 + 1024
    rw [e0]; omega
  | ⟨1, _⟩ =>
    show win1_3.index ⟨(i 1).val / 2048, ht⟩ 1 * 2048 ≤ (i 1).val
      ∧ (i 1).val < win1_3.index ⟨(i 1).val / 2048, ht⟩ 1 * 2048 + 2048
    rw [e1]; show (i 1).val / 2048 * 2048 ≤ (i 1).val ∧ (i 1).val < (i 1).val / 2048 * 2048 + 2048; omega

/-- The second kernel's result array is the score array of the three arrays it is given. -/
theorem final1 (c : Dev nD) :
    (dat1 V c).arrAt 3 cfg1.N = scoreArr (V c main_v16) (V c main_v17) (V c main_v19) :=
  (dat1 V c).arrAt_eq_of_cover 3 _ (fun t _ => flushed_eq V c t) cover

end Cert.KernelIdeal.KBlocks

end
-- ==== Proof.KHost.lean ====
/-
  The arrays between the two kernels. The entity table and the bias vector are written by no operation and by no
  window of the first kernel, so at its exit they are the launch memory's. The second kernel reads the hidden array the
  first kernel left, the entity table padded with 352 rows of zeros to 100352 rows, and the bias vector padded the same
  way and laid out as one row; on the first 100000 rows (columns) the padded arrays are the arrays themselves.
-/
import proofs.«400437_j26628797235444_3_alg».proof.Proof.Gen.KernelIdeal.Frame
import Idealize.ShloMosaic.Lib.ValueIdx
import Idealize.ShloMosaic.Lib.KernelVsHost
import Idealize.ShloMosaic.Lib.Pipeline.Value

set_option maxRecDepth 16384

noncomputable section

namespace Cert.KernelIdeal.KHost

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg)

/-- The entity table's buffer still holds at the first kernel's exit what it held at launch: no operation before it
    and no window of the first kernel writes it. -/
theorem W4_arg2 (c : Dev nD) : W4 m ρ c (Proc.devRef .tc main_arg2) = m ((c.tc : Thread nD τ).loc main_arg2) := by
  rw [W4_of_ne m ρ c main_arg2 (by decide)]
  show StableHlo.after hostOps0_2 (W2 m ρ c) (Proc.devRef .tc main_arg2) = _
  after_results

/-- The bias vector's buffer still holds at the first kernel's exit what it held at launch. -/
theorem W4_arg8 (c : Dev nD) : W4 m ρ c (Proc.devRef .tc main_arg8) = m ((c.tc : Thread nD τ).loc main_arg8) := by
  rw [W4_of_ne m ρ c main_arg8 (by decide)]
  show StableHlo.after hostOps0_2 (W2 m ρ c) (Proc.devRef .tc main_arg8) = _
  after_results

/-- The hidden array the second kernel is given is the array the first kernel left. -/
theorem V9_v16 (c : Dev nD) : V9 m ρ c main_v16 = (dat0 (V3 m ρ) c).arrAt 18 cfg0.N := by
  show StableHlo.after hostOps1_4 (W8 m ρ c) (Proc.devRef .tc main_v16) = _
  after_results
  exact W4_arr m ρ c 18

/-- Row `n` of the padded entity table, for an entity `n` of the table, is the table's row. -/
theorem V9_v17 (c : Dev nD) (n : Fin 100000) (k : Fin 200) (hn : n.val < 100352) :
    (V9 m ρ c main_v17 : S100352x200.Idx → EReal) (ix2 (⟨n.val, hn⟩ : Fin 100352) k)
      = (m ((c.tc : Thread nD τ).loc main_arg2) : S100000x200.Idx → EReal) (ix2 n k) := by
  have h : V9 m ρ c main_v17 = pad S100352x200 ![0, 0] ![352, 0] ![0, 0] (m ((c.tc : Thread nD τ).loc main_arg2))
      (sitofp (F := Ideal) .f32 (constantI S_ 32 0#32)) pads_S100000x200_S100352x200_03520_000 h_S_ := by
    show StableHlo.after hostOps1_4 (W8 m ρ c) (Proc.devRef .tc main_v17) = _
    after_results
    simp only [StableHlo.TRef.ofBuf, StableHlo.TRef.toBuf, cast_eq]
    rw [W4_arg2]
  refine (congrFun h _).trans ?_
  exact pad_apply_of_inside _ _ _ _ _ _ _ (ix2 (⟨n.val, hn⟩ : Fin 100352) k) (ix2 n k) (fun a => by
    match a with
    | ⟨0, _⟩ => show n.val = 0 + n.val * (0 + 1); omega
    | ⟨1, _⟩ => show k.val = 0 + k.val * (0 + 1); omega)

/-- Column `n` of the padded bias row, for an entity `n` of the table, is the entity's bias. -/
theorem V9_v19 (c : Dev nD) (n : Fin 100000) (hn : n.val < 100352) :
    (V9 m ρ c main_v19 : S1x100352.Idx → EReal) (ix2 (0 : Fin 1) (⟨n.val, hn⟩ : Fin 100352))
      = (m ((c.tc : Thread nD τ).loc main_arg8) : S100000.Idx → EReal) (ix1 n) := by
  have h : V9 m ρ c main_v19 = shapeCast S1x100352 (pad S100352 ![0] ![352] ![0] (m ((c.tc : Thread nD τ).loc main_arg8))
      (sitofp (F := Ideal) .f32 (constantI S_ 32 0#32)) pads_S100000_S100352_03520 h_S_) shapeCasts_S100352_S1x100352 := by
    show StableHlo.after hostOps1_4 (W8 m ρ c) (Proc.devRef .tc main_v19) = _
    after_results
    simp only [StableHlo.TRef.ofBuf, StableHlo.TRef.toBuf, cast_eq]
    rw [W4_arg8]
    rfl
  refine (congrFun h _).trans ?_
  refine (shapeCast_apply _ _ (ix2 (0 : Fin 1) (⟨n.val, hn⟩ : Fin 100352)) (ix1 (⟨n.val, hn⟩ : Fin 100352)) (by
    rewrite [Shape.rowMajor_val_one, Shape.rowMajor_val_two]
    show n.val = 0 * 100352 + n.val; omega)).trans ?_
  exact pad_apply_of_inside _ _ _ _ _ _ _ (ix1 (⟨n.val, hn⟩ : Fin 100352)) (ix1 n) (fun a => by
    match a with
    | ⟨0, _⟩ => show n.val = 0 + n.val * (0 + 1); omega)

end Cert.KernelIdeal.KHost

end
-- ==== Proof.KValue.lean ====
/-
  What the kernel's program returns. After the first kernel the entity table and the biases are padded with zero rows
  up to 49 · 2048 entities; the second kernel's grid has 49 points, point `t` scoring all 1024 hidden rows against
  entities `2048 t … 2048 t + 2047`; the columns past entity 99999 are cut off at the end. On the columns that remain the
  padded table is the table itself, so the result is the score array of the hidden array against the entity table.
-/
import proofs.«400437_j26628797235444_3_alg».proof.Proof.Gen.KernelIdeal.Frame
import proofs.«400437_j26628797235444_3_alg».proof.Proof.HyperArr
import proofs.«400437_j26628797235444_3_alg».proof.Proof.Body1
import proofs.«400437_j26628797235444_3_alg».proof.Proof.Final0
import proofs.«400437_j26628797235444_3_alg».proof.Proof.KBlocks
import proofs.«400437_j26628797235444_3_alg».proof.Proof.KHost
import Idealize.ShloMosaic.Lib.Pipeline.Value
import Idealize.ShloMosaic.Lib.ValueIdx

set_option maxRecDepth 16384

noncomputable section

namespace Cert.KernelIdeal.KValue

open Idealize.ShloMosaic Idealize.ShloMosaic.ValueIdx Idealize.SL.Sem Cert.KernelIdeal Cert.KernelIdeal.Gen

variable (m : (ℓ : Loc nD τ sig) → Buf (Elt Ideal) ℓ) (ρ : Dev nD → PrngReg)

/-- The result buffer is the second kernel's array with the columns from 100000 on cut off. -/
theorem res_eq (c : Dev nD) :
    W11 m ρ c (Proc.devRef .tc main_v21)
      = extractStridedSlice S1024x100000 ![0, 0]
          ((dat1 (V9 m ρ) c).arrAt 3 cfg1.N : S1024x100352.Idx → EReal) slices_S1024x100352_S1024x100000_0_0 := by
  show StableHlo.after hostOps2 (W10 m ρ c) (Proc.devRef .tc main_v21) = _
  after_results
  rw [← W10_arr m ρ c 3]

/-- Entry `(b, n)` of the result buffer is entry `(b, n)` of the second kernel's array: the cut starts at column 0. -/
theorem res_apply (c : Dev nD) (b : Fin 1024) (n : Fin 100000) (hn : n.val < 100352) :
    (W11 m ρ c (Proc.devRef .tc main_v21) : S1024x100000.Idx → EReal) (ix2 b n)
      = ((dat1 (V9 m ρ) c).arrAt 3 cfg1.N : S1024x100352.Idx → EReal) (ix2 b (⟨n.val, hn⟩ : Fin 100352)) := by
  rw [res_eq]
  refine extractStridedSlice_apply _ _ _ _ _ fun a => ?_
  match a with
  | ⟨0, _⟩ => exact (Nat.zero_add _).symm
  | ⟨1, _⟩ => exact (Nat.zero_add _).symm

/-- The result buffer at the end of the run: the scores of the hidden array of the two gathered arrays. -/
theorem value (c : Dev nD) :
    W11 m ρ c (Proc.devRef .tc main_v21)
      = Hyper.scores (Final0.W m c) (V3 m ρ c main_v0) (V3 m ρ c main_v1)
          (m ((c.tc : Thread nD τ).loc main_arg2)) (m ((c.tc : Thread nD τ).loc main_arg8)) := by
  funext i
  obtain ⟨b, n, rfl⟩ : ∃ (b : Fin 1024) (n : Fin 100000), i = ix2 b n := ⟨i 0, i 1, eq_ix2 i⟩
  have hn : n.val < 100352 := by have := n.isLt; omega
  refine (res_apply m ρ c b n hn).trans ?_
  rw [KBlocks.final1 (V9 m ρ) c]
  unfold KBlocks.scoreArr Hyper.scores
  congr 1
  · funext k
    exact congrFun ((KHost.V9_v16 m ρ c).trans (Final0.final0 m ρ c)) _
  · funext k
    exact KHost.V9_v17 m ρ c n k hn
  · exact KHost.V9_v19 m ρ c n hn

end Cert.KernelIdeal.KValue

end
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.LibColGather.lean ====
/-
  A gather of columns of a matrix at a table of column numbers, read at an index.

  A matrix `x : [B, N]` gathered along its second axis at a table `idx : [R, C, 1]` of column numbers gives an array
  `[B, R, C]`: entry `(b, r, c)` is `x` at row `b` and at the column `idx (r, c, 0)` names, that start index read
  signed and clamped into `[0, N - 1]`. The first axis is the one offset axis and is kept whole, so the row of the
  result's entry is the row of the operand's; the second axis is collapsed to the one column the start index picks.
-/
import Idealize.ShloMosaic.PureOps.Ideal
import Idealize.ShloMosaic.Lib.ValueIdx

noncomputable section

namespace ColGather

open Idealize.ShloMosaic Idealize.ShloMosaic.ValueIdx

variable {α : Type}

/-- The dimension numbers of a gather of columns: operand `[B, N]`, start indices `[R, C, 1]`, result `[B, R, C]`;
    the rows are the offset axis, the columns are collapsed and are the axis the start index addresses. -/
abbrev gatherDims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- The column a start index names: read signed, clamped into `[0, N - 1]`. -/
def clampCol {w : Nat} (N : Nat) (hN : 0 < N) (v : BitVec w) : Fin N := ⟨min v.toInt.toNat (N - 1), by omega⟩

/-- A start index that, read signed, is a column number in range names that column. -/
theorem clampCol_of_toInt {w : Nat} (N : Nat) (hN : 0 < N) (v : BitVec w) (n : Nat) (hn : n < N)
    (hv : v.toInt = (n : Int)) : clampCol N hN v = ⟨n, hn⟩ := by
  refine Fin.ext ?_
  show min v.toInt.toNat (N - 1) = n
  rw [hv]
  omega

/-- Entry `(b, r, c)` of the gather of columns is the matrix at row `b` and the clamped column `idx (r, c, 0)`. -/
theorem gather_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (b : Fin B) (r : Fin R) (c : Fin C) :
    Host.gather (gatherDims B N R C wf) x idx (ix3 b r c) = x (ix2 b (clampCol N hN (idx (ix3 r c 0)))) := by
  unfold Host.gather
  congr 1
  funext a
  refine Fin.ext ?_
  match a with
  | ⟨0, _⟩ =>
    show (gatherDims B N R C wf).start (ix3 b r c) idx 0 + (gatherDims B N R C wf).batchCoord (ix3 b r c) 0
      + (gatherDims B N R C wf).offCoord (ix3 b r c) 0 = b.val
    rw [GatherDims.batchCoord_eq_zero _ _ _ List.not_mem_nil]
    unfold GatherDims.start
    rw [dif_neg (show (0 : Fin 2) ∉ (gatherDims B N R C wf).startIndexMap from by
      show (0 : Fin 2) ∉ [(1 : Fin 2)]; decide)]
    simp only [Nat.add_zero, Nat.zero_add]
    rfl
  | ⟨1, _⟩ =>
    show (gatherDims B N R C wf).start (ix3 b r c) idx 1 + (gatherDims B N R C wf).batchCoord (ix3 b r c) 1
      + (gatherDims B N R C wf).offCoord (ix3 b r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gatherDims B N R C wf).startIndexMap from List.mem_singleton.mpr rfl)]
    have hsi : (gatherDims B N R C wf).siIdx (ix3 b r c) ⟨List.idxOf (1 : Fin 2) (gatherDims B N R C wf).startIndexMap,
        List.idxOf_lt_length_iff.2 (List.mem_singleton.mpr rfl)⟩ = ix3 r c 0 := by
      funext q; refine Fin.ext ?_
      match q with
      | ⟨0, _⟩ => rfl
      | ⟨1, _⟩ => rfl
      | ⟨2, _⟩ => rfl
    rw [hsi]
    rfl

end ColGather

end
-- ==== Proof.RefConv.lean ====
/-
  The reference's convolution. The reference normalises the gathered entity rows entry by entry, sends the gathered
  relation rows through the hypernetwork's linear layer and reads the 288 outputs as 32 filters of 9 taps, collects for
  every output position `w` the nine entries `w … w + 8` of the normalised row (a gather at the index table `w + f`,
  every entry of which lies inside the row), and contracts taps against entries over the nine positions.
-/
import proofs.«400437_j26628797235444_3_alg».proof.Proof.Gen.ReferenceIdeal.Read
import proofs.«400437_j26628797235444_3_alg».proof.Proof.HyperArr
import proofs.«400437_j26628797235444_3_alg».proof.Proof.LibRowOps
import proofs.«400437_j26628797235444_3_alg».proof.Proof.LibColGather

noncomputable section

open scoped BigOperators

namespace Cert.ReferenceIdeal.RefConv

open Idealize.ShloMosaic Idealize.ShloMosaic.ValueIdx Cert.ReferenceIdeal Cert.ReferenceIdeal.Read

/-! ## The table of positions -/

/-- A 32-bit word holding a number below 200 reads, signed, as that number. -/
theorem toInt_ofNat_small (n : Nat) (hn : n < 200) : (BitVec.ofNat 32 n).toInt = (n : Int) := by
  rw [BitVec.toInt_eq_toNat_cond, BitVec.toNat_ofNat]
  have h : n % 2 ^ 32 = n := Nat.mod_eq_of_lt (by omega)
  rw [h]
  split <;> omega

/-- The sum of the two counters at `(w, f)` is the word `w + f`: word addition of two small numbers does not wrap. -/
theorem sum_word (w : Fin 192) (f : Fin 9) :
    val_main_v41 (F := Ideal) (ix2 w f) = BitVec.ofNat 32 (w.val + f.val) := by
  rw [val_main_v41_apply, val_main_v39_apply, val_main_v36_apply, val_main_v35_apply, val_main_v40_apply,
    val_main_v38_apply, val_main_v37_apply]
  show BitVec.ofNat 32 w.val + BitVec.ofNat 32 f.val = _
  exact (BitVec.ofNat_add _ _).symm

/-- A word holding a number below 200 is not negative. -/
theorem not_neg_word (n : Nat) (hn : n < 200) : IntOp.cmpi .slt (BitVec.ofNat 32 n) 0#32 = 0#1 := by
  show BitVec.ofBool ((BitVec.ofNat 32 n).slt 0#32) = 0#1
  have h : (BitVec.ofNat 32 n).slt 0#32 = false := by
    unfold BitVec.slt
    rw [toInt_ofNat_small n hn]
    simp
  rw [h]; rfl

/-- Entry `(w, f, 0)` of the table of positions is the word `w + f`: the sum is never negative, so the branch that
    would add the row length to a negative position is not taken. -/
theorem table_apply (w : Fin 192) (f : Fin 9) :
    val_main_v47 (F := Ideal) (ix3 w f 0) = BitVec.ofNat 32 (w.val + f.val) := by
  have hj : idx_main_v47 (ix3 w f (0 : Fin 1)) = ix2 w f :=
    funext fun a => Fin.ext (by match a with | ⟨0, _⟩ => rfl | ⟨1, _⟩ => rfl)
  rw [val_main_v47_apply, val_main_v46_apply, val_main_v43_apply, val_main_v42_apply, val_main_c_3_apply, hj, sum_word,
    not_neg_word _ (by have := w.isLt; have := f.isLt; omega), select_zero]

/-! ## The normalised entity rows -/

/-- Entry `(b, d)` of the normalised array: the gathered entry minus the mean, times the inverse root of the variance
    plus the offset, times the scale, plus the shift; each of the four statistics is a one-element array spread over
    the whole array. -/
theorem norm_apply (x0 : (⟨S1024, .i32⟩ : BufTy).Contents (Elt Ideal)) (x2 : (⟨S100000x200, .f32⟩ : BufTy).Contents (Elt Ideal))
    (x9 x10 x11 x12 : (⟨S1, .f32⟩ : BufTy).Contents (Elt Ideal)) (b : Fin 1024) (d : Fin 200) :
    val_main_v21 (F := Ideal) x0 x2 x9 x10 x11 x12 (ix2 b d)
      = Hyper.bn (val_main_v6 (F := Ideal) x0 x2 (ix2 b d)) (x11 (ix1 0)) (x12 (ix1 0)) (x9 (ix1 0)) (x10 (ix1 0)) := by
  have e8 : idx_main_v7 (idx_main_v8 (ix2 b d)) = ix1 (0 : Fin 1) :=
    funext fun a => Fin.ext (by match a with | ⟨0, _⟩ => rfl)
  have e14 : idx_main_v13 (idx_main_v14 (ix2 b d)) = ix1 (0 : Fin 1) :=
    funext fun a => Fin.ext (by match a with | ⟨0, _⟩ => rfl)
  have e17 : idx_main_v16 (idx_main_v17 (ix2 b d)) = ix1 (0 : Fin 1) :=
    funext fun a => Fin.ext (by match a with | ⟨0, _⟩ => rfl)
  have e20 : idx_main_v19 (idx_main_v20 (ix2 b d)) = ix1 (0 : Fin 1) :=
    funext fun a => Fin.ext (by match a with | ⟨0, _⟩ => rfl)
  rw [val_main_v21_apply, val_main_v18_apply, val_main_v15_apply, val_main_v9_apply, val_main_v8_apply, val_main_v7_apply,
    val_main_v14_apply, val_main_v13_apply, val_main_v12_apply, val_main_v11_apply, val_main_v10_apply,
    val_main_cst_apply, val_main_v17_apply, val_main_v16_apply, val_main_v20_apply, val_main_v19_apply,
    e8, e14, e17, e20]
  simp only [Ideal.addf_def, Ideal.subf_def, Ideal.mulf_def, Ideal.hostUnary_rsqrt_def, Ideal.ofBits_def]
  rfl

/-! ## The filters -/

/-- Entry `(b, j)` of the linear layer's output: the inner product of relation row `b` with row `j` of the weight
    matrix (read through its transpose), plus entry `j` of the bias spread over the rows. -/
theorem lin_apply (x1 : (⟨S1024, .i32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal))
    (b : Fin 1024) (j : Fin 288) :
    val_main_v33 (F := Ideal) x1 x3 x4 x5 (ix2 b j)
      = (∑ k : Fin 200, val_main_v28 (F := Ideal) x1 x3 (ix2 b k) * x4 (ix2 j k)) + x5 (ix1 j) := by
  have e32 : idx_main_v31 (idx_main_v32 (ix2 b j)) = ix1 j :=
    funext fun a => Fin.ext (by match a with | ⟨0, _⟩ => rfl)
  rw [val_main_v33_apply, val_main_v30_apply, val_main_v32_apply, val_main_v31_apply, e32]
  simp only [Ideal.addf_def]
  refine congrArg (· + x5 (ix1 j)) (Finset.sum_congr rfl fun k _ => ?_)
  have el : lidx_main_v30 (ix2 b j) k = ix2 b k :=
    funext fun a => Fin.ext (by match a with | ⟨0, _⟩ => rfl | ⟨1, _⟩ => rfl)
  have er : idx_main_v29 (ridx_main_v30 (ix2 b j) k) = ix2 j k :=
    funext fun a => Fin.ext (by match a with | ⟨0, _⟩ => rfl | ⟨1, _⟩ => rfl)
  rw [val_main_v29_apply, el, er]

/-- Entry `(b, o, f)` of the filters: the 288 outputs of row `b` read as 32 rows of 9, so output `9 o + f`. -/
theorem taps_apply (x1 : (⟨S1024, .i32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal))
    (b : Fin 1024) (o : Fin 32) (f : Fin 9) :
    val_main_v34 (F := Ideal) x1 x3 x4 x5 (ix3 b o f)
      = val_main_v33 (F := Ideal) x1 x3 x4 x5
          (ix2 b (⟨9 * o.val + f.val, by have := o.isLt; have := f.isLt; omega⟩ : Fin 288)) := by
  have hb := b.isLt
  have ho := o.isLt
  have hf := f.isLt
  have hj : idx_main_v34 (ix3 b o f)
      = ix2 b (⟨9 * o.val + f.val, by omega⟩ : Fin 288) :=
    funext fun a => Fin.ext (by
      match a with
      | ⟨0, _⟩ => show ((b.val * 32 + o.val) * 9 + f.val) / 288 = b.val; omega
      | ⟨1, _⟩ => show ((b.val * 32 + o.val) * 9 + f.val) % 288 = 9 * o.val + f.val; omega)
  rw [val_main_v34_apply, hj]

/-! ## The windows -/

/-- Entry `(b, w, f)` of the gathered windows is entry `(b, w + f)` of the normalised array: the position `w + f`
    lies inside the row, so clamping leaves it as it is. -/
theorem windows_apply (x0 : (⟨S1024, .i32⟩ : BufTy).Contents (Elt Ideal)) (x2 : (⟨S100000x200, .f32⟩ : BufTy).Contents (Elt Ideal))
    (x9 x10 x11 x12 : (⟨S1, .f32⟩ : BufTy).Contents (Elt Ideal)) (b : Fin 1024) (w : Fin 192) (f : Fin 9) :
    val_main_v48 (F := Ideal) x0 x2 x9 x10 x11 x12 (ix3 b w f)
      = val_main_v21 (F := Ideal) x0 x2 x9 x10 x11 x12
          (ix2 b (⟨w.val + f.val, by have := w.isLt; have := f.isLt; omega⟩ : Fin 200)) := by
  have hw := w.isLt
  have hf := f.isLt
  unfold val_main_v48
  refine (ColGather.gather_apply (B := 1024) (N := 200) (R := 192) (C := 9) (by decide)
    gather_S1024x200_S192x9x1_S1024x192x9_0_1_n_n_1_2_10241.wf _ _ b w f).trans ?_
  rw [table_apply, ColGather.clampCol_of_toInt 200 (by decide) _ (w.val + f.val) (by omega) (toInt_ofNat_small _ (by omega))]

/-! ## The convolution -/

/-- Entry `(b, o, w)` of the reference's convolution: filter `o` of batch row `b` slid to position `w`. -/
theorem conv_apply (x0 x1 : (⟨S1024, .i32⟩ : BufTy).Contents (Elt Ideal)) (x2 : (⟨S100000x200, .f32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal)) (x6 : (⟨S200x6144, .f32⟩ : BufTy).Contents (Elt Ideal)) (x7 : (⟨S200, .f32⟩ : BufTy).Contents (Elt Ideal))
    (x8 : (⟨S100000, .f32⟩ : BufTy).Contents (Elt Ideal)) (x9 x10 x11 x12 : (⟨S1, .f32⟩ : BufTy).Contents (Elt Ideal)) (x13 x14 x15 x16 : (⟨S32, .f32⟩ : BufTy).Contents (Elt Ideal))
    (x17 x18 x19 x20 : (⟨S200, .f32⟩ : BufTy).Contents (Elt Ideal))
    (b : Fin 1024) (o : Fin 32) (w : Fin 192) :
    val_main_v49 (F := Ideal) x0 x1 x2 x3 x4 x5 x9 x10 x11 x12 (ix3 b o w)
      = Hyper.conv (Hyper.wtsOf x4 x5 x6 x7 x9 x10 x11 x12 x13 x14 x15 x16 x17 x18 x19 x20)
          (fun d => val_main_v6 (F := Ideal) x0 x2 (ix2 b d)) (fun k => val_main_v28 (F := Ideal) x1 x3 (ix2 b k)) o w := by
  have el : lidx_main_v49 (ix3 b o w) = fun f => ix3 b o f :=
    funext fun f => funext fun a => Fin.ext (by match a with | ⟨0, _⟩ => rfl | ⟨1, _⟩ => rfl | ⟨2, _⟩ => rfl)
  have er : ridx_main_v49 (ix3 b o w) = fun f => ix3 b w f :=
    funext fun f => funext fun a => Fin.ext (by match a with | ⟨0, _⟩ => rfl | ⟨1, _⟩ => rfl | ⟨2, _⟩ => rfl)
  rw [val_main_v49_apply, el, er]
  refine Finset.sum_congr rfl fun f _ => ?_
  rw [taps_apply, lin_apply, windows_apply, norm_apply]
  rfl

end Cert.ReferenceIdeal.RefConv

end
-- ==== Proof.RefValue.lean ====
/-
  What the reference returns: after the convolution it normalises every channel, flattens channel-major, applies the
  final linear layer, normalises, clips below at zero, and scores every hidden row against every entity; its logistic
  function is spelt `1 / (1 + exp (-x))`, which is the logistic function on every extended real.
-/
import proofs.«400437_j26628797235444_3_alg».proof.Proof.Gen.ReferenceIdeal.Read
import proofs.«400437_j26628797235444_3_alg».proof.Proof.HyperArr
import proofs.«400437_j26628797235444_3_alg».proof.Proof.RefConv

noncomputable section

open scoped BigOperators

namespace Cert.ReferenceIdeal.RefValue

open Idealize.ShloMosaic Idealize.ShloMosaic.ValueIdx Cert.ReferenceIdeal Cert.ReferenceIdeal.Read

/-- The single-precision word `0x3F800000` is the number one. -/
theorem ofBits_one_f32 : Ideal.ofBits .f32 0x3F800000#32 = 1 := by
  simp [Ideal.ofBits, Ideal.ieee, -EReal.coe_mul]; norm_num

/-- Entry `(b, o, w)` of the normalised convolution: the convolution's entry, shifted by its channel's mean, scaled by
    the inverse root of its channel's variance plus the offset, then by the channel's scale, and moved by its shift. -/
theorem hid_apply (x0 x1 : (⟨S1024, .i32⟩ : BufTy).Contents (Elt Ideal)) (x2 : (⟨S100000x200, .f32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal)) (x6 : (⟨S200x6144, .f32⟩ : BufTy).Contents (Elt Ideal)) (x7 : (⟨S200, .f32⟩ : BufTy).Contents (Elt Ideal))
    (x8 : (⟨S100000, .f32⟩ : BufTy).Contents (Elt Ideal)) (x9 x10 x11 x12 : (⟨S1, .f32⟩ : BufTy).Contents (Elt Ideal)) (x13 x14 x15 x16 : (⟨S32, .f32⟩ : BufTy).Contents (Elt Ideal))
    (x17 x18 x19 x20 : (⟨S200, .f32⟩ : BufTy).Contents (Elt Ideal))
    (b : Fin 1024) (o : Fin 32) (w : Fin 192) :
    val_main_v64 (F := Ideal) x0 x1 x2 x3 x4 x5 x9 x10 x11 x12 x13 x14 x15 x16 (ix3 b o w)
      = Hyper.hid (Hyper.wtsOf x4 x5 x6 x7 x9 x10 x11 x12 x13 x14 x15 x16 x17 x18 x19 x20)
          (fun d => val_main_v6 (F := Ideal) x0 x2 (ix2 b d)) (fun k => val_main_v28 (F := Ideal) x1 x3 (ix2 b k)) o w := by
  have e1 : idx_main_v50 (idx_main_v51 (ix3 b o w)) = ix1 o :=
    funext fun a => Fin.ext (by match a with | ⟨0, _⟩ => rfl)
  have e2 : idx_main_v56 (idx_main_v57 (ix3 b o w)) = ix1 o :=
    funext fun a => Fin.ext (by match a with | ⟨0, _⟩ => rfl)
  have e3 : idx_main_v59 (idx_main_v60 (ix3 b o w)) = ix1 o :=
    funext fun a => Fin.ext (by match a with | ⟨0, _⟩ => rfl)
  have e4 : idx_main_v62 (idx_main_v63 (ix3 b o w)) = ix1 o :=
    funext fun a => Fin.ext (by match a with | ⟨0, _⟩ => rfl)
  rw [val_main_v64_apply, val_main_v61_apply, val_main_v58_apply, val_main_v52_apply,
    val_main_v51_apply, val_main_v50_apply, val_main_v57_apply, val_main_v56_apply, val_main_v55_apply,
    val_main_v54_apply, val_main_v53_apply, val_main_cst_5_apply,
    val_main_v60_apply, val_main_v59_apply, val_main_v63_apply, val_main_v62_apply,
    RefConv.conv_apply x0 x1 x2 x3 x4 x5 x6 x7 x8 x9 x10 x11 x12 x13 x14 x15 x16 x17 x18 x19 x20 b o w,
    e1, e2, e3, e4]
  simp only [Ideal.addf_def, Ideal.mulf_def, Ideal.subf_def, Ideal.hostUnary_rsqrt_def, Ideal.ofBits_def]
  rfl

/-- Entry `(b, j)` of the flattened array is the normalised convolution at channel `j / 192`, position `j % 192`. -/
theorem flat_apply (x0 x1 : (⟨S1024, .i32⟩ : BufTy).Contents (Elt Ideal)) (x2 : (⟨S100000x200, .f32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal)) (x6 : (⟨S200x6144, .f32⟩ : BufTy).Contents (Elt Ideal)) (x7 : (⟨S200, .f32⟩ : BufTy).Contents (Elt Ideal))
    (x8 : (⟨S100000, .f32⟩ : BufTy).Contents (Elt Ideal)) (x9 x10 x11 x12 : (⟨S1, .f32⟩ : BufTy).Contents (Elt Ideal)) (x13 x14 x15 x16 : (⟨S32, .f32⟩ : BufTy).Contents (Elt Ideal))
    (x17 x18 x19 x20 : (⟨S200, .f32⟩ : BufTy).Contents (Elt Ideal))
    (b : Fin 1024) (j : Fin 6144) :
    val_main_v65 (F := Ideal) x0 x1 x2 x3 x4 x5 x9 x10 x11 x12 x13 x14 x15 x16 (ix2 b j)
      = Hyper.flat (Hyper.wtsOf x4 x5 x6 x7 x9 x10 x11 x12 x13 x14 x15 x16 x17 x18 x19 x20)
          (fun d => val_main_v6 (F := Ideal) x0 x2 (ix2 b d)) (fun k => val_main_v28 (F := Ideal) x1 x3 (ix2 b k)) j := by
  have hb : b.val < 1024 := b.isLt
  have hj : j.val < 6144 := j.isLt
  have e : idx_main_v65 (ix2 b j)
      = ix3 b (⟨j.val / 192, by omega⟩ : Fin 32) (⟨j.val % 192, Nat.mod_lt _ (by decide)⟩ : Fin 192) :=
    funext fun a => Fin.ext (by
      match a with
      | ⟨0, _⟩ => show (b.val * 6144 + j.val) / 6144 = b.val; omega
      | ⟨1, _⟩ => show (b.val * 6144 + j.val) / 192 % 32 = j.val / 192; omega
      | ⟨2, _⟩ => show (b.val * 6144 + j.val) % 192 = j.val % 192; omega)
  rw [val_main_v65_apply, e,
    hid_apply x0 x1 x2 x3 x4 x5 x6 x7 x8 x9 x10 x11 x12 x13 x14 x15 x16 x17 x18 x19 x20]
  rfl

/-- Entry `(b, d)` of the clipped array: the flattened row against row `d` of the final layer plus its bias, normalised
    with coordinate `d`'s statistics, and clipped below at zero. -/
theorem hidden_apply (x0 x1 : (⟨S1024, .i32⟩ : BufTy).Contents (Elt Ideal)) (x2 : (⟨S100000x200, .f32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal)) (x6 : (⟨S200x6144, .f32⟩ : BufTy).Contents (Elt Ideal)) (x7 : (⟨S200, .f32⟩ : BufTy).Contents (Elt Ideal))
    (x8 : (⟨S100000, .f32⟩ : BufTy).Contents (Elt Ideal)) (x9 x10 x11 x12 : (⟨S1, .f32⟩ : BufTy).Contents (Elt Ideal)) (x13 x14 x15 x16 : (⟨S32, .f32⟩ : BufTy).Contents (Elt Ideal))
    (x17 x18 x19 x20 : (⟨S200, .f32⟩ : BufTy).Contents (Elt Ideal))
    (b : Fin 1024) (d : Fin 200) :
    val_main_v86 (F := Ideal) x0 x1 x2 x3 x4 x5 x6 x7 x9 x10 x11 x12 x13 x14 x15 x16 x17 x18 x19 x20 (ix2 b d)
      = Hyper.yRow (Hyper.wtsOf x4 x5 x6 x7 x9 x10 x11 x12 x13 x14 x15 x16 x17 x18 x19 x20)
          (fun d => val_main_v6 (F := Ideal) x0 x2 (ix2 b d)) (fun k => val_main_v28 (F := Ideal) x1 x3 (ix2 b k)) d := by
  have e68 : idx_main_v68 (idx_main_v69 (ix2 b d)) = ix1 d :=
    funext fun a => Fin.ext (by match a with | ⟨0, _⟩ => rfl)
  have e71 : idx_main_v71 (idx_main_v72 (ix2 b d)) = ix1 d :=
    funext fun a => Fin.ext (by match a with | ⟨0, _⟩ => rfl)
  have e77 : idx_main_v77 (idx_main_v78 (ix2 b d)) = ix1 d :=
    funext fun a => Fin.ext (by match a with | ⟨0, _⟩ => rfl)
  have e80 : idx_main_v80 (idx_main_v81 (ix2 b d)) = ix1 d :=
    funext fun a => Fin.ext (by match a with | ⟨0, _⟩ => rfl)
  have e83 : idx_main_v83 (idx_main_v84 (ix2 b d)) = ix1 d :=
    funext fun a => Fin.ext (by match a with | ⟨0, _⟩ => rfl)
  have el : ∀ k : Fin 6144, lidx_main_v67 (ix2 b d) k = ix2 b k := fun k =>
    funext fun a => Fin.ext (by match a with | ⟨0, _⟩ => rfl | ⟨1, _⟩ => rfl)
  have er : ∀ k : Fin 6144, idx_main_v66 (ridx_main_v67 (ix2 b d) k) = ix2 d k := fun k =>
    funext fun a => Fin.ext (by match a with | ⟨0, _⟩ => rfl | ⟨1, _⟩ => rfl)
  rw [val_main_v86_apply, val_main_v85_apply, val_main_v82_apply, val_main_v79_apply, val_main_v73_apply,
    val_main_v70_apply, val_main_v67_apply,
    val_main_v69_apply, val_main_v68_apply, val_main_v72_apply, val_main_v71_apply,
    val_main_v78_apply, val_main_v77_apply, val_main_v76_apply, val_main_v75_apply, val_main_v74_apply, val_main_cst_6_apply,
    val_main_v81_apply, val_main_v80_apply, val_main_v84_apply, val_main_v83_apply,
    val_main_call0_v0_apply, val_main_call0_cst_apply, e68, e71, e77, e80, e83]
  simp only [val_main_v66_apply, el, er, flat_apply x0 x1 x2 x3 x4 x5 x6 x7 x8 x9 x10 x11 x12 x13 x14 x15 x16 x17 x18 x19 x20,
    Ideal.addf_def, Ideal.mulf_def, Ideal.subf_def, Ideal.maximumf_def, Ideal.hostUnary_rsqrt_def, Ideal.ofBits_def,
    Ideal.ofBits_zero_f32]
  rfl

/-- The reference's result is the score array of the hidden array of its two gathered arrays. -/
theorem value (x0 x1 : (⟨S1024, .i32⟩ : BufTy).Contents (Elt Ideal)) (x2 : (⟨S100000x200, .f32⟩ : BufTy).Contents (Elt Ideal)) (x3 : (⟨S200x200, .f32⟩ : BufTy).Contents (Elt Ideal))
    (x4 : (⟨S288x200, .f32⟩ : BufTy).Contents (Elt Ideal)) (x5 : (⟨S288, .f32⟩ : BufTy).Contents (Elt Ideal)) (x6 : (⟨S200x6144, .f32⟩ : BufTy).Contents (Elt Ideal)) (x7 : (⟨S200, .f32⟩ : BufTy).Contents (Elt Ideal))
    (x8 : (⟨S100000, .f32⟩ : BufTy).Contents (Elt Ideal)) (x9 x10 x11 x12 : (⟨S1, .f32⟩ : BufTy).Contents (Elt Ideal)) (x13 x14 x15 x16 : (⟨S32, .f32⟩ : BufTy).Contents (Elt Ideal))
    (x17 x18 x19 x20 : (⟨S200, .f32⟩ : BufTy).Contents (Elt Ideal)) :
    val_main_v97 (F := Ideal) x0 x1 x2 x3 x4 x5 x6 x7 x8 x9 x10 x11 x12 x13 x14 x15 x16 x17 x18 x19 x20
      = Hyper.scores (Hyper.wtsOf x4 x5 x6 x7 x9 x10 x11 x12 x13 x14 x15 x16 x17 x18 x19 x20)
          (val_main_v6 (F := Ideal) x0 x2) (val_main_v28 (F := Ideal) x1 x3) x2 x8 := by
  funext i
  obtain ⟨b, n, rfl⟩ : ∃ (b : Fin 1024) (n : Fin 100000), i = ix2 b n := ⟨i 0, i 1, eq_ix2 i⟩
  have e89 : idx_main_v89 (idx_main_v90 (ix2 b n)) = ix1 n :=
    funext fun a => Fin.ext (by match a with | ⟨0, _⟩ => rfl)
  have el : ∀ k : Fin 200, lidx_main_v88 (ix2 b n) k = ix2 b k := fun k =>
    funext fun a => Fin.ext (by match a with | ⟨0, _⟩ => rfl | ⟨1, _⟩ => rfl)
  have er : ∀ k : Fin 200, idx_main_v87 (ridx_main_v88 (ix2 b n) k) = ix2 n k := fun k =>
    funext fun a => Fin.ext (by match a with | ⟨0, _⟩ => rfl | ⟨1, _⟩ => rfl)
  rw [val_main_v97_apply, val_main_v96_apply, val_main_cst_8_apply, val_main_v95_apply, val_main_v94_apply,
    val_main_cst_7_apply, val_main_v93_apply, val_main_v92_apply, val_main_v91_apply, val_main_v88_apply,
    val_main_v90_apply, val_main_v89_apply, e89]
  simp only [val_main_v87_apply, el, er, hidden_apply x0 x1 x2 x3 x4 x5 x6 x7 x8 x9 x10 x11 x12 x13 x14 x15 x16 x17 x18 x19 x20,
    Ideal.hostDivf_def, Ideal.addf_def, Ideal.hostUnary_exp_def, Ideal.hostNegf_def, Ideal.negf_def, Ideal.ofBits_def,
    ofBits_one_f32]
  rfl

end Cert.ReferenceIdeal.RefValue

end
-- ==== Proof.Take.lean ====
/-
  The two row gathers agree under the precondition. The kernel's program takes rows with a fill: it wraps a negative
  index by the table's height, gathers, and then replaces by a not-a-number every row whose wrapped index is not
  between 0 and the last row. The reference wraps and gathers only. The precondition says every entity index is in
  `[0, 100000)` and every relation index in `[0, 200)`; then no index is negative, the wrap leaves it alone, the range
  test holds on every row, and the fill never happens: the two gathered arrays are the same array.
-/
import proofs.«400437_j26628797235444_3_alg».proof.Defs
import proofs.«400437_j26628797235444_3_alg».proof.Proof.Gen.KernelIdeal.Frame
import proofs.«400437_j26628797235444_3_alg».proof.Proof.Gen.ReferenceIdeal.Read
import proofs.«400437_j26628797235444_3_alg».proof.Proof.Gen.Pre_finite_inputs
import proofs.«400437_j26628797235444_3_alg».proof.Proof.LibRowOps
import Idealize.ShloMosaic.Lib.ReduceAll
import Idealize.ShloMosaic.Lib.StableHlo.Predicate

set_option maxRecDepth 16384

noncomputable section

namespace Cert.Take

open Idealize.ShloMosaic Idealize.ShloMosaic.ValueIdx Idealize.SL.Sem

/-! ## Words: a row number inside its table is not wrapped and passes the range test -/

/-- A left fold by `and` from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and`, started at 1, of an array whose bits are all 1 is 1 at every index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-- The wrap adds the table's height `n` to a negative row number; a row number that is not negative stays. -/
theorem wrap_eq (n w : BitVec 32) (h0 : IntOp.cmpi .sge w 0#32 = 1#1) :
    Scalar.select (IntOp.cmpi .slt w 0#32) (IntOp.addi w n) w = w := by
  refine if_neg fun h => ?_
  have h1 := IntOp.cmpi_slt.1 h
  have h2 := IntOp.cmpi_sge.1 h0
  omega

/-- A row number in `[0, n)` passes the test against `[0, hi]` when `hi` is the last row, `hi + 1 = n`. -/
theorem range_ok (n hi w : BitVec 32) (hn : hi.toInt + 1 = n.toInt) (h0 : IntOp.cmpi .sge w 0#32 = 1#1)
    (h1 : IntOp.cmpi .slt w n = 1#1) :
    IntOp.andi (IntOp.cmpi .sge w 0#32) (IntOp.cmpi .sle w hi) = 1#1 := by
  refine IntOp.andi_eq_one.2 ⟨h0, IntOp.cmpi_sle.2 ?_⟩
  have h2 := IntOp.cmpi_slt.1 h1
  omega

/-! ## Arrays: the wrapped column, the range bits, the fill -/

/-- The column of row numbers both programs gather at: the vector of row numbers, a negative one wrapped by the
    table's height `n`, laid out as a `[1024, 1]` column. -/
def wrapped (n : BitVec 32) (x : IVec Cert.KernelIdeal.S1024 32) : IVec Cert.KernelIdeal.S1024x1 32 :=
  broadcastInDim Cert.KernelIdeal.S1024x1 ![0] Cert.KernelIdeal.Gen.bcast_S1024_S1024x1_0
    (select (cmpi .slt x (broadcastInDim Cert.KernelIdeal.S1024 ![] Cert.KernelIdeal.Gen.bcast_S_S1024 (constantI Cert.KernelIdeal.S_ 32 0#32)))
      (addi x (broadcastInDim Cert.KernelIdeal.S1024 ![] Cert.KernelIdeal.Gen.bcast_S_S1024 (constantI Cert.KernelIdeal.S_ 32 n))) x)

/-- The kernel's range test of a column of row numbers against a table whose last row is `hi`: one bit per row of the
    column, set when the row number is between 0 and `hi`. -/
def inRange (hi : BitVec 32) (idx : IVec Cert.KernelIdeal.S1024x1 32) : IVec Cert.KernelIdeal.S1024 1 :=
  Host.reduce IntOp.andi
    (andi (cmpi .sge idx (broadcastInDim Cert.KernelIdeal.S1024x1 ![] Cert.KernelIdeal.Gen.bcast_S_S1024x1 (constantI Cert.KernelIdeal.S_ 32 0#32)))
      (cmpi .sle idx (broadcastInDim Cert.KernelIdeal.S1024x1 ![0, 1] Cert.KernelIdeal.Gen.bcast_S1x1_S1024x1_0_1
        (broadcastInDim Cert.KernelIdeal.S1x1 ![1] Cert.KernelIdeal.Gen.bcast_S1_S1x1_1 (constantI Cert.KernelIdeal.S1 32 hi)))))
    (constantI Cert.KernelIdeal.S_ 1 1#1) Cert.KernelIdeal.Gen.reducesTo_S1024x1_S1024_d1 Cert.KernelIdeal.Gen.h_S_

/-- Rows taken with a fill: the gathered row where its range bit is set, not-a-numbers elsewhere. -/
def filled (ok : IVec Cert.KernelIdeal.S1024 1) (rows : FVec Ideal Cert.KernelIdeal.S1024x200 .f32) :
    FVec Ideal Cert.KernelIdeal.S1024x200 .f32 :=
  select (broadcastInDim Cert.KernelIdeal.S1024x200 ![0] Cert.KernelIdeal.Gen.bcast_S1024_S1024x200_0 ok) rows
    (broadcastInDim Cert.KernelIdeal.S1024x200 ![] Cert.KernelIdeal.Gen.bcast_S_S1024x200
      (constant (F := Ideal) Cert.KernelIdeal.S_ .f32 0x7FC00000#32))

/-- Where no row number is negative, each entry of the wrapped column is one of the row numbers. -/
theorem wrapped_apply (n : BitVec 32) (x : IVec Cert.KernelIdeal.S1024 32) (hx : ∀ b, IntOp.cmpi .sge (x b) 0#32 = 1#1)
    (i : Cert.KernelIdeal.S1024x1.Idx) : ∃ b, wrapped n x i = x b := by
  unfold wrapped broadcastInDim
  exact ⟨_, wrap_eq n _ (hx _)⟩

/-- Where every row number is in `[0, n)`, every range bit of the wrapped column is set. -/
theorem inRange_wrapped (n hi : BitVec 32) (hn : hi.toInt + 1 = n.toInt) (x : IVec Cert.KernelIdeal.S1024 32)
    (hx : ∀ b, IntOp.cmpi .sge (x b) 0#32 = 1#1 ∧ IntOp.cmpi .slt (x b) n = 1#1) (j : Cert.KernelIdeal.S1024.Idx) :
    inRange hi (wrapped n x) j = 1#1 := by
  unfold inRange
  refine reduce_andi_ones _ _ _ _ rfl (fun i => ?_) j
  obtain ⟨b, hb⟩ := wrapped_apply n x (fun b => (hx b).1) i
  show IntOp.andi (IntOp.cmpi .sge (wrapped n x i) 0#32) (IntOp.cmpi .sle (wrapped n x i) hi) = 1#1
  rw [hb]
  exact range_ok n hi (x b) hn (hx b).1 (hx b).2

/-- With every range bit set the fill never happens: the rows are the gathered rows. -/
theorem filled_of_ok (ok : IVec Cert.KernelIdeal.S1024 1) (rows : FVec Ideal Cert.KernelIdeal.S1024x200 .f32)
    (hok : ∀ j, ok j = 1#1) : filled ok rows = rows := by
  funext i
  unfold filled broadcastInDim
  show Scalar.select (ok _) (rows i) _ = rows i
  rw [hok]
  exact if_pos rfl

/-! ## The precondition, decoded at one row -/

variable (m : (ℓ : Loc Cert.KernelIdeal.nD Cert.KernelIdeal.τ Cert.KernelIdeal.sig) → Buf (Elt Ideal) ℓ)
  (ρ : Dev Cert.KernelIdeal.nD → PrngReg)

/-- The entity row numbers and the relation row numbers core `c` is launched with. -/
abbrev entIdx (c : Dev Cert.KernelIdeal.nD) : IVec Cert.KernelIdeal.S1024 32 :=
  m ((c.tc : Thread Cert.KernelIdeal.nD Cert.KernelIdeal.τ).loc Cert.KernelIdeal.main_arg0)
abbrev relIdx (c : Dev Cert.KernelIdeal.nD) : IVec Cert.KernelIdeal.S1024 32 :=
  m ((c.tc : Thread Cert.KernelIdeal.nD Cert.KernelIdeal.τ).loc Cert.KernelIdeal.main_arg1)

/-- The precondition is a conjunction of reductions by `and`; its last two conjuncts say, at every row `b`, that the
    entity row number is in `[0, 100000)` and the relation row number in `[0, 200)`, read signed. -/
theorem pre_words (hpre : Cert.Pre_KernelIdeal (hPre_finite_inputs := Cert.Pre_finite_inputs.Gen.facts) m)
    (c : Dev Cert.KernelIdeal.nD) (b : Cert.KernelIdeal.S1024.Idx) :
    (IntOp.cmpi .sge (entIdx m c b) 0#32 = 1#1 ∧ IntOp.cmpi .slt (entIdx m c b) 100000#32 = 1#1)
      ∧ (IntOp.cmpi .sge (relIdx m c b) 0#32 = 1#1 ∧ IntOp.cmpi .slt (relIdx m c b) 200#32 = 1#1) := by
  haveI : Subsingleton Cert.Pre_finite_inputs.S_.Idx := ⟨fun a b => funext fun d => d.elim0⟩
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at e
  change IntOp.andi (IntOp.andi _ _) _ = 1#1 at e
  obtain ⟨e1, e106⟩ := IntOp.andi_eq_one.1 e
  obtain ⟨-, e99⟩ := IntOp.andi_eq_one.1 e1
  have h99 := Host.reduce_andi_all _ _ _ _ _ e99 b
  have h106 := Host.reduce_andi_all _ _ _ _ _ e106 b
  exact ⟨IntOp.andi_eq_one.1 h99, IntOp.andi_eq_one.1 h106⟩

/-! ## What the kernel's program hands its first kernel: the operations' composed terms -/

open Cert.KernelIdeal Cert.KernelIdeal.Gen in
set_option maxHeartbeats 1000000 in
/-- The entity rows the first kernel is given: the reference's gathered rows, filled where the range test fails. -/
theorem read_ent (c : Dev Cert.KernelIdeal.nD) :
    Cert.KernelIdeal.Gen.V3 m ρ c Cert.KernelIdeal.main_v0
      = filled (inRange 99999#32 (wrapped 100000#32 (entIdx m c)))
          (Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2))) := by
  show StableHlo.after hostOps0_2 (StableHlo.after hostOps0_1 (StableHlo.after hostOps0 (W0 m ρ c))) (Proc.devRef .tc Cert.KernelIdeal.main_v0) = _
  rw [StableHlo.after_of_forall_not_mem (b := Proc.devRef .tc main_v0) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  rw [StableHlo.after_of_forall_not_mem (b := Proc.devRef .tc main_v0) _ _ (List.forall_iff_forall_mem.mp (by
          simp only [hostOps0_1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  after_results_simp
  rfl

open Cert.KernelIdeal Cert.KernelIdeal.Gen in
set_option maxHeartbeats 1000000 in
/-- The relation rows the first kernel is given: the reference's gathered rows, filled where the range test fails. -/
theorem read_rel (c : Dev Cert.KernelIdeal.nD) :
    Cert.KernelIdeal.Gen.V3 m ρ c Cert.KernelIdeal.main_v1
      = filled (inRange 199#32 (wrapped 200#32 (relIdx m c)))
          (Cert.ReferenceIdeal.Read.val_main_v28 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3))) := by
  show StableHlo.after hostOps0_2 (StableHlo.after hostOps0_1 (StableHlo.after hostOps0 (W0 m ρ c))) (Proc.devRef .tc Cert.KernelIdeal.main_v1) = _
  rw [StableHlo.after_of_forall_not_mem (b := Proc.devRef .tc main_v1) _ _ (List.forall_iff_forall_mem.mp (by
          simp only [hostOps0_2, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))]
  after_results_simp
  rfl

/-! ## The two gathers agree -/

/-- Under the precondition the entity rows the first kernel is given are the reference's gathered entity rows. -/
theorem ent_eq (hpre : Cert.Pre_KernelIdeal (hPre_finite_inputs := Cert.Pre_finite_inputs.Gen.facts) m) (c : Dev Cert.KernelIdeal.nD) :
    Cert.KernelIdeal.Gen.V3 m ρ c Cert.KernelIdeal.main_v0
      = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) :=
  (read_ent m ρ c).trans (filled_of_ok _ _
    (inRange_wrapped 100000#32 99999#32 (by decide) (entIdx m c) fun b => (pre_words m hpre c b).1))

/-- Under the precondition the relation rows the first kernel is given are the reference's gathered relation rows. -/
theorem rel_eq (hpre : Cert.Pre_KernelIdeal (hPre_finite_inputs := Cert.Pre_finite_inputs.Gen.facts) m) (c : Dev Cert.KernelIdeal.nD) :
    Cert.KernelIdeal.Gen.V3 m ρ c Cert.KernelIdeal.main_v1
      = Cert.ReferenceIdeal.Read.val_main_v28 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) :=
  (read_rel m ρ c).trans (filled_of_ok _ _
    (inRange_wrapped 200#32 199#32 (by decide) (relIdx m c) fun b => (pre_words m hpre c b).2))

end Cert.Take

end
-- ==== Proof.lean ====
/-
  The scoring network of a knowledge-graph model, computed two ways, gives the same scores.

  Both programs take a batch of 1024 (entity, relation) index pairs, look the pairs up in an entity table of 100000
  rows and a relation table of 200 rows, turn each relation row into 32 filters of 9 taps with a linear layer, slide
  the filters along the batch-normalised entity row, batch-normalise the 32 × 192 outputs per channel, flatten them,
  apply a second linear layer and a batch normalisation, clip below at zero, and score the resulting hidden vector
  against every entity: the logistic function of its inner product with the entity's row plus the entity's bias.

  One program does this with two tiled kernels: the first computes the hidden array 128 batch rows at a time, the second
  scores all hidden rows against 2048 entities at a time over the table padded to a multiple of 2048, and the padding
  columns are cut off. It convolves by nine accumulations of a shifted slice times a tap, starting from zero, where the
  other program gathers the nine shifted entries and contracts once; in the extended reals the two are the same
  nine-term sum. Every matrix product on either side is the same finite sum of products, and the narrower number format
  the kernels pass to their products is the identity on extended reals.

  The programs differ in how they look rows up: one replaces a row whose index is out of range by a not-a-number,
  the other reads a clamped row. Under the precondition every index is in range, and the two lookups coincide.
  Nothing else of the precondition is used: no step distributes a product over a sum or cancels, so finiteness of the
  inputs plays no part.
-/
import proofs.«400437_j26628797235444_3_alg».proof.Defs
import proofs.«400437_j26628797235444_3_alg».proof.Proof.Gen.Kernel
import proofs.«400437_j26628797235444_3_alg».proof.Proof.Gen.Kernel.Frame
import proofs.«400437_j26628797235444_3_alg».proof.Proof.Gen.KernelIdeal
import proofs.«400437_j26628797235444_3_alg».proof.Proof.Gen.KernelIdeal.Frame
import proofs.«400437_j26628797235444_3_alg».proof.Proof.Gen.ReferenceIdeal
import proofs.«400437_j26628797235444_3_alg».proof.Proof.Gen.Pre_finite_inputs
import proofs.«400437_j26628797235444_3_alg».proof.Proof.Gen.ReferenceIdeal.Run
import proofs.«400437_j26628797235444_3_alg».proof.Proof.Gen.ReferenceIdeal.Read
import proofs.«400437_j26628797235444_3_alg».proof.Proof.KRun
import proofs.«400437_j26628797235444_3_alg».proof.Proof.KValue
import proofs.«400437_j26628797235444_3_alg».proof.Proof.RefValue
import proofs.«400437_j26628797235444_3_alg».proof.Proof.Take
import Idealize.ShloMosaic.Adequacy
import Idealize.ShloMosaic.Init

noncomputable section

namespace Cert.Proof

open Idealize.ShloMosaic Idealize.SL.Sem

/-- From memories that agree on the arguments both programs end, and both results are the score array of the hidden
    array of the gathered rows: the kernel's program by its run and the value of its result buffer, the reference by
    its run read stage by stage, the two gathered arrays identified under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Hyper.scores (Cert.KernelIdeal.Final0.W m c)
      (Cert.KernelIdeal.Gen.V3 m ρ c Cert.KernelIdeal.main_v0) (Cert.KernelIdeal.Gen.V3 m ρ c Cert.KernelIdeal.main_v1)
      (m ((c.tc : Thread Cert.KernelIdeal.nD Cert.KernelIdeal.τ).loc Cert.KernelIdeal.main_arg2)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.KValue.value m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v97_eq, Cert.ReferenceIdeal.RefValue.value,
      h0, h1, h2, h3, h4, h5, h6, h7, h8, h9, h10, h11, h12, h13, h14, h15, h16, h17, h18, h19, h20,
      ← Cert.Take.ent_eq m ρ hpre c, ← Cert.Take.rel_eq m ρ hpre c]
    rfl

/-- The whole claim: each of the three programs runs to its end and leaves its argument arrays as they were; the
    kernel's program over the extended reals is its own text with no operation rewritten, so that conjunct asks
    nothing; and under the precondition the two programs over the extended reals return the same score array. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
